-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "inv_m" .f32 0x37AAAAAB#32 ((1 / 49152 : ℝ) : EReal)

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![49152, 768]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1536x768 : Shape := ⟨2, ![1536, 768]⟩
abbrev S_ : Shape := ⟨0, ![]⟩

class Facts : Prop where
  bcast_S_S1536x768 : S_.BroadcastsInDim S1536x768 (![] : Fin 0 → Fin S1536x768.rank)
  reducesTo_S1536x768_S_d0_1 : S1536x768.ReducesTo [0, 1] S_
  h_S_ : 0 < S_.numel

variable [Facts]

def fn {F : FTy → Type} [FloatOps F] (main_arg0 : FVec F S1536x768 .f32) : IVec S_ 1 :=
  let main_v0 : FVec F S1536x768 .f32 := Host.absf main_arg0
  let main_cst : FVec F S_ .f32 := constant S_ .f32 0x7F800000#32
  let main_v1 : FVec F S1536x768 .f32 := broadcastInDim S1536x768 ![] bcast_S_S1536x768 main_cst
  let main_v2 : IVec S1536x768 1 := cmpf .olt main_v0 main_v1
  let main_c : IVec S_ 1 := constantI S_ 1 1#1
  let main_v3 : IVec S_ 1 := (fun x v => Host.reduce IntOp.andi x v reducesTo_S1536x768_S_d0_1 h_S_) main_v2 main_c
  main_v3
-- ==== Pre_finite_inputs_ReferenceIdeal.lean ====
abbrev S49152x768 : Shape := ⟨2, ![49152, 768]⟩
abbrev S_ : Shape := ⟨0, ![]⟩

class Facts : Prop where
  bcast_S_S49152x768 : S_.BroadcastsInDim S49152x768 (![] : Fin 0 → Fin S49152x768.rank)
  reducesTo_S49152x768_S_d0_1 : S49152x768.ReducesTo [0, 1] S_
  h_S_ : 0 < S_.numel

variable [Facts]

def fn {F : FTy → Type} [FloatOps F] (main_arg0 : FVec F S49152x768 .f32) : IVec S_ 1 :=
  let main_v0 : FVec F S49152x768 .f32 := Host.absf main_arg0
  let main_cst : FVec F S_ .f32 := constant S_ .f32 0x7F800000#32
  let main_v1 : FVec F S49152x768 .f32 := broadcastInDim S49152x768 ![] bcast_S_S49152x768 main_cst
  let main_v2 : IVec S49152x768 1 := cmpf .olt main_v0 main_v1
  let main_c : IVec S_ 1 := constantI S_ 1 1#1
  let main_v3 : IVec S_ 1 := (fun x v => Host.reduce IntOp.andi x v reducesTo_S49152x768_S_d0_1 h_S_) main_v2 main_c
  main_v3
-- ==== Kernel.lean ====
abbrev S1536x768 : Shape := ⟨2, ![1536, 768]⟩
abbrev S1x768 : Shape := ⟨2, ![1, 768]⟩
abbrev S31x768 : Shape := ⟨2, ![31, 768]⟩
abbrev S31 : Shape := ⟨1, ![31]⟩
abbrev S_ : Shape := ⟨0, ![]⟩
abbrev S768 : Shape := ⟨1, ![768]⟩
abbrev S1 : Shape := ⟨1, ![1]⟩
abbrev S8x768 : Shape := ⟨2, ![8, 768]⟩
abbrev S7x768 : Shape := ⟨2, ![7, 768]⟩

abbrev nBuf : Space → Nat
  | .hbm => 2
  | .vmem => 4
  | .smem => 0
  | _ => 0

abbrev bufTy : (tb : Table) → Fin (tcTables nBuf tb) → BufTy
  | .hbm, ⟨0, _⟩ => ⟨S1536x768, .f32⟩
  | .hbm, ⟨1, _⟩ => ⟨S1x768, .f32⟩
  | .local _ .vmem, ⟨0, _⟩ => ⟨S1536x768, .f32⟩
  | .local _ .vmem, ⟨1, _⟩ => ⟨S1x768, .f32⟩
  | .local _ .vmem, ⟨2, _⟩ => ⟨S1x768, .f32⟩
  | .local _ .vmem, ⟨3, _⟩ => ⟨S31x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_dev32 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_283 : BitVec 32 := 1#32
  let v413 : BitVec 32 := Scalar.addi v2 c1_i32_283
  let c32_i32_284 : BitVec 32 := 32#32
  let c0_i32_285 : BitVec 32 := 0#32
  let v414 : BitVec 1 := Scalar.cmpi .eq c32_i32_284 c0_i32_285
  let c1_i32_286 : BitVec 32 := 1#32
  let v415 : BitVec 32 := Scalar.select v414 c1_i32_286 c32_i32_284
  let v416 : BitVec 32 := Scalar.remsi v413 v415
  let c0_i32_288 : BitVec 32 := 0#32
  let v418 : BitVec 1 := Scalar.cmpi .slt v416 c0_i32_288
  let c0_i32_289 : BitVec 32 := 0#32
  let v419 : BitVec 1 := Scalar.cmpi .slt v415 c0_i32_289
  let v420 : BitVec 1 := Scalar.xori v418 v419
  let c0_i32_287 : BitVec 32 := 0#32
  let v417 : BitVec 1 := Scalar.cmpi .ne v416 c0_i32_287
  let v421 : BitVec 1 := Scalar.andi v420 v417
  let v422 : BitVec 32 := Scalar.addi v416 v415
  let v423 : BitVec 32 := Scalar.select v421 v422 v416
  let c1_i32_292 : BitVec 32 := 1#32
  let v424 : BitVec 32 := Scalar.muli v423 c1_i32_292
  let v425 : BitVec 32 := Scalar.addi c0_i32_293 v424
  v425.toNat
def k0_dev33 (d0 : Dev nD) : Nat :=
  let c0_i32_306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_296 : BitVec 32 := 2#32
  let v431 : BitVec 32 := Scalar.addi v2 c2_i32_296
  let c32_i32_297 : BitVec 32 := 32#32
  let c0_i32_298 : BitVec 32 := 0#32
  let v432 : BitVec 1 := Scalar.cmpi .eq c32_i32_297 c0_i32_298
  let c1_i32_299 : BitVec 32 := 1#32
  let v433 : BitVec 32 := Scalar.select v432 c1_i32_299 c32_i32_297
  let v434 : BitVec 32 := Scalar.remsi v431 v433
  let c0_i32_301 : BitVec 32 := 0#32
  let v436 : BitVec 1 := Scalar.cmpi .slt v434 c0_i32_301
  let c0_i32_302 : BitVec 32 := 0#32
  let v437 : BitVec 1 := Scalar.cmpi .slt v433 c0_i32_302
  let v438 : BitVec 1 := Scalar.xori v436 v437
  let c0_i32_300 : BitVec 32 := 0#32
  let v435 : BitVec 1 := Scalar.cmpi .ne v434 c0_i32_300
  let v439 : BitVec 1 := Scalar.andi v438 v435
  let v440 : BitVec 32 := Scalar.addi v434 v433
  let v441 : BitVec 32 := Scalar.select v439 v440 v434
  let c1_i32_305 : BitVec 32 := 1#32
  let v442 : BitVec 32 := Scalar.muli v441 c1_i32_305
  let v443 : BitVec 32 := Scalar.addi c0_i32_306 v442
  v443.toNat
def k0_dev34 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_309 : BitVec 32 := 3#32
  let v449 : BitVec 32 := Scalar.addi v2 c3_i32_309
  let c32_i32_310 : BitVec 32 := 32#32
  let c0_i32_311 : BitVec 32 := 0#32
  let v450 : BitVec 1 := Scalar.cmpi .eq c32_i32_310 c0_i32_311
  let c1_i32_312 : BitVec 32 := 1#32
  let v451 : BitVec 32 := Scalar.select v450 c1_i32_312 c32_i32_310
  let v452 : BitVec 32 := Scalar.remsi v449 v451
  let c0_i32_314 : BitVec 32 := 0#32
  let v454 : BitVec 1 := Scalar.cmpi .slt v452 c0_i32_314
  let c0_i32_315 : BitVec 32 := 0#32
  let v455 : BitVec 1 := Scalar.cmpi .slt v451 c0_i32_315
  let v456 : BitVec 1 := Scalar.xori v454 v455
  let c0_i32_313 : BitVec 32 := 0#32
  let v453 : BitVec 1 := Scalar.cmpi .ne v452 c0_i32_313
  let v457 : BitVec 1 := Scalar.andi v456 v453
  let v458 : BitVec 32 := Scalar.addi v452 v451
  let v459 : BitVec 32 := Scalar.select v457 v458 v452
  let c1_i32_318 : BitVec 32 := 1#32
  let v460 : BitVec 32 := Scalar.muli v459 c1_i32_318
  let v461 : BitVec 32 := Scalar.addi c0_i32_319 v460
  v461.toNat
def k0_dev35 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_322 : BitVec 32 := 4#32
  let v467 : BitVec 32 := Scalar.addi v2 c4_i32_322
  let c32_i32_323 : BitVec 32 := 32#32
  let c0_i32_324 : BitVec 32 := 0#32
  let v468 : BitVec 1 := Scalar.cmpi .eq c32_i32_323 c0_i32_324
  let c1_i32_325 : BitVec 32 := 1#32
  let v469 : BitVec 32 := Scalar.select v468 c1_i32_325 c32_i32_323
  let v470 : BitVec 32 := Scalar.remsi v467 v469
  let c0_i32_327 : BitVec 32 := 0#32
  let v472 : BitVec 1 := Scalar.cmpi .slt v470 c0_i32_327
  let c0_i32_328 : BitVec 32 := 0#32
  let v473 : BitVec 1 := Scalar.cmpi .slt v469 c0_i32_328
  let v474 : BitVec 1 := Scalar.xori v472 v473
  let c0_i32_326 : BitVec 32 := 0#32
  let v471 : BitVec 1 := Scalar.cmpi .ne v470 c0_i32_326
  let v475 : BitVec 1 := Scalar.andi v474 v471
  let v476 : BitVec 32 := Scalar.addi v470 v469
  let v477 : BitVec 32 := Scalar.select v475 v476 v470
  let c1_i32_331 : BitVec 32 := 1#32
  let v478 : BitVec 32 := Scalar.muli v477 c1_i32_331
  let v479 : BitVec 32 := Scalar.addi c0_i32_332 v478
  v479.toNat
def k0_dev36 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_335 : BitVec 32 := 5#32
  let v485 : BitVec 32 := Scalar.addi v2 c5_i32_335
  let c32_i32_336 : BitVec 32 := 32#32
  let c0_i32_337 : BitVec 32 := 0#32
  let v486 : BitVec 1 := Scalar.cmpi .eq c32_i32_336 c0_i32_337
  let c1_i32_338 : BitVec 32 := 1#32
  let v487 : BitVec 32 := Scalar.select v486 c1_i32_338 c32_i32_336
  let v488 : BitVec 32 := Scalar.remsi v485 v487
  let c0_i32_340 : BitVec 32 := 0#32
  let v490 : BitVec 1 := Scalar.cmpi .slt v488 c0_i32_340
  let c0_i32_341 : BitVec 32 := 0#32
  let v491 : BitVec 1 := Scalar.cmpi .slt v487 c0_i32_341
  let v492 : BitVec 1 := Scalar.xori v490 v491
  let c0_i32_339 : BitVec 32 := 0#32
  let v489 : BitVec 1 := Scalar.cmpi .ne v488 c0_i32_339
  let v493 : BitVec 1 := Scalar.andi v492 v489
  let v494 : BitVec 32 := Scalar.addi v488 v487
  let v495 : BitVec 32 := Scalar.select v493 v494 v488
  let c1_i32_344 : BitVec 32 := 1#32
  let v496 : BitVec 32 := Scalar.muli v495 c1_i32_344
  let v497 : BitVec 32 := Scalar.addi c0_i32_345 v496
  v497.toNat
def k0_dev37 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_348 : BitVec 32 := 6#32
  let v503 : BitVec 32 := Scalar.addi v2 c6_i32_348
  let c32_i32_349 : BitVec 32 := 32#32
  let c0_i32_350 : BitVec 32 := 0#32
  let v504 : BitVec 1 := Scalar.cmpi .eq c32_i32_349 c0_i32_350
  let c1_i32_351 : BitVec 32 := 1#32
  let v505 : BitVec 32 := Scalar.select v504 c1_i32_351 c32_i32_349
  let v506 : BitVec 32 := Scalar.remsi v503 v505
  let c0_i32_353 : BitVec 32 := 0#32
  let v508 : BitVec 1 := Scalar.cmpi .slt v506 c0_i32_353
  let c0_i32_354 : BitVec 32 := 0#32
  let v509 : BitVec 1 := Scalar.cmpi .slt v505 c0_i32_354
  let v510 : BitVec 1 := Scalar.xori v508 v509
  let c0_i32_352 : BitVec 32 := 0#32
  let v507 : BitVec 1 := Scalar.cmpi .ne v506 c0_i32_352
  let v511 : BitVec 1 := Scalar.andi v510 v507
  let v512 : BitVec 32 := Scalar.addi v506 v505
  let v513 : BitVec 32 := Scalar.select v511 v512 v506
  let c1_i32_357 : BitVec 32 := 1#32
  let v514 : BitVec 32 := Scalar.muli v513 c1_i32_357
  let v515 : BitVec 32 := Scalar.addi c0_i32_358 v514
  v515.toNat
def k0_dev38 (d0 : Dev nD) : Nat :=
  let c0_i32_371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_361 : BitVec 32 := 7#32
  let v521 : BitVec 32 := Scalar.addi v2 c7_i32_361
  let c32_i32_362 : BitVec 32 := 32#32
  let c0_i32_363 : BitVec 32 := 0#32
  let v522 : BitVec 1 := Scalar.cmpi .eq c32_i32_362 c0_i32_363
  let c1_i32_364 : BitVec 32 := 1#32
  let v523 : BitVec 32 := Scalar.select v522 c1_i32_364 c32_i32_362
  let v524 : BitVec 32 := Scalar.remsi v521 v523
  let c0_i32_366 : BitVec 32 := 0#32
  let v526 : BitVec 1 := Scalar.cmpi .slt v524 c0_i32_366
  let c0_i32_367 : BitVec 32 := 0#32
  let v527 : BitVec 1 := Scalar.cmpi .slt v523 c0_i32_367
  let v528 : BitVec 1 := Scalar.xori v526 v527
  let c0_i32_365 : BitVec 32 := 0#32
  let v525 : BitVec 1 := Scalar.cmpi .ne v524 c0_i32_365
  let v529 : BitVec 1 := Scalar.andi v528 v525
  let v530 : BitVec 32 := Scalar.addi v524 v523
  let v531 : BitVec 32 := Scalar.select v529 v530 v524
  let c1_i32_370 : BitVec 32 := 1#32
  let v532 : BitVec 32 := Scalar.muli v531 c1_i32_370
  let v533 : BitVec 32 := Scalar.addi c0_i32_371 v532
  v533.toNat
def k0_dev39 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_374 : BitVec 32 := 8#32
  let v539 : BitVec 32 := Scalar.addi v2 c8_i32_374
  let c32_i32_375 : BitVec 32 := 32#32
  let c0_i32_376 : BitVec 32 := 0#32
  let v540 : BitVec 1 := Scalar.cmpi .eq c32_i32_375 c0_i32_376
  let c1_i32_377 : BitVec 32 := 1#32
  let v541 : BitVec 32 := Scalar.select v540 c1_i32_377 c32_i32_375
  let v542 : BitVec 32 := Scalar.remsi v539 v541
  let c0_i32_379 : BitVec 32 := 0#32
  let v544 : BitVec 1 := Scalar.cmpi .slt v542 c0_i32_379
  let c0_i32_380 : BitVec 32 := 0#32
  let v545 : BitVec 1 := Scalar.cmpi .slt v541 c0_i32_380
  let v546 : BitVec 1 := Scalar.xori v544 v545
  let c0_i32_378 : BitVec 32 := 0#32
  let v543 : BitVec 1 := Scalar.cmpi .ne v542 c0_i32_378
  let v547 : BitVec 1 := Scalar.andi v546 v543
  let v548 : BitVec 32 := Scalar.addi v542 v541
  let v549 : BitVec 32 := Scalar.select v547 v548 v542
  let c1_i32_383 : BitVec 32 := 1#32
  let v550 : BitVec 32 := Scalar.muli v549 c1_i32_383
  let v551 : BitVec 32 := Scalar.addi c0_i32_384 v550
  v551.toNat
def k0_dev40 (d0 : Dev nD) : Nat :=
  let c0_i32_397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_387 : BitVec 32 := 9#32
  let v557 : BitVec 32 := Scalar.addi v2 c9_i32_387
  let c32_i32_388 : BitVec 32 := 32#32
  let c0_i32_389 : BitVec 32 := 0#32
  let v558 : BitVec 1 := Scalar.cmpi .eq c32_i32_388 c0_i32_389
  let c1_i32_390 : BitVec 32 := 1#32
  let v559 : BitVec 32 := Scalar.select v558 c1_i32_390 c32_i32_388
  let v560 : BitVec 32 := Scalar.remsi v557 v559
  let c0_i32_392 : BitVec 32 := 0#32
  let v562 : BitVec 1 := Scalar.cmpi .slt v560 c0_i32_392
  let c0_i32_393 : BitVec 32 := 0#32
  let v563 : BitVec 1 := Scalar.cmpi .slt v559 c0_i32_393
  let v564 : BitVec 1 := Scalar.xori v562 v563
  let c0_i32_391 : BitVec 32 := 0#32
  let v561 : BitVec 1 := Scalar.cmpi .ne v560 c0_i32_391
  let v565 : BitVec 1 := Scalar.andi v564 v561
  let v566 : BitVec 32 := Scalar.addi v560 v559
  let v567 : BitVec 32 := Scalar.select v565 v566 v560
  let c1_i32_396 : BitVec 32 := 1#32
  let v568 : BitVec 32 := Scalar.muli v567 c1_i32_396
  let v569 : BitVec 32 := Scalar.addi c0_i32_397 v568
  v569.toNat
def k0_dev41 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_400 : BitVec 32 := 10#32
  let v575 : BitVec 32 := Scalar.addi v2 c10_i32_400
  let c32_i32_401 : BitVec 32 := 32#32
  let c0_i32_402 : BitVec 32 := 0#32
  let v576 : BitVec 1 := Scalar.cmpi .eq c32_i32_401 c0_i32_402
  let c1_i32_403 : BitVec 32 := 1#32
  let v577 : BitVec 32 := Scalar.select v576 c1_i32_403 c32_i32_401
  let v578 : BitVec 32 := Scalar.remsi v575 v577
  let c0_i32_405 : BitVec 32 := 0#32
  let v580 : BitVec 1 := Scalar.cmpi .slt v578 c0_i32_405
  let c0_i32_406 : BitVec 32 := 0#32
  let v581 : BitVec 1 := Scalar.cmpi .slt v577 c0_i32_406
  let v582 : BitVec 1 := Scalar.xori v580 v581
  let c0_i32_404 : BitVec 32 := 0#32
  let v579 : BitVec 1 := Scalar.cmpi .ne v578 c0_i32_404
  let v583 : BitVec 1 := Scalar.andi v582 v579
  let v584 : BitVec 32 := Scalar.addi v578 v577
  let v585 : BitVec 32 := Scalar.select v583 v584 v578
  let c1_i32_409 : BitVec 32 := 1#32
  let v586 : BitVec 32 := Scalar.muli v585 c1_i32_409
  let v587 : BitVec 32 := Scalar.addi c0_i32_410 v586
  v587.toNat
def k0_dev42 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_413 : BitVec 32 := 11#32
  let v593 : BitVec 32 := Scalar.addi v2 c11_i32_413
  let c32_i32_414 : BitVec 32 := 32#32
  let c0_i32_415 : BitVec 32 := 0#32
  let v594 : BitVec 1 := Scalar.cmpi .eq c32_i32_414 c0_i32_415
  let c1_i32_416 : BitVec 32 := 1#32
  let v595 : BitVec 32 := Scalar.select v594 c1_i32_416 c32_i32_414
  let v596 : BitVec 32 := Scalar.remsi v593 v595
  let c0_i32_418 : BitVec 32 := 0#32
  let v598 : BitVec 1 := Scalar.cmpi .slt v596 c0_i32_418
  let c0_i32_419 : BitVec 32 := 0#32
  let v599 : BitVec 1 := Scalar.cmpi .slt v595 c0_i32_419
  let v600 : BitVec 1 := Scalar.xori v598 v599
  let c0_i32_417 : BitVec 32 := 0#32
  let v597 : BitVec 1 := Scalar.cmpi .ne v596 c0_i32_417
  let v601 : BitVec 1 := Scalar.andi v600 v597
  let v602 : BitVec 32 := Scalar.addi v596 v595
  let v603 : BitVec 32 := Scalar.select v601 v602 v596
  let c1_i32_422 : BitVec 32 := 1#32
  let v604 : BitVec 32 := Scalar.muli v603 c1_i32_422
  let v605 : BitVec 32 := Scalar.addi c0_i32_423 v604
  v605.toNat
def k0_dev43 (d0 : Dev nD) : Nat :=
  let c0_i32_436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_426 : BitVec 32 := 12#32
  let v611 : BitVec 32 := Scalar.addi v2 c12_i32_426
  let c32_i32_427 : BitVec 32 := 32#32
  let c0_i32_428 : BitVec 32 := 0#32
  let v612 : BitVec 1 := Scalar.cmpi .eq c32_i32_427 c0_i32_428
  let c1_i32_429 : BitVec 32 := 1#32
  let v613 : BitVec 32 := Scalar.select v612 c1_i32_429 c32_i32_427
  let v614 : BitVec 32 := Scalar.remsi v611 v613
  let c0_i32_431 : BitVec 32 := 0#32
  let v616 : BitVec 1 := Scalar.cmpi .slt v614 c0_i32_431
  let c0_i32_432 : BitVec 32 := 0#32
  let v617 : BitVec 1 := Scalar.cmpi .slt v613 c0_i32_432
  let v618 : BitVec 1 := Scalar.xori v616 v617
  let c0_i32_430 : BitVec 32 := 0#32
  let v615 : BitVec 1 := Scalar.cmpi .ne v614 c0_i32_430
  let v619 : BitVec 1 := Scalar.andi v618 v615
  let v620 : BitVec 32 := Scalar.addi v614 v613
  let v621 : BitVec 32 := Scalar.select v619 v620 v614
  let c1_i32_435 : BitVec 32 := 1#32
  let v622 : BitVec 32 := Scalar.muli v621 c1_i32_435
  let v623 : BitVec 32 := Scalar.addi c0_i32_436 v622
  v623.toNat
def k0_dev44 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_439 : BitVec 32 := 13#32
  let v629 : BitVec 32 := Scalar.addi v2 c13_i32_439
  let c32_i32_440 : BitVec 32 := 32#32
  let c0_i32_441 : BitVec 32 := 0#32
  let v630 : BitVec 1 := Scalar.cmpi .eq c32_i32_440 c0_i32_441
  let c1_i32_442 : BitVec 32 := 1#32
  let v631 : BitVec 32 := Scalar.select v630 c1_i32_442 c32_i32_440
  let v632 : BitVec 32 := Scalar.remsi v629 v631
  let c0_i32_444 : BitVec 32 := 0#32
  let v634 : BitVec 1 := Scalar.cmpi .slt v632 c0_i32_444
  let c0_i32_445 : BitVec 32 := 0#32
  let v635 : BitVec 1 := Scalar.cmpi .slt v631 c0_i32_445
  let v636 : BitVec 1 := Scalar.xori v634 v635
  let c0_i32_443 : BitVec 32 := 0#32
  let v633 : BitVec 1 := Scalar.cmpi .ne v632 c0_i32_443
  let v637 : BitVec 1 := Scalar.andi v636 v633
  let v638 : BitVec 32 := Scalar.addi v632 v631
  let v639 : BitVec 32 := Scalar.select v637 v638 v632
  let c1_i32_448 : BitVec 32 := 1#32
  let v640 : BitVec 32 := Scalar.muli v639 c1_i32_448
  let v641 : BitVec 32 := Scalar.addi c0_i32_449 v640
  v641.toNat
def k0_dev45 (d0 : Dev nD) : Nat :=
  let c0_i32_462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_452 : BitVec 32 := 14#32
  let v647 : BitVec 32 := Scalar.addi v2 c14_i32_452
  let c32_i32_453 : BitVec 32 := 32#32
  let c0_i32_454 : BitVec 32 := 0#32
  let v648 : BitVec 1 := Scalar.cmpi .eq c32_i32_453 c0_i32_454
  let c1_i32_455 : BitVec 32 := 1#32
  let v649 : BitVec 32 := Scalar.select v648 c1_i32_455 c32_i32_453
  let v650 : BitVec 32 := Scalar.remsi v647 v649
  let c0_i32_457 : BitVec 32 := 0#32
  let v652 : BitVec 1 := Scalar.cmpi .slt v650 c0_i32_457
  let c0_i32_458 : BitVec 32 := 0#32
  let v653 : BitVec 1 := Scalar.cmpi .slt v649 c0_i32_458
  let v654 : BitVec 1 := Scalar.xori v652 v653
  let c0_i32_456 : BitVec 32 := 0#32
  let v651 : BitVec 1 := Scalar.cmpi .ne v650 c0_i32_456
  let v655 : BitVec 1 := Scalar.andi v654 v651
  let v656 : BitVec 32 := Scalar.addi v650 v649
  let v657 : BitVec 32 := Scalar.select v655 v656 v650
  let c1_i32_461 : BitVec 32 := 1#32
  let v658 : BitVec 32 := Scalar.muli v657 c1_i32_461
  let v659 : BitVec 32 := Scalar.addi c0_i32_462 v658
  v659.toNat
def k0_dev46 (d0 : Dev nD) : Nat :=
  let c0_i32_475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_465 : BitVec 32 := 15#32
  let v665 : BitVec 32 := Scalar.addi v2 c15_i32_465
  let c32_i32_466 : BitVec 32 := 32#32
  let c0_i32_467 : BitVec 32 := 0#32
  let v666 : BitVec 1 := Scalar.cmpi .eq c32_i32_466 c0_i32_467
  let c1_i32_468 : BitVec 32 := 1#32
  let v667 : BitVec 32 := Scalar.select v666 c1_i32_468 c32_i32_466
  let v668 : BitVec 32 := Scalar.remsi v665 v667
  let c0_i32_470 : BitVec 32 := 0#32
  let v670 : BitVec 1 := Scalar.cmpi .slt v668 c0_i32_470
  let c0_i32_471 : BitVec 32 := 0#32
  let v671 : BitVec 1 := Scalar.cmpi .slt v667 c0_i32_471
  let v672 : BitVec 1 := Scalar.xori v670 v671
  let c0_i32_469 : BitVec 32 := 0#32
  let v669 : BitVec 1 := Scalar.cmpi .ne v668 c0_i32_469
  let v673 : BitVec 1 := Scalar.andi v672 v669
  let v674 : BitVec 32 := Scalar.addi v668 v667
  let v675 : BitVec 32 := Scalar.select v673 v674 v668
  let c1_i32_474 : BitVec 32 := 1#32
  let v676 : BitVec 32 := Scalar.muli v675 c1_i32_474
  let v677 : BitVec 32 := Scalar.addi c0_i32_475 v676
  v677.toNat
def k0_dev47 (d0 : Dev nD) : Nat :=
  let c0_i32_488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_478 : BitVec 32 := 16#32
  let v683 : BitVec 32 := Scalar.addi v2 c16_i32_478
  let c32_i32_479 : BitVec 32 := 32#32
  let c0_i32_480 : BitVec 32 := 0#32
  let v684 : BitVec 1 := Scalar.cmpi .eq c32_i32_479 c0_i32_480
  let c1_i32_481 : BitVec 32 := 1#32
  let v685 : BitVec 32 := Scalar.select v684 c1_i32_481 c32_i32_479
  let v686 : BitVec 32 := Scalar.remsi v683 v685
  let c0_i32_483 : BitVec 32 := 0#32
  let v688 : BitVec 1 := Scalar.cmpi .slt v686 c0_i32_483
  let c0_i32_484 : BitVec 32 := 0#32
  let v689 : BitVec 1 := Scalar.cmpi .slt v685 c0_i32_484
  let v690 : BitVec 1 := Scalar.xori v688 v689
  let c0_i32_482 : BitVec 32 := 0#32
  let v687 : BitVec 1 := Scalar.cmpi .ne v686 c0_i32_482
  let v691 : BitVec 1 := Scalar.andi v690 v687
  let v692 : BitVec 32 := Scalar.addi v686 v685
  let v693 : BitVec 32 := Scalar.select v691 v692 v686
  let c1_i32_487 : BitVec 32 := 1#32
  let v694 : BitVec 32 := Scalar.muli v693 c1_i32_487
  let v695 : BitVec 32 := Scalar.addi c0_i32_488 v694
  v695.toNat
def k0_dev48 (d0 : Dev nD) : Nat :=
  let c0_i32_501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_491 : BitVec 32 := 17#32
  let v701 : BitVec 32 := Scalar.addi v2 c17_i32_491
  let c32_i32_492 : BitVec 32 := 32#32
  let c0_i32_493 : BitVec 32 := 0#32
  let v702 : BitVec 1 := Scalar.cmpi .eq c32_i32_492 c0_i32_493
  let c1_i32_494 : BitVec 32 := 1#32
  let v703 : BitVec 32 := Scalar.select v702 c1_i32_494 c32_i32_492
  let v704 : BitVec 32 := Scalar.remsi v701 v703
  let c0_i32_496 : BitVec 32 := 0#32
  let v706 : BitVec 1 := Scalar.cmpi .slt v704 c0_i32_496
  let c0_i32_497 : BitVec 32 := 0#32
  let v707 : BitVec 1 := Scalar.cmpi .slt v703 c0_i32_497
  let v708 : BitVec 1 := Scalar.xori v706 v707
  let c0_i32_495 : BitVec 32 := 0#32
  let v705 : BitVec 1 := Scalar.cmpi .ne v704 c0_i32_495
  let v709 : BitVec 1 := Scalar.andi v708 v705
  let v710 : BitVec 32 := Scalar.addi v704 v703
  let v711 : BitVec 32 := Scalar.select v709 v710 v704
  let c1_i32_500 : BitVec 32 := 1#32
  let v712 : BitVec 32 := Scalar.muli v711 c1_i32_500
  let v713 : BitVec 32 := Scalar.addi c0_i32_501 v712
  v713.toNat
def k0_dev49 (d0 : Dev nD) : Nat :=
  let c0_i32_514 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_504 : BitVec 32 := 18#32
  let v719 : BitVec 32 := Scalar.addi v2 c18_i32_504
  let c32_i32_505 : BitVec 32 := 32#32
  let c0_i32_506 : BitVec 32 := 0#32
  let v720 : BitVec 1 := Scalar.cmpi .eq c32_i32_505 c0_i32_506
  let c1_i32_507 : BitVec 32 := 1#32
  let v721 : BitVec 32 := Scalar.select v720 c1_i32_507 c32_i32_505
  let v722 : BitVec 32 := Scalar.remsi v719 v721
  let c0_i32_509 : BitVec 32 := 0#32
  let v724 : BitVec 1 := Scalar.cmpi .slt v722 c0_i32_509
  let c0_i32_510 : BitVec 32 := 0#32
  let v725 : BitVec 1 := Scalar.cmpi .slt v721 c0_i32_510
  let v726 : BitVec 1 := Scalar.xori v724 v725
  let c0_i32_508 : BitVec 32 := 0#32
  let v723 : BitVec 1 := Scalar.cmpi .ne v722 c0_i32_508
  let v727 : BitVec 1 := Scalar.andi v726 v723
  let v728 : BitVec 32 := Scalar.addi v722 v721
  let v729 : BitVec 32 := Scalar.select v727 v728 v722
  let c1_i32_513 : BitVec 32 := 1#32
  let v730 : BitVec 32 := Scalar.muli v729 c1_i32_513
  let v731 : BitVec 32 := Scalar.addi c0_i32_514 v730
  v731.toNat
def k0_dev50 (d0 : Dev nD) : Nat :=
  let c0_i32_527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_517 : BitVec 32 := 19#32
  let v737 : BitVec 32 := Scalar.addi v2 c19_i32_517
  let c32_i32_518 : BitVec 32 := 32#32
  let c0_i32_519 : BitVec 32 := 0#32
  let v738 : BitVec 1 := Scalar.cmpi .eq c32_i32_518 c0_i32_519
  let c1_i32_520 : BitVec 32 := 1#32
  let v739 : BitVec 32 := Scalar.select v738 c1_i32_520 c32_i32_518
  let v740 : BitVec 32 := Scalar.remsi v737 v739
  let c0_i32_522 : BitVec 32 := 0#32
  let v742 : BitVec 1 := Scalar.cmpi .slt v740 c0_i32_522
  let c0_i32_523 : BitVec 32 := 0#32
  let v743 : BitVec 1 := Scalar.cmpi .slt v739 c0_i32_523
  let v744 : BitVec 1 := Scalar.xori v742 v743
  let c0_i32_521 : BitVec 32 := 0#32
  let v741 : BitVec 1 := Scalar.cmpi .ne v740 c0_i32_521
  let v745 : BitVec 1 := Scalar.andi v744 v741
  let v746 : BitVec 32 := Scalar.addi v740 v739
  let v747 : BitVec 32 := Scalar.select v745 v746 v740
  let c1_i32_526 : BitVec 32 := 1#32
  let v748 : BitVec 32 := Scalar.muli v747 c1_i32_526
  let v749 : BitVec 32 := Scalar.addi c0_i32_527 v748
  v749.toNat
def k0_dev51 (d0 : Dev nD) : Nat :=
  let c0_i32_540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_530 : BitVec 32 := 20#32
  let v755 : BitVec 32 := Scalar.addi v2 c20_i32_530
  let c32_i32_531 : BitVec 32 := 32#32
  let c0_i32_532 : BitVec 32 := 0#32
  let v756 : BitVec 1 := Scalar.cmpi .eq c32_i32_531 c0_i32_532
  let c1_i32_533 : BitVec 32 := 1#32
  let v757 : BitVec 32 := Scalar.select v756 c1_i32_533 c32_i32_531
  let v758 : BitVec 32 := Scalar.remsi v755 v757
  let c0_i32_535 : BitVec 32 := 0#32
  let v760 : BitVec 1 := Scalar.cmpi .slt v758 c0_i32_535
  let c0_i32_536 : BitVec 32 := 0#32
  let v761 : BitVec 1 := Scalar.cmpi .slt v757 c0_i32_536
  let v762 : BitVec 1 := Scalar.xori v760 v761
  let c0_i32_534 : BitVec 32 := 0#32
  let v759 : BitVec 1 := Scalar.cmpi .ne v758 c0_i32_534
  let v763 : BitVec 1 := Scalar.andi v762 v759
  let v764 : BitVec 32 := Scalar.addi v758 v757
  let v765 : BitVec 32 := Scalar.select v763 v764 v758
  let c1_i32_539 : BitVec 32 := 1#32
  let v766 : BitVec 32 := Scalar.muli v765 c1_i32_539
  let v767 : BitVec 32 := Scalar.addi c0_i32_540 v766
  v767.toNat
def k0_dev52 (d0 : Dev nD) : Nat :=
  let c0_i32_553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_543 : BitVec 32 := 21#32
  let v773 : BitVec 32 := Scalar.addi v2 c21_i32_543
  let c32_i32_544 : BitVec 32 := 32#32
  let c0_i32_545 : BitVec 32 := 0#32
  let v774 : BitVec 1 := Scalar.cmpi .eq c32_i32_544 c0_i32_545
  let c1_i32_546 : BitVec 32 := 1#32
  let v775 : BitVec 32 := Scalar.select v774 c1_i32_546 c32_i32_544
  let v776 : BitVec 32 := Scalar.remsi v773 v775
  let c0_i32_548 : BitVec 32 := 0#32
  let v778 : BitVec 1 := Scalar.cmpi .slt v776 c0_i32_548
  let c0_i32_549 : BitVec 32 := 0#32
  let v779 : BitVec 1 := Scalar.cmpi .slt v775 c0_i32_549
  let v780 : BitVec 1 := Scalar.xori v778 v779
  let c0_i32_547 : BitVec 32 := 0#32
  let v777 : BitVec 1 := Scalar.cmpi .ne v776 c0_i32_547
  let v781 : BitVec 1 := Scalar.andi v780 v777
  let v782 : BitVec 32 := Scalar.addi v776 v775
  let v783 : BitVec 32 := Scalar.select v781 v782 v776
  let c1_i32_552 : BitVec 32 := 1#32
  let v784 : BitVec 32 := Scalar.muli v783 c1_i32_552
  let v785 : BitVec 32 := Scalar.addi c0_i32_553 v784
  v785.toNat
def k0_dev53 (d0 : Dev nD) : Nat :=
  let c0_i32_566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_556 : BitVec 32 := 22#32
  let v791 : BitVec 32 := Scalar.addi v2 c22_i32_556
  let c32_i32_557 : BitVec 32 := 32#32
  let c0_i32_558 : BitVec 32 := 0#32
  let v792 : BitVec 1 := Scalar.cmpi .eq c32_i32_557 c0_i32_558
  let c1_i32_559 : BitVec 32 := 1#32
  let v793 : BitVec 32 := Scalar.select v792 c1_i32_559 c32_i32_557
  let v794 : BitVec 32 := Scalar.remsi v791 v793
  let c0_i32_561 : BitVec 32 := 0#32
  let v796 : BitVec 1 := Scalar.cmpi .slt v794 c0_i32_561
  let c0_i32_562 : BitVec 32 := 0#32
  let v797 : BitVec 1 := Scalar.cmpi .slt v793 c0_i32_562
  let v798 : BitVec 1 := Scalar.xori v796 v797
  let c0_i32_560 : BitVec 32 := 0#32
  let v795 : BitVec 1 := Scalar.cmpi .ne v794 c0_i32_560
  let v799 : BitVec 1 := Scalar.andi v798 v795
  let v800 : BitVec 32 := Scalar.addi v794 v793
  let v801 : BitVec 32 := Scalar.select v799 v800 v794
  let c1_i32_565 : BitVec 32 := 1#32
  let v802 : BitVec 32 := Scalar.muli v801 c1_i32_565
  let v803 : BitVec 32 := Scalar.addi c0_i32_566 v802
  v803.toNat
def k0_dev54 (d0 : Dev nD) : Nat :=
  let c0_i32_579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_569 : BitVec 32 := 23#32
  let v809 : BitVec 32 := Scalar.addi v2 c23_i32_569
  let c32_i32_570 : BitVec 32 := 32#32
  let c0_i32_571 : BitVec 32 := 0#32
  let v810 : BitVec 1 := Scalar.cmpi .eq c32_i32_570 c0_i32_571
  let c1_i32_572 : BitVec 32 := 1#32
  let v811 : BitVec 32 := Scalar.select v810 c1_i32_572 c32_i32_570
  let v812 : BitVec 32 := Scalar.remsi v809 v811
  let c0_i32_574 : BitVec 32 := 0#32
  let v814 : BitVec 1 := Scalar.cmpi .slt v812 c0_i32_574
  let c0_i32_575 : BitVec 32 := 0#32
  let v815 : BitVec 1 := Scalar.cmpi .slt v811 c0_i32_575
  let v816 : BitVec 1 := Scalar.xori v814 v815
  let c0_i32_573 : BitVec 32 := 0#32
  let v813 : BitVec 1 := Scalar.cmpi .ne v812 c0_i32_573
  let v817 : BitVec 1 := Scalar.andi v816 v813
  let v818 : BitVec 32 := Scalar.addi v812 v811
  let v819 : BitVec 32 := Scalar.select v817 v818 v812
  let c1_i32_578 : BitVec 32 := 1#32
  let v820 : BitVec 32 := Scalar.muli v819 c1_i32_578
  let v821 : BitVec 32 := Scalar.addi c0_i32_579 v820
  v821.toNat
def k0_dev55 (d0 : Dev nD) : Nat :=
  let c0_i32_592 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_582 : BitVec 32 := 24#32
  let v827 : BitVec 32 := Scalar.addi v2 c24_i32_582
  let c32_i32_583 : BitVec 32 := 32#32
  let c0_i32_584 : BitVec 32 := 0#32
  let v828 : BitVec 1 := Scalar.cmpi .eq c32_i32_583 c0_i32_584
  let c1_i32_585 : BitVec 32 := 1#32
  let v829 : BitVec 32 := Scalar.select v828 c1_i32_585 c32_i32_583
  let v830 : BitVec 32 := Scalar.remsi v827 v829
  let c0_i32_587 : BitVec 32 := 0#32
  let v832 : BitVec 1 := Scalar.cmpi .slt v830 c0_i32_587
  let c0_i32_588 : BitVec 32 := 0#32
  let v833 : BitVec 1 := Scalar.cmpi .slt v829 c0_i32_588
  let v834 : BitVec 1 := Scalar.xori v832 v833
  let c0_i32_586 : BitVec 32 := 0#32
  let v831 : BitVec 1 := Scalar.cmpi .ne v830 c0_i32_586
  let v835 : BitVec 1 := Scalar.andi v834 v831
  let v836 : BitVec 32 := Scalar.addi v830 v829
  let v837 : BitVec 32 := Scalar.select v835 v836 v830
  let c1_i32_591 : BitVec 32 := 1#32
  let v838 : BitVec 32 := Scalar.muli v837 c1_i32_591
  let v839 : BitVec 32 := Scalar.addi c0_i32_592 v838
  v839.toNat
def k0_dev56 (d0 : Dev nD) : Nat :=
  let c0_i32_605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_595 : BitVec 32 := 25#32
  let v845 : BitVec 32 := Scalar.addi v2 c25_i32_595
  let c32_i32_596 : BitVec 32 := 32#32
  let c0_i32_597 : BitVec 32 := 0#32
  let v846 : BitVec 1 := Scalar.cmpi .eq c32_i32_596 c0_i32_597
  let c1_i32_598 : BitVec 32 := 1#32
  let v847 : BitVec 32 := Scalar.select v846 c1_i32_598 c32_i32_596
  let v848 : BitVec 32 := Scalar.remsi v845 v847
  let c0_i32_600 : BitVec 32 := 0#32
  let v850 : BitVec 1 := Scalar.cmpi .slt v848 c0_i32_600
  let c0_i32_601 : BitVec 32 := 0#32
  let v851 : BitVec 1 := Scalar.cmpi .slt v847 c0_i32_601
  let v852 : BitVec 1 := Scalar.xori v850 v851
  let c0_i32_599 : BitVec 32 := 0#32
  let v849 : BitVec 1 := Scalar.cmpi .ne v848 c0_i32_599
  let v853 : BitVec 1 := Scalar.andi v852 v849
  let v854 : BitVec 32 := Scalar.addi v848 v847
  let v855 : BitVec 32 := Scalar.select v853 v854 v848
  let c1_i32_604 : BitVec 32 := 1#32
  let v856 : BitVec 32 := Scalar.muli v855 c1_i32_604
  let v857 : BitVec 32 := Scalar.addi c0_i32_605 v856
  v857.toNat
def k0_dev57 (d0 : Dev nD) : Nat :=
  let c0_i32_618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_608 : BitVec 32 := 26#32
  let v863 : BitVec 32 := Scalar.addi v2 c26_i32_608
  let c32_i32_609 : BitVec 32 := 32#32
  let c0_i32_610 : BitVec 32 := 0#32
  let v864 : BitVec 1 := Scalar.cmpi .eq c32_i32_609 c0_i32_610
  let c1_i32_611 : BitVec 32 := 1#32
  let v865 : BitVec 32 := Scalar.select v864 c1_i32_611 c32_i32_609
  let v866 : BitVec 32 := Scalar.remsi v863 v865
  let c0_i32_613 : BitVec 32 := 0#32
  let v868 : BitVec 1 := Scalar.cmpi .slt v866 c0_i32_613
  let c0_i32_614 : BitVec 32 := 0#32
  let v869 : BitVec 1 := Scalar.cmpi .slt v865 c0_i32_614
  let v870 : BitVec 1 := Scalar.xori v868 v869
  let c0_i32_612 : BitVec 32 := 0#32
  let v867 : BitVec 1 := Scalar.cmpi .ne v866 c0_i32_612
  let v871 : BitVec 1 := Scalar.andi v870 v867
  let v872 : BitVec 32 := Scalar.addi v866 v865
  let v873 : BitVec 32 := Scalar.select v871 v872 v866
  let c1_i32_617 : BitVec 32 := 1#32
  let v874 : BitVec 32 := Scalar.muli v873 c1_i32_617
  let v875 : BitVec 32 := Scalar.addi c0_i32_618 v874
  v875.toNat
def k0_dev58 (d0 : Dev nD) : Nat :=
  let c0_i32_631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_621 : BitVec 32 := 27#32
  let v881 : BitVec 32 := Scalar.addi v2 c27_i32_621
  let c32_i32_622 : BitVec 32 := 32#32
  let c0_i32_623 : BitVec 32 := 0#32
  let v882 : BitVec 1 := Scalar.cmpi .eq c32_i32_622 c0_i32_623
  let c1_i32_624 : BitVec 32 := 1#32
  let v883 : BitVec 32 := Scalar.select v882 c1_i32_624 c32_i32_622
  let v884 : BitVec 32 := Scalar.remsi v881 v883
  let c0_i32_626 : BitVec 32 := 0#32
  let v886 : BitVec 1 := Scalar.cmpi .slt v884 c0_i32_626
  let c0_i32_627 : BitVec 32 := 0#32
  let v887 : BitVec 1 := Scalar.cmpi .slt v883 c0_i32_627
  let v888 : BitVec 1 := Scalar.xori v886 v887
  let c0_i32_625 : BitVec 32 := 0#32
  let v885 : BitVec 1 := Scalar.cmpi .ne v884 c0_i32_625
  let v889 : BitVec 1 := Scalar.andi v888 v885
  let v890 : BitVec 32 := Scalar.addi v884 v883
  let v891 : BitVec 32 := Scalar.select v889 v890 v884
  let c1_i32_630 : BitVec 32 := 1#32
  let v892 : BitVec 32 := Scalar.muli v891 c1_i32_630
  let v893 : BitVec 32 := Scalar.addi c0_i32_631 v892
  v893.toNat
def k0_dev59 (d0 : Dev nD) : Nat :=
  let c0_i32_644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_634 : BitVec 32 := 28#32
  let v899 : BitVec 32 := Scalar.addi v2 c28_i32_634
  let c32_i32_635 : BitVec 32 := 32#32
  let c0_i32_636 : BitVec 32 := 0#32
  let v900 : BitVec 1 := Scalar.cmpi .eq c32_i32_635 c0_i32_636
  let c1_i32_637 : BitVec 32 := 1#32
  let v901 : BitVec 32 := Scalar.select v900 c1_i32_637 c32_i32_635
  let v902 : BitVec 32 := Scalar.remsi v899 v901
  let c0_i32_639 : BitVec 32 := 0#32
  let v904 : BitVec 1 := Scalar.cmpi .slt v902 c0_i32_639
  let c0_i32_640 : BitVec 32 := 0#32
  let v905 : BitVec 1 := Scalar.cmpi .slt v901 c0_i32_640
  let v906 : BitVec 1 := Scalar.xori v904 v905
  let c0_i32_638 : BitVec 32 := 0#32
  let v903 : BitVec 1 := Scalar.cmpi .ne v902 c0_i32_638
  let v907 : BitVec 1 := Scalar.andi v906 v903
  let v908 : BitVec 32 := Scalar.addi v902 v901
  let v909 : BitVec 32 := Scalar.select v907 v908 v902
  let c1_i32_643 : BitVec 32 := 1#32
  let v910 : BitVec 32 := Scalar.muli v909 c1_i32_643
  let v911 : BitVec 32 := Scalar.addi c0_i32_644 v910
  v911.toNat
def k0_dev60 (d0 : Dev nD) : Nat :=
  let c0_i32_657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_647 : BitVec 32 := 29#32
  let v917 : BitVec 32 := Scalar.addi v2 c29_i32_647
  let c32_i32_648 : BitVec 32 := 32#32
  let c0_i32_649 : BitVec 32 := 0#32
  let v918 : BitVec 1 := Scalar.cmpi .eq c32_i32_648 c0_i32_649
  let c1_i32_650 : BitVec 32 := 1#32
  let v919 : BitVec 32 := Scalar.select v918 c1_i32_650 c32_i32_648
  let v920 : BitVec 32 := Scalar.remsi v917 v919
  let c0_i32_652 : BitVec 32 := 0#32
  let v922 : BitVec 1 := Scalar.cmpi .slt v920 c0_i32_652
  let c0_i32_653 : BitVec 32 := 0#32
  let v923 : BitVec 1 := Scalar.cmpi .slt v919 c0_i32_653
  let v924 : BitVec 1 := Scalar.xori v922 v923
  let c0_i32_651 : BitVec 32 := 0#32
  let v921 : BitVec 1 := Scalar.cmpi .ne v920 c0_i32_651
  let v925 : BitVec 1 := Scalar.andi v924 v921
  let v926 : BitVec 32 := Scalar.addi v920 v919
  let v927 : BitVec 32 := Scalar.select v925 v926 v920
  let c1_i32_656 : BitVec 32 := 1#32
  let v928 : BitVec 32 := Scalar.muli v927 c1_i32_656
  let v929 : BitVec 32 := Scalar.addi c0_i32_657 v928
  v929.toNat
def k0_dev61 (d0 : Dev nD) : Nat :=
  let c0_i32_670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_660 : BitVec 32 := 30#32
  let v935 : BitVec 32 := Scalar.addi v2 c30_i32_660
  let c32_i32_661 : BitVec 32 := 32#32
  let c0_i32_662 : BitVec 32 := 0#32
  let v936 : BitVec 1 := Scalar.cmpi .eq c32_i32_661 c0_i32_662
  let c1_i32_663 : BitVec 32 := 1#32
  let v937 : BitVec 32 := Scalar.select v936 c1_i32_663 c32_i32_661
  let v938 : BitVec 32 := Scalar.remsi v935 v937
  let c0_i32_665 : BitVec 32 := 0#32
  let v940 : BitVec 1 := Scalar.cmpi .slt v938 c0_i32_665
  let c0_i32_666 : BitVec 32 := 0#32
  let v941 : BitVec 1 := Scalar.cmpi .slt v937 c0_i32_666
  let v942 : BitVec 1 := Scalar.xori v940 v941
  let c0_i32_664 : BitVec 32 := 0#32
  let v939 : BitVec 1 := Scalar.cmpi .ne v938 c0_i32_664
  let v943 : BitVec 1 := Scalar.andi v942 v939
  let v944 : BitVec 32 := Scalar.addi v938 v937
  let v945 : BitVec 32 := Scalar.select v943 v944 v938
  let c1_i32_669 : BitVec 32 := 1#32
  let v946 : BitVec 32 := Scalar.muli v945 c1_i32_669
  let v947 : BitVec 32 := Scalar.addi c0_i32_670 v946
  v947.toNat
def k0_dev62 (d0 : Dev nD) : Nat :=
  let c0_i32_683 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_673 : BitVec 32 := 31#32
  let v953 : BitVec 32 := Scalar.addi v2 c31_i32_673
  let c32_i32_674 : BitVec 32 := 32#32
  let c0_i32_675 : BitVec 32 := 0#32
  let v954 : BitVec 1 := Scalar.cmpi .eq c32_i32_674 c0_i32_675
  let c1_i32_676 : BitVec 32 := 1#32
  let v955 : BitVec 32 := Scalar.select v954 c1_i32_676 c32_i32_674
  let v956 : BitVec 32 := Scalar.remsi v953 v955
  let c0_i32_678 : BitVec 32 := 0#32
  let v958 : BitVec 1 := Scalar.cmpi .slt v956 c0_i32_678
  let c0_i32_679 : BitVec 32 := 0#32
  let v959 : BitVec 1 := Scalar.cmpi .slt v955 c0_i32_679
  let v960 : BitVec 1 := Scalar.xori v958 v959
  let c0_i32_677 : BitVec 32 := 0#32
  let v957 : BitVec 1 := Scalar.cmpi .ne v956 c0_i32_677
  let v961 : BitVec 1 := Scalar.andi v960 v957
  let v962 : BitVec 32 := Scalar.addi v956 v955
  let v963 : BitVec 32 := Scalar.select v961 v962 v956
  let c1_i32_682 : BitVec 32 := 1#32
  let v964 : BitVec 32 := Scalar.muli v963 c1_i32_682
  let v965 : BitVec 32 := Scalar.addi c0_i32_683 v964
  v965.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  reduces_S1536x768_S768 : S1536x768.Reduces [0] S768
  inb_S1x768_S1x768_0_0 : ∀ a, (![0, 0] : Fin 2 → Nat) a + S1x768.size a ≤ S1x768.size a
  h_S1x768 : 0 < S1x768.numel
  shapeCasts_S1x768_S768 : S1x768.ShapeCasts S768
  shapeCasts_S768_S1x768 : S768.ShapeCasts S1x768
  hamt_31 : (31#32 : BitVec 32).msb = false
  inb_S31_S1_0 : ∀ a, (![0] : Fin 1 → Nat) a + S1.size a ≤ S31.size a
  squeezes_S1_S_ : S1.Squeezes S_
  inb_S31x768_S1x768_0_0 : ∀ a, (![0, 0] : Fin 2 → Nat) a + S1x768.size a ≤ S31x768.size a
  inb_S31_S1_1 : ∀ a, (![1] : Fin 1 → Nat) a + S1.size a ≤ S31.size a
  inb_S31x768_S1x768_1_0 : ∀ a, (![1, 0] : Fin 2 → Nat) a + S1x768.size a ≤ S31x768.size a
  inb_S31_S1_2 : ∀ a, (![2] : Fin 1 → Nat) a + S1.size a ≤ S31.size a
  inb_S31x768_S1x768_2_0 : ∀ a, (![2, 0] : Fin 2 → Nat) a + S1x768.size a ≤ S31x768.size a
  inb_S31_S1_3 : ∀ a, (![3] : Fin 1 → Nat) a + S1.size a ≤ S31.size a
  inb_S31x768_S1x768_3_0 : ∀ a, (![3, 0] : Fin 2 → Nat) a + S1x768.size a ≤ S31x768.size a
  inb_S31_S1_4 : ∀ a, (![4] : Fin 1 → Nat) a + S1.size a ≤ S31.size a
  inb_S31x768_S1x768_4_0 : ∀ a, (![4, 0] : Fin 2 → Nat) a + S1x768.size a ≤ S31x768.size a
  inb_S31_S1_5 : ∀ a, (![5] : Fin 1 → Nat) a + S1.size a ≤ S31.size a
  inb_S31x768_S1x768_5_0 : ∀ a, (![5, 0] : Fin 2 → Nat) a + S1x768.size a ≤ S31x768.size a
  inb_S31_S1_6 : ∀ a, (![6] : Fin 1 → Nat) a + S1.size a ≤ S31.size a
  inb_S31x768_S1x768_6_0 : ∀ a, (![6, 0] : Fin 2 → Nat) a + S1x768.size a ≤ S31x768.size a
  inb_S31_S1_7 : ∀ a, (![7] : Fin 1 → Nat) a + S1.size a ≤ S31.size a
  inb_S31x768_S1x768_7_0 : ∀ a, (![7, 0] : Fin 2 → Nat) a + S1x768.size a ≤ S31x768.size a
  inb_S31_S1_8 : ∀ a, (![8] : Fin 1 → Nat) a + S1.size a ≤ S31.size a
  inb_S31x768_S1x768_8_0 : ∀ a, (![8, 0] : Fin 2 → Nat) a + S1x768.size a ≤ S31x768.size a
  inb_S31_S1_9 : ∀ a, (![9] : Fin 1 → Nat) a + S1.size a ≤ S31.size a
  inb_S31x768_S1x768_9_0 : ∀ a, (![9, 0] : Fin 2 → Nat) a + S1x768.size a ≤ S31x768.size a
  inb_S31_S1_10 : ∀ a, (![10] : Fin 1 → Nat) a + S1.size a ≤ S31.size a
  inb_S31x768_S1x768_10_0 : ∀ a, (![10, 0] : Fin 2 → Nat) a + S1x768.size a ≤ S31x768.size a
  inb_S31_S1_11 : ∀ a, (![11] : Fin 1 → Nat) a + S1.size a ≤ S31.size a
  inb_S31x768_S1x768_11_0 : ∀ a, (![11, 0] : Fin 2 → Nat) a + S1x768.size a ≤ S31x768.size a
  inb_S31_S1_12 : ∀ a, (![12] : Fin 1 → Nat) a + S1.size a ≤ S31.size a
  inb_S31x768_S1x768_12_0 : ∀ a, (![12, 0] : Fin 2 → Nat) a + S1x768.size a ≤ S31x768.size a
  inb_S31_S1_13 : ∀ a, (![13] : Fin 1 → Nat) a + S1.size a ≤ S31.size a
  inb_S31x768_S1x768_13_0 : ∀ a, (![13, 0] : Fin 2 → Nat) a + S1x768.size a ≤ S31x768.size a
  inb_S31_S1_14 : ∀ a, (![14] : Fin 1 → Nat) a + S1.size a ≤ S31.size a
  inb_S31x768_S1x768_14_0 : ∀ a, (![14, 0] : Fin 2 → Nat) a + S1x768.size a ≤ S31x768.size a
  inb_S31_S1_15 : ∀ a, (![15] : Fin 1 → Nat) a + S1.size a ≤ S31.size a
  inb_S31x768_S1x768_15_0 : ∀ a, (![15, 0] : Fin 2 → Nat) a + S1x768.size a ≤ S31x768.size a
  inb_S31_S1_16 : ∀ a, (![16] : Fin 1 → Nat) a + S1.size a ≤ S31.size a
  inb_S31x768_S1x768_16_0 : ∀ a, (![16, 0] : Fin 2 → Nat) a + S1x768.size a ≤ S31x768.size a
  inb_S31_S1_17 : ∀ a, (![17] : Fin 1 → Nat) a + S1.size a ≤ S31.size a
  inb_S31x768_S1x768_17_0 : ∀ a, (![17, 0] : Fin 2 → Nat) a + S1x768.size a ≤ S31x768.size a
  inb_S31_S1_18 : ∀ a, (![18] : Fin 1 → Nat) a + S1.size a ≤ S31.size a
  inb_S31x768_S1x768_18_0 : ∀ a, (![18, 0] : Fin 2 → Nat) a + S1x768.size a ≤ S31x768.size a
  inb_S31_S1_19 : ∀ a, (![19] : Fin 1 → Nat) a + S1.size a ≤ S31.size a
  inb_S31x768_S1x768_19_0 : ∀ a, (![19, 0] : Fin 2 → Nat) a + S1x768.size a ≤ S31x768.size a
  inb_S31_S1_20 : ∀ a, (![20] : Fin 1 → Nat) a + S1.size a ≤ S31.size a
  inb_S31x768_S1x768_20_0 : ∀ a, (![20, 0] : Fin 2 → Nat) a + S1x768.size a ≤ S31x768.size a
  inb_S31_S1_21 : ∀ a, (![21] : Fin 1 → Nat) a + S1.size a ≤ S31.size a
  inb_S31x768_S1x768_21_0 : ∀ a, (![21, 0] : Fin 2 → Nat) a + S1x768.size a ≤ S31x768.size a
  inb_S31_S1_22 : ∀ a, (![22] : Fin 1 → Nat) a + S1.size a ≤ S31.size a
  inb_S31x768_S1x768_22_0 : ∀ a, (![22, 0] : Fin 2 → Nat) a + S1x768.size a ≤ S31x768.size a
  inb_S31_S1_23 : ∀ a, (![23] : Fin 1 → Nat) a + S1.size a ≤ S31.size a
  inb_S31x768_S1x768_23_0 : ∀ a, (![23, 0] : Fin 2 → Nat) a + S1x768.size a ≤ S31x768.size a
  inb_S31_S1_24 : ∀ a, (![24] : Fin 1 → Nat) a + S1.size a ≤ S31.size a
  inb_S31x768_S1x768_24_0 : ∀ a, (![24, 0] : Fin 2 → Nat) a + S1x768.size a ≤ S31x768.size a
  inb_S31_S1_25 : ∀ a, (![25] : Fin 1 → Nat) a + S1.size a ≤ S31.size a
  inb_S31x768_S1x768_25_0 : ∀ a, (![25, 0] : Fin 2 → Nat) a + S1x768.size a ≤ S31x768.size a
  inb_S31_S1_26 : ∀ a, (![26] : Fin 1 → Nat) a + S1.size a ≤ S31.size a
  inb_S31x768_S1x768_26_0 : ∀ a, (![26, 0] : Fin 2 → Nat) a + S1x768.size a ≤ S31x768.size a
  inb_S31_S1_27 : ∀ a, (![27] : Fin 1 → Nat) a + S1.size a ≤ S31.size a
  inb_S31x768_S1x768_27_0 : ∀ a, (![27, 0] : Fin 2 → Nat) a + S1x768.size a ≤ S31x768.size a
  inb_S31_S1_28 : ∀ a, (![28] : Fin 1 → Nat) a + S1.size a ≤ S31.size a
  inb_S31x768_S1x768_28_0 : ∀ a, (![28, 0] : Fin 2 → Nat) a + S1x768.size a ≤ S31x768.size a
  inb_S31_S1_29 : ∀ a, (![29] : Fin 1 → Nat) a + S1.size a ≤ S31.size a
  inb_S31x768_S1x768_29_0 : ∀ a, (![29, 0] : Fin 2 → Nat) a + S1x768.size a ≤ S31x768.size a
  inb_S31_S1_30 : ∀ a, (![30] : Fin 1 → Nat) a + S1.size a ≤ S31.size a
  inb_S31x768_S1x768_30_0 : ∀ a, (![30, 0] : Fin 2 → Nat) a + S1x768.size a ≤ S31x768.size a
  inb_S31x768_S8x768_0_0 : ∀ a, (![0, 0] : Fin 2 → Nat) a + S8x768.size a ≤ S31x768.size a
  h_S8x768 : 0 < S8x768.numel
  reduces_S8x768_S768 : S8x768.Reduces [0] S768
  inb_S31x768_S8x768_8_0 : ∀ a, (![8, 0] : Fin 2 → Nat) a + S8x768.size a ≤ S31x768.size a
  inb_S31x768_S8x768_16_0 : ∀ a, (![16, 0] : Fin 2 → Nat) a + S8x768.size a ≤ S31x768.size a
  inb_S31x768_S7x768_24_0 : ∀ a, (![24, 0] : Fin 2 → Nat) a + S7x768.size a ≤ S31x768.size a
  h_S7x768 : 0 < S7x768.numel
  reduces_S7x768_S768 : S7x768.Reduces [0] S768
  hcc0_scratch2 : 2 + S31.numel ≤ 64
  hcc0_scratch3 : 33 + S31.numel ≤ 64
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  hstage0_0 : ∀ j, (stage0_0 j).IsWhole
  hstage0_1 : ∀ j, (stage0_1 j).IsWhole

variable [Facts₀]

abbrev cc0_scratch2 : DmaSems sig S31 := SemArray.consecutive 2 S31 hcc0_scratch2
abbrev cc0_scratch3 : DmaSems sig S31 := SemArray.consecutive 33 S31 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S49152x768 : Shape := ⟨2, ![49152, 768]⟩
abbrev S_ : Shape := ⟨0, ![]⟩
abbrev S768 : Shape := ⟨1, ![768]⟩
abbrev S1x768 : Shape := ⟨2, ![1, 768]⟩

abbrev nBuf : Space → Nat
  | .hbm => 7
  | .vmem => 0
  | .smem => 0
  | _ => 0

abbrev bufTy : (tb : Table) → Fin (tcTables nBuf tb) → BufTy
  | .hbm, ⟨0, _⟩ => ⟨S49152x768, .f32⟩
  | .hbm, ⟨1, _⟩ => ⟨S_, .f32⟩
  | .hbm, ⟨2, _⟩ => ⟨S768, .f32⟩
  | .hbm, ⟨3, _⟩ => ⟨S1x768, .f32⟩
  | .hbm, ⟨4, _⟩ => ⟨S_, .f32⟩
  | .hbm, ⟨5, _⟩ => ⟨S1x768, .f32⟩
  | .hbm, ⟨6, _⟩ => ⟨S1x768, .f32⟩
  | _, _ => ⟨S49152x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S49152x768_S768_d0 : S49152x768.ReducesTo [0] S768
  h_S_ : 0 < S_.numel
  bcast_S768_S1x768_1 : S768.BroadcastsInDim S1x768 (![1] : Fin 1 → Fin S1x768.rank)
  bcast_S_S1x768 : S_.BroadcastsInDim S1x768 (![] : Fin 0 → Fin S1x768.rank)

variable [Facts₀]

class Facts : Prop extends Facts₀ where

variable [Facts]
-- ==== Proof.Proto.lean ====
/-
  The all-to-all column-mean kernel on 32 devices: names for the ring of peers, the kernel's four VMEM buffers
  (the device's block of x, the result row, the row of column sums it sends, the 31 rows it receives), its 62 DMA
  semaphores and the runtime's barrier semaphore, seen as cells of the rounds discipline.

  Device c sends, at offset k = 1..31, its row of column sums to device c + k (mod 32), into row k-1 of that
  device's receive buffer, crediting that device's receive semaphore k-1 and its own send semaphore k-1. Hence row i
  of device c's receive buffer is written by device c - (i+1) = c + (31 - i) (mod 32).
-/
import proofs.«900944_g7700000000000945_dist_mean_ax0_shard0_i_m1536_n768_v7x_i32_f32_1_alg».proof.Proof.Gen.KernelIdeal
import proofs.«900944_g7700000000000945_dist_mean_ax0_shard0_i_m1536_n768_v7x_i32_f32_1_alg».proof.Proof.Gen.KernelIdeal.Skeleton
import proofs.«900944_g7700000000000945_dist_mean_ax0_shard0_i_m1536_n768_v7x_i32_f32_1_alg».proof.Proof.Gen.KernelIdeal.Launch
import proofs.«900944_g7700000000000945_dist_mean_ax0_shard0_i_m1536_n768_v7x_i32_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Cert.KernelIdeal.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

variable {F : FTy → Type} [FloatOps F] [Named F]

/-! ## The resource algebra: the pipeline library's copy and the protocol's (duty names `Fin 32`) -/

abbrev DN : Type := Fin 32
abbrev UB : Type := URounds (GSem nD τ sig) DN
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

/-- The device `k` places after `c` on the ring of 32. -/
def peer (c : Dev nD) (k : ℕ) : Dev nD := ⟨(c.val + k) % 32, Nat.mod_lt _ (by decide)⟩

theorem peer_val (c : Dev nD) (k : ℕ) : (peer c k).val = (c.val + k) % 32 := rfl

/-- Going `k` places on and then `32 - k` more is a full turn. -/
theorem peer_peer (c : Dev nD) (k : ℕ) (hk : k ≤ 32) : peer (peer c k) (32 - k) = c := by
  apply Fin.ext
  have hc : c.val < 32 := c.isLt
  simp only [peer_val]
  omega

theorem peer_inj (c : Dev nD) {j k : ℕ} (hj : j < 32) (hk : k < 32) (h : peer c j = peer c k) : j = k := by
  have hc : c.val < 32 := c.isLt
  have := congrArg Fin.val h
  simp only [peer_val] at this
  omega

/-! ## The memrefs -/

/-- the device's block of `x` (staged), the result row (staged), the row of column sums, the 31 received rows -/
abbrev xM : Memref sig .tc .vmem S1536x768 .f32 := Memref.whole cc0_stg0_0
abbrev oM : Memref sig .tc .vmem S1x768 .f32 := Memref.whole cc0_stg1_0
abbrev sM : Memref sig .tc .vmem S1x768 .f32 := Memref.whole cc0_scratch0
abbrev cM : Memref sig .tc .vmem S31x768 .f32 := Memref.whole cc0_scratch1

theorem row_inb (i : ℕ) (hi : i < 31) : ∀ a, (![i, 0] : Fin 2 → Nat) a + S1x768.size a ≤ S31x768.size a := by
  intro a; fin_cases a
  · show i + 1 ≤ 31; omega
  · show 0 + 768 ≤ 768; omega

theorem sem_inb (i : ℕ) (hi : i < 31) : ∀ a, (![i] : Fin 1 → Nat) a + S1.size a ≤ S31.size a := by
  intro a; fin_cases a
  show i + 1 ≤ 31; omega

/-- Row `i` of the receive buffer, as the kernel slices it. -/
abbrev rowM (i : ℕ) (hi : i < 31 := by decide) : Memref sig .tc .vmem S1x768 .f32 :=
  cM.slice (Rect.unit (s := S31x768) ![i, 0] S1x768.size (row_inb i hi)) (fun _ => rfl)

/-- The runtime's barrier semaphore of collective id 0; send and receive DMA semaphore `i`, as the kernel slices them. -/
abbrev barS : Sem sig := (SemArray.scalar (sig.barrier 0 rfl) : Sems sig S_).sem
abbrev sndS (i : ℕ) (hi : i < 31 := by decide) : DmaSem sig :=
  ((cc0_scratch2.slice (Rect.unit (s := S31) ![i] S1.size (sem_inb i hi))).squeeze S_ Facts₀.squeezes_S1_S_).sem
abbrev rcvS (i : ℕ) (hi : i < 31 := by decide) : DmaSem sig :=
  ((cc0_scratch3.slice (Rect.unit (s := S31) ![i] S1.size (sem_inb i hi))).squeeze S_ Facts₀.squeezes_S1_S_).sem

/-- Element `i` of an array of 31 semaphores sits `i` places after the array's first. -/
theorem unit1_val (i : ℕ) (h : ∀ a, (![i] : Fin 1 → Nat) a + S1.size a ≤ S31.size a)
    (j : (Rect.unit (s := S31) ![i] S1.size h).shape.Idx) :
    (S31.rowMajor ((Rect.unit (s := S31) ![i] S1.size h).emb j)).val = i := by
  rw [Shape.rowMajor_val_one, Rect.emb_apply]
  have hj : (j 0).val < 1 := (j 0).isLt
  show i + 1 * (j 0).val = i
  omega

theorem sndS_val (i : ℕ) (hi : i < 31) : (sndS i hi).val = 2 + i := congrArg (2 + ·) (unit1_val i _ _)
theorem rcvS_val (i : ℕ) (hi : i < 31) : (rcvS i hi).val = 33 + i := congrArg (33 + ·) (unit1_val i _ _)

abbrev barCell (c : Dev nD) : GSem nD τ sig := ((c : Thread nD τ), .reg barS)
abbrev sndCell (c : Dev nD) (i : ℕ) (hi : i < 31 := by decide) : GSem nD τ sig := ((c : Thread nD τ), .dma (sndS i hi))
abbrev rcvCell (c : Dev nD) (i : ℕ) (hi : i < 31 := by decide) : GSem nD τ sig := ((c : Thread nD τ), .dma (rcvS i hi))

/-- One transfer's credit: a row of 768 words. -/
abbrev N : ℕ := (sM : Memref sig .tc .vmem S1x768 .f32).view.dmaCredit
theorem N_pos : 0 < N := View.dmaCredit_pos _ (by decide)

/-! ## Contents -/

variable (m : (ℓ : Loc nD τ sig) → Buf (Elt F) ℓ)

/-- Device `c`'s block of `x` as the pipeline stages it. -/
def xstg (c : Dev nD) : (cc0_stg0_0 : Ref sig .tc).ty.Contents (Elt F) :=
  (win0_0.blk (0 : Fin 1)).view.read (Elt F) (m ((c : Thread nD τ).loc main_arg0))

/-! The kernel's values as pure functions of the 32 blocks `xs` (device `c'` holds `xs c'`). -/

/-- The row a device sends: the column sums of its block. -/
def sendF (xb : Vec F S1536x768 .f32) : FVec F S1x768 .f32 := k0_pay1 xb

/-- What device `c`'s receive buffer holds once every row has landed: row `i` is the row sent by the device
    `31 - i` places after `c` (that is, `i + 1` places before it). -/
def commF (xs : Dev nD → Vec F S1536x768 .f32) (c : Dev nD) : Vec F S31x768 .f32 :=
  fun idx => sendF (xs (peer c (31 - (idx 0).val))) (fun a => match a with | 0 => ⟨0, by decide⟩ | 1 => idx 1)

/-- The kernel's load of its own sent row, and of rows `lo .. lo + S'.size 0 - 1` of the receive buffer. -/
def rdS (s : FVec F S1x768 .f32) : Vec F S1x768 .f32 :=
  (sM : Memref sig .tc .vmem S1x768 .f32).view.readAt (Elt F) (Rect.unit (s := S1x768) ![0, 0] S1x768.size Facts₀.inb_S1x768_S1x768_0_0).toLoadRect s
def rdC (lo : ℕ) (sz : Fin 2 → ℕ) (h : ∀ a, (![lo, 0] : Fin 2 → Nat) a + sz a ≤ S31x768.size a) (f : Vec F S31x768 .f32) :=
  (cM : Memref sig .tc .vmem S31x768 .f32).view.readAt (Elt F) (Rect.unit (s := S31x768) ![lo, 0] sz h).toLoadRect f

/-- The result row on device `c`: its own column sums plus the four groups of received rows (8, 8, 8 and 7 rows, each
    group summed over its rows), times the named constant. -/
def outF (xs : Dev nD → Vec F S1536x768 .f32) (c : Dev nD) : FVec F S1x768 .f32 :=
  k0_pay8
    (k0_pay6
      (k0_pay5
        (k0_pay4
          (k0_pay3 (k0_pay2 (rdS (sendF (xs c)))) (rdC 0 S8x768.size Facts₀.inb_S31x768_S8x768_0_0 (commF xs c)))
          (rdC 8 S8x768.size Facts₀.inb_S31x768_S8x768_8_0 (commF xs c)))
        (rdC 16 S8x768.size Facts₀.inb_S31x768_S8x768_16_0 (commF xs c)))
      (rdC 24 S7x768.size Facts₀.inb_S31x768_S7x768_24_0 (commF xs c)))
    k0_pay7

/-- On the launch memory `m`: what device `c` sends, what its receive buffer ends holding, its result row. -/
def sendV (c : Dev nD) : (cc0_scratch0 : Ref sig .tc).ty.Contents (Elt F) := sendF (xstg m c)
def commV (c : Dev nD) : (cc0_scratch1 : Ref sig .tc).ty.Contents (Elt F) := commF (xstg m) c
def outV (c : Dev nD) : (cc0_stg1_0 : Ref sig .tc).ty.Contents (Elt F) := outF (xstg m) c

/-! ## Shares of the sent row: transfer `i` borrows `sh i`, and `rem i` is what is left before it -/

def rem : ℕ → PosShare TreeShare
  | 0 => fullShare
  | n + 1 => (rem n).right
def sh (i : ℕ) : PosShare TreeShare := (rem i).left
theorem rem_split (i : ℕ) : rem i ∈ sh i ·? rem (i + 1) := PosShare.mem_left_op_right (rem i)

/-! ## The payloads -/

/-- the sent row at share `q`; row `i` of the receive buffer at contents `f` -/
def sPts (c : Dev nD) (q : PosShare TreeShare) : sProp 𝕄 :=
  (sM : Memref sig .tc .vmem S1x768 .f32).view.loc (c : Thread nD τ) ↦[(sM : Memref sig .tc .vmem S1x768 .f32).view.set]{q} sendV m c
def rowPts (c : Dev nD) (i : ℕ) (hi : i < 31) (f : Buf (Elt F) ((rowM i hi).view.loc (c : Thread nD τ))) : sProp 𝕄 :=
  (rowM i hi).view.loc (c : Thread nD τ) ↦[(rowM i hi).view.set]{fullShare} f

/-- What the device `e` places after `c` hands `c` with its barrier signal: row `e - 1` of its receive buffer
    (the row `c` will write), and that its receive cell `e - 1` is at round 0. -/
def barPay (c : Dev nD) (e : ℕ) (he : e - 1 < 31) : sProp 𝕄 :=
  iprop((∃ f, rowPts (peer c e) (e - 1) he f) ∗ reached ER (rcvCell (peer c e) (e - 1) he) 0)
def rcvPay (c : Dev nD) (i : ℕ) (hi : i < 31) : sProp 𝕄 := rowPts c i hi (commV m c)
def sndPay (c : Dev nD) (i : ℕ) : sProp 𝕄 := sPts m c (sh i)

theorem DN_sub (e : DN) : e.val - 1 < 31 := by have := e.isLt; omega

abbrev IsBar (g : GSem nD τ sig) : Prop := g.1.2 = .tc ∧ g.2 = .reg barS
/-- A send or receive cell: a DMA semaphore numbered 2 or more on a TensorCore (0 and 1 are the staging buffers'). -/
def xferNo : SemLoc sig → Option ℕ
  | .dma s => if 2 ≤ s.val then some (s.val - 2) else none
  | _ => none
abbrev IsXfer (g : GSem nD τ sig) : Prop := g.1.2 = .tc ∧ (xferNo g.2).isSome

/-- One round, round 0. A barrier cell has the 31 unit duties `e = 1..31`, duty `e` paid by the device `e` places
    after the owner. A send or receive cell has the one duty `0` of a row's credit. -/
def ringRd : Rounds.Schedule (GSem nD τ sig) DN 𝕄 where
  duties g r := if r = 0 ∧ IsBar g then Finset.univ.erase 0 else if r = 0 ∧ IsXfer g then {0} else ∅
  unitless _ := False
  amount g _ _ := if g.2 = .reg barS then 1 else N
  payload g _ d :=
    if g.2 = .reg barS then barPay g.1.1 d.val (DN_sub d)
    else match xferNo g.2 with
      | some n => if h : n < 31 then sndPay m g.1.1 n else if h' : n - 31 < 31 then rcvPay m g.1.1 (n - 31) h' else iprop(emp)
      | none => iprop(emp)
  amount_pos g _ _ _ := by
    by_cases h : g.2 = .reg barS
    · rw [if_pos h]; exact Nat.one_pos
    · rw [if_neg h]; exact N_pos

instance ringRd_payload_storable (g : GSem nD τ sig) (r : ℕ) (d : DN) :
    BI.Storable (upEmb : UEmb _ 𝕄) ((ringRd (F := F) m).payload g r d) := by
  show BI.Storable upEmb (if g.2 = .reg barS then barPay g.1.1 d.val (DN_sub d)
    else match xferNo g.2 with
      | some n => if h : n < 31 then sndPay m g.1.1 n else if h' : n - 31 < 31 then rcvPay m g.1.1 (n - 31) h' else iprop(emp)
      | none => iprop(emp))
  unfold barPay rcvPay sndPay sPts rowPts
  (repeat' split) <;> infer_instance

section Sched
variable (c : Dev nD)

theorem snd_ne_bar (i : ℕ) (hi : i < 31) : (SemLoc.dma (sndS i hi) : SemLoc sig) ≠ .reg barS := fun h => by cases h
theorem rcv_ne_bar (i : ℕ) (hi : i < 31) : (SemLoc.dma (rcvS i hi) : SemLoc sig) ≠ .reg barS := fun h => by cases h

theorem xferNo_snd (i : ℕ) (hi : i < 31) : xferNo (.dma (sndS i hi) : SemLoc sig) = some i := by
  show (if 2 ≤ (sndS i hi).val then some ((sndS i hi).val - 2) else none) = some i
  rw [sndS_val, if_pos (by omega)]; congr 1; omega
theorem xferNo_rcv (i : ℕ) (hi : i < 31) : xferNo (.dma (rcvS i hi) : SemLoc sig) = some (31 + i) := by
  show (if 2 ≤ (rcvS i hi).val then some ((rcvS i hi).val - 2) else none) = some (31 + i)
  rw [rcvS_val, if_pos (by omega)]; congr 1; omega

theorem duties_bar : (ringRd (F := F) m).duties (barCell c) 0 = Finset.univ.erase 0 := by
  dsimp only [ringRd]; exact if_pos ⟨rfl, rfl, rfl⟩
theorem duties_snd (i : ℕ) (hi : i < 31) : (ringRd (F := F) m).duties (sndCell c i hi) 0 = {0} := by
  dsimp only [ringRd]
  rw [if_neg (fun h => snd_ne_bar i hi h.2.2), if_pos ⟨rfl, rfl, by rw [xferNo_snd]; rfl⟩]
theorem duties_rcv (i : ℕ) (hi : i < 31) : (ringRd (F := F) m).duties (rcvCell c i hi) 0 = {0} := by
  dsimp only [ringRd]
  rw [if_neg (fun h => rcv_ne_bar i hi h.2.2), if_pos ⟨rfl, rfl, by rw [xferNo_rcv]; rfl⟩]
theorem duties_later (g : GSem nD τ sig) : ∀ r, 1 ≤ r → (ringRd (F := F) m).duties g r = ∅ :=
  fun r hr => by dsimp only [ringRd]; rw [if_neg fun h => by omega, if_neg fun h => by omega]

theorem amount_bar (d : DN) : (ringRd (F := F) m).amount (barCell c) 0 d = 1 := by dsimp only [ringRd]; exact if_pos rfl
theorem amount_snd (i : ℕ) (hi : i < 31) (d : DN) : (ringRd (F := F) m).amount (sndCell c i hi) 0 d = N := by
  dsimp only [ringRd]; exact if_neg (snd_ne_bar i hi)
theorem amount_rcv (i : ℕ) (hi : i < 31) (d : DN) : (ringRd (F := F) m).amount (rcvCell c i hi) 0 d = N := by
  dsimp only [ringRd]; exact if_neg (rcv_ne_bar i hi)

theorem expect_bar : (ringRd (F := F) m).expect (barCell c) 0 = 31 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]
theorem expect_snd (i : ℕ) (hi : i < 31) : (ringRd (F := F) m).expect (sndCell c i hi) 0 = N := by
  unfold Schedule.expect Schedule.amountOf; rw [duties_snd, Finset.sum_singleton, amount_snd]
theorem expect_rcv (i : ℕ) (hi : i < 31) : (ringRd (F := F) m).expect (rcvCell c i hi) 0 = N := by
  unfold Schedule.expect Schedule.amountOf; rw [duties_rcv, Finset.sum_singleton, amount_rcv]

theorem payload_bar (e : DN) : (ringRd (F := F) m).payload (barCell c) 0 e = barPay c e.val (DN_sub e) := by
  dsimp only [ringRd]; rw [if_pos rfl]
theorem payload_snd (i : ℕ) (hi : i < 31) (d : DN) : (ringRd (F := F) m).payload (sndCell c i hi) 0 d = sndPay m c i := by
  dsimp only [ringRd]; rw [if_neg (snd_ne_bar i hi), xferNo_snd]; dsimp only; rw [dif_pos hi]

theorem rcvPay_congr {a b : ℕ} (h : a = b) (ha : a < 31) (hb : b < 31) : rcvPay m c a ha = rcvPay m c b hb := by subst h; rfl
theorem payload_rcv (i : ℕ) (hi : i < 31) (d : DN) : (ringRd (F := F) m).payload (rcvCell c i hi) 0 d = rcvPay m c i hi := by
  dsimp only [ringRd]; rw [if_neg (rcv_ne_bar i hi), xferNo_rcv]; dsimp only
  rw [dif_neg (by omega), dif_pos (by omega)]
  exact rcvPay_congr m c (by omega) _ _

theorem rest_snd (i : ℕ) (hi : i < 31) :
    bigSep ((ringRd (F := F) m).duties (sndCell c i hi) 0 \ ∅) (fun d => (ringRd (F := F) m).payload (sndCell c i hi) 0 d) = sndPay m c i := by
  rw [Finset.sdiff_empty, duties_snd, bigSep_singleton, payload_snd]
theorem rest_rcv (i : ℕ) (hi : i < 31) :
    bigSep ((ringRd (F := F) m).duties (rcvCell c i hi) 0 \ ∅) (fun d => (ringRd (F := F) m).payload (rcvCell c i hi) 0 d) = rcvPay m c i hi := by
  rw [Finset.sdiff_empty, duties_rcv, bigSep_singleton, payload_rcv]

end Sched

end Cert.KernelIdeal.Hand

end
-- ==== Proof.Data.lean ====
/-
  The proof data of the 32-device column mean: what each device owes at launch (31 barrier units, one to every other
  device, and 31 row credits, one to every other device's receive cell), the levels (barrier cells below receive
  cells; a device waits on its barrier owing only row credits, and on its receive and send cells owing nothing), the
  ghost state a device's body starts from, and the pipeline's data (the result row is the payload term `outV`).
-/
import proofs.«900944_g7700000000000945_dist_mean_ax0_shard0_i_m1536_n768_v7x_i32_f32_1_alg».proof.Proof.Proto

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

variable {F : FTy → Type} [FloatOps F] [Named F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Indices: `i : Fin 31` is row `i`, offset `i + 1` -/

abbrev I31 : Type := Fin 31

/-- The barrier duty device `c` pays on the device `i + 1` places after it: that device sees `c` `31 - i` places after itself. -/
def dutyE (i : I31) : DN := ⟨31 - i.val, by have := i.isLt; omega⟩
theorem dutyE_val (i : I31) : (dutyE i).val = 31 - i.val := rfl
theorem dutyE_ne_zero (i : I31) : dutyE i ≠ 0 := fun h => by
  have := congrArg Fin.val h; have hi := i.isLt; simp only [dutyE_val] at this; change 31 - i.val = 0 at this; omega
theorem sub_lt31 (i : I31) : 30 - i.val < 31 := by omega
theorem peer_back (c : Dev nD) (i : I31) : peer (peer c (i.val + 1)) (31 - i.val) = c := by
  have h := peer_peer c (i.val + 1) (by have := i.isLt; omega)
  have e : 32 - (i.val + 1) = 31 - i.val := by omega
  rwa [e] at h

/-! ## What each device owes at launch -/

/-- the last `n` barrier signals (offsets `32 - n .. 31`), and the last `n` row credits -/
def OsigLast (c : Dev nD) : ℕ → CellTallies nD τ sig Unit
  | 0 => 0
  | n + 1 => OsigLast c n + tallyAt (barCell (peer c (31 - n))) () 1
def OsndLast (c : Dev nD) : ℕ → CellTallies nD τ sig Unit
  | 0 => 0
  | n + 1 => OsndLast c n + (if h : 30 - n < 31 then tallyAt (rcvCell (peer c (31 - n)) (30 - n) h) () N else 0)
def O₀ (c : Dev nD) : CellTallies nD τ sig Unit := OsndLast c 31 + OsigLast c 31

theorem Osig_peel (c : Dev nD) (i : I31) :
    OsigLast c (31 - i.val) = OsigLast c (30 - i.val) + tallyAt (barCell (peer c (i.val + 1))) () 1 := by
  have hi := i.isLt
  have h : 31 - i.val = (30 - i.val) + 1 := by omega
  rw [h]
  show OsigLast c (30 - i.val) + tallyAt (barCell (peer c (31 - (30 - i.val)))) () 1 = _
  have h2 : 31 - (30 - i.val) = i.val + 1 := by omega
  rw [h2]

theorem rcvCell_congr (t : Dev nD) {a b : ℕ} (h : a = b) (ha : a < 31) (hb : b < 31) : rcvCell t a ha = rcvCell t b hb := by
  subst h; rfl

theorem Osnd_peel (c : Dev nD) (i : I31) :
    OsndLast c (31 - i.val) = OsndLast c (30 - i.val) + tallyAt (rcvCell (peer c (i.val + 1)) i.val i.isLt) () N := by
  have hi := i.isLt
  have h : 31 - i.val = (30 - i.val) + 1 := by omega
  rw [h]
  show OsndLast c (30 - i.val) + (if h : 30 - (30 - i.val) < 31 then tallyAt (rcvCell (peer c (31 - (30 - i.val))) (30 - (30 - i.val)) h) () N else 0) = _
  rw [dif_pos (by omega)]
  have h2 : 31 - (30 - i.val) = i.val + 1 := by omega
  have h3 : 30 - (30 - i.val) = i.val := by omega
  congr 2
  rw [h2]
  exact rcvCell_congr _ h3 _ _

/-! ## Levels: barrier cells at 1, receive cells at 2, everything else (staging, send) at 0 -/

def L (g : GSem nD τ sig) : Finset Unit := if g.1.2 = .tc then {()} else ∅
def semLevel : SemLoc sig → ℕ
  | .dma s => if 33 ≤ s.val then 2 else 0
  | sm => if sm = .reg barS then 1 else 0
def lv (g : GSem nD τ sig) (_ : Unit) : ℕ := semLevel g.2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_rcv (c : Dev nD) (i : ℕ) (hi : i < 31) : lv (rcvCell c i hi) () = 2 := by
  show (if 33 ≤ (rcvS i hi).val then 2 else 0) = 2
  rw [rcvS_val, if_pos (by omega)]
theorem lv_snd (c : Dev nD) (i : ℕ) (hi : i < 31) : lv (sndCell c i hi) () = 0 := by
  show (if 33 ≤ (sndS i hi).val then 2 else 0) = 0
  rw [sndS_val, if_neg (by omega)]

/-! ## The cells of one device, enumerated: 0 the barrier, 1..31 the send cells, 32..62 the receive cells -/

def csem (k : Fin 63) : SemLoc sig :=
  if h0 : k.val = 0 then .reg barS
  else if h1 : k.val ≤ 31 then .dma (sndS (k.val - 1) (by omega))
  else .dma (rcvS (k.val - 32) (by have := k.isLt; omega))
abbrev kcell (ck : Dev nD × Fin 63) : GSem nD τ sig := ((ck.1 : Thread nD τ), csem ck.2)
def kS (i : I31) : Fin 63 := ⟨i.val + 1, by have := i.isLt; omega⟩
def kR (i : I31) : Fin 63 := ⟨i.val + 32, by have := i.isLt; omega⟩

theorem sndS_congr {a b : ℕ} (h : a = b) (ha : a < 31) (hb : b < 31) : sndS a ha = sndS b hb := by subst h; rfl
theorem rcvS_congr {a b : ℕ} (h : a = b) (ha : a < 31) (hb : b < 31) : rcvS a ha = rcvS b hb := by subst h; rfl
theorem kcell_bar (c : Dev nD) : kcell (c, 0) = barCell c := rfl
theorem kcell_snd (c : Dev nD) (i : I31) : kcell (c, kS i) = sndCell c i.val i.isLt := by
  show ((c : Thread nD τ), csem (kS i)) = _
  unfold csem kS
  rw [dif_neg (by show ¬ (i.val + 1 = 0); omega), dif_pos (by have := i.isLt; show i.val + 1 ≤ 31; omega)]
  exact congrArg (fun s => ((c : Thread nD τ), SemLoc.dma s)) (sndS_congr (by show i.val + 1 - 1 = i.val; omega) _ _)
theorem kcell_rcv (c : Dev nD) (i : I31) : kcell (c, kR i) = rcvCell c i.val i.isLt := by
  show ((c : Thread nD τ), csem (kR i)) = _
  unfold csem kR
  rw [dif_neg (by show ¬ (i.val + 32 = 0); omega), dif_neg (by show ¬ (i.val + 32 ≤ 31); omega)]
  exact congrArg (fun s => ((c : Thread nD τ), SemLoc.dma s)) (rcvS_congr (by show i.val + 32 - 32 = i.val; omega) _ _)

/-! ## The ghost state of device `c` -/

variable (K : Dev nD × Fin 63 → ℕ)

/-- What device `c` knows for good: the invariants of its own 63 cells and of the 62 cells of other devices it pays
    (each other device's barrier cell and the receive cell of the row it writes there), and the rounds reached. -/
def invAt (c : Dev nD) (i : I31) : sProp 𝕄 :=
  iprop(cellInv ER (ringRd m) (K (c, kS i)) (sndCell c i.val i.isLt) ∗ cellInv ER (ringRd m) (K (c, kR i)) (rcvCell c i.val i.isLt)
    ∗ cellInv ER (ringRd m) (K (peer c (i.val + 1), 0)) (barCell (peer c (i.val + 1)))
    ∗ cellInv ER (ringRd m) (K (peer c (i.val + 1), kR i)) (rcvCell (peer c (i.val + 1)) i.val i.isLt)
    ∗ reached ER (barCell (peer c (i.val + 1))) 0 ∗ reached ER (sndCell c i.val i.isLt) 0 ∗ reached ER (rcvCell c i.val i.isLt) 0)
def invs (c : Dev nD) : sProp 𝕄 :=
  iprop(cellInv ER (ringRd m) (K (c, 0)) (barCell c) ∗ bigSep Finset.univ fun i : I31 => invAt m K c i)

instance invAt_persistent (c : Dev nD) (i : I31) : BI.Persistent (invAt (F := F) m K c i) := by unfold invAt; infer_instance
instance invs_persistent (c : Dev nD) : BI.Persistent (invs (F := F) m K c) := by unfold invs; infer_instance

theorem invs_at (c : Dev nD) (i : I31) : invs (F := F) m K c ⊢ invAt m K c i := by
  unfold invs
  have h : (bigSep Finset.univ fun i : I31 => invAt (F := F) m K c i) ⊢ invAt m K c i := bigSep_elim (Finset.mem_univ i)
  iintro ⟨-, H⟩; iapply h; iexact H
theorem invs_bar (c : Dev nD) : invs (F := F) m K c ⊢ cellInv ER (ringRd m) (K (c, 0)) (barCell c) := by
  unfold invs; iintro ⟨H, -⟩; iexact H

/-- What it holds once: its positions at round 0 of its own cells, and the tokens of the 93 duties it pays. -/
def linAt (c : Dev nD) (i : I31) : sProp 𝕄 :=
  iprop(atPos ER (sndCell c i.val i.isLt) 0 ∅ 0 ∗ atPos ER (rcvCell c i.val i.isLt) 0 ∅ 0
    ∗ dutyTok ER (barCell (peer c (i.val + 1))) 0 (dutyE i)
    ∗ dutyTok ER (sndCell c i.val i.isLt) 0 0
    ∗ dutyTok ER (rcvCell (peer c (i.val + 1)) i.val i.isLt) 0 0)
def linear (c : Dev nD) : sProp 𝕄 :=
  iprop(atPos ER (barCell c) 0 ∅ 0 ∗ bigSep Finset.univ fun i : I31 => linAt (F := F) c i)

def ghost (c : Dev nD) : sProp 𝕄 := iprop(invs m K c ∗ linear (F := F) c)

/-- What device `c`'s body starts from: that at some names, its credit tokens and the level facts. -/
def start (c : Dev nD) : sProp 𝕄 :=
  iprop((∃ K, ghost m K c) ∗ cred (tallyAt (barCell c) () 31)
    ∗ (bigSep Finset.univ fun i : I31 => cred (tallyAt (rcvCell c i.val i.isLt) () N)) ∗ levAts L lv)

def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After the point: the two scratch buffers at something, the 62 own cells closed with their counters at zero. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ bigSep Finset.univ fun i : I31 => iprop(semVal (sndCell c i.val i.isLt) 0 ∗ semVal (rcvCell c i.val i.isLt) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Hand

end
-- ==== Proof.Bundle.lean ====
/-
  Index bookkeeping for the 31 rows: the rows not yet handled (`todo j`: those from `j` on) and the rows handled
  (`done j`: those before `j`), and how a separating conjunction over them loses or gains row `j`.
-/
import proofs.«900944_g7700000000000945_dist_mean_ax0_shard0_i_m1536_n768_v7x_i32_f32_1_alg».proof.Proof.Data

noncomputable section

namespace Cert.KernelIdeal.Hand

open Cert.KernelIdeal
open Idealize.ShloMosaic
open Idealize.SL Idealize.SL.RA Idealize.SL.BI
open scoped Idealize.SL.BI
open Idealize.SL.BI.BIBase Idealize.SL.BI.Laws Idealize.SL.ProofMode

def todo (j : ℕ) : Finset I31 := Finset.univ.filter fun i => j ≤ i.val
def done (j : ℕ) : Finset I31 := Finset.univ.filter fun i => i.val < j

theorem todo_zero : todo 0 = Finset.univ := Finset.filter_true_of_mem fun i _ => Nat.zero_le _
theorem todo_31 : todo 31 = ∅ := Finset.filter_false_of_mem fun i _ => by have := i.isLt; omega
theorem done_zero : done 0 = ∅ := Finset.filter_false_of_mem fun i _ => by omega
theorem done_31 : done 31 = Finset.univ := Finset.filter_true_of_mem fun i _ => i.isLt

theorem todo_peel (j : ℕ) (hj : j < 31) : todo j = insert ⟨j, hj⟩ (todo (j + 1)) := by
  ext i
  simp only [todo, Finset.mem_filter, Finset.mem_univ, true_and, Finset.mem_insert]
  constructor
  · intro h
    by_cases e : i.val = j
    · exact Or.inl (Fin.ext e)
    · exact Or.inr (by omega)
  · rintro (h | h)
    · subst h; exact Nat.le_refl _
    · omega
theorem not_mem_todo_succ (j : ℕ) (hj : j < 31) : (⟨j, hj⟩ : I31) ∉ todo (j + 1) := by
  simp only [todo, Finset.mem_filter, Finset.mem_univ, true_and]; omega

theorem done_push (j : ℕ) (hj : j < 31) : done (j + 1) = insert ⟨j, hj⟩ (done j) := by
  ext i
  simp only [done, Finset.mem_filter, Finset.mem_univ, true_and, Finset.mem_insert]
  constructor
  · intro h
    by_cases e : i.val = j
    · exact Or.inl (Fin.ext e)
    · exact Or.inr (by omega)
  · rintro (h | h)
    · subst h; exact Nat.lt_succ_self _
    · omega
theorem not_mem_done (j : ℕ) (hj : j < 31) : (⟨j, hj⟩ : I31) ∉ done j := by
  simp only [done, Finset.mem_filter, Finset.mem_univ, true_and]; omega

variable {M : Type} [URA M]

theorem bigSep_todo_peel (Φ : I31 → sProp M) (j : ℕ) (hj : j < 31) :
    bigSep (todo j) Φ = iprop(Φ ⟨j, hj⟩ ∗ bigSep (todo (j + 1)) Φ) := by
  rw [todo_peel j hj, bigSep_insert (not_mem_todo_succ j hj)]; rfl
theorem bigSep_done_push (Φ : I31 → sProp M) (j : ℕ) (hj : j < 31) :
    bigSep (done (j + 1)) Φ = iprop(Φ ⟨j, hj⟩ ∗ bigSep (done j) Φ) := by
  rw [done_push j hj, bigSep_insert (not_mem_done j hj)]; rfl

end Cert.KernelIdeal.Hand

end
-- ==== Proof.Rows.lean ====
/-
  The receive buffer as 31 rows and the sent row as 32 shares.
  Row i of the receive buffer is the slice the kernel writes and reads it through; the rows' element sets are pairwise
  disjoint and together are the whole buffer, so holding the buffer is holding its rows, and holding some rows is
  holding the union of their element sets. A landed row holds the sender's column sums: device c writes row i of the
  device i + 1 places after it, and seen from there c is 31 - i places further on, which is what `commV` says row i holds.
  The sent row is lent to the 31 transfers at the shares `sh 0 .. sh 30`, `rem 31` staying with the device.
-/
import proofs.«900944_g7700000000000945_dist_mean_ax0_shard0_i_m1536_n768_v7x_i32_f32_1_alg».proof.Proof.Bundle
import Idealize.ShloMosaic.Lib.Pipeline.Value

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open PCS URA

variable {F : FTy → Type} [FloatOps F] [Named F]

local notation "𝕄" => MT nD τ sig Unit (Elt F) ℕ UU ℕ

variable (m : (ℓ : Loc nD τ sig) → Buf (Elt F) ℓ)

/-- An element of the receive buffer lies in row `i` exactly when its first coordinate is `i`. -/
theorem mem_row (i : ℕ) (hi : i < 31) (idx : S31x768.Idx) :
    idx ∈ (rowM i hi).view.set ↔ (idx 0).val = i := by
  rw [View.set_slice_whole, Rect.mem_set_unit]
  have h1 : (idx 1).val < 768 := (idx 1).isLt
  constructor
  · intro h
    have h0 := h 0
    change i ≤ (idx 0).val ∧ (idx 0).val < i + 1 at h0
    omega
  · intro h
    refine Fin.forall_fin_two.mpr ⟨?_, ?_⟩
    · show i ≤ (idx 0).val ∧ (idx 0).val < i + 1
      omega
    · show 0 ≤ (idx 1).val ∧ (idx 1).val < 0 + 768
      omega

/-- Different rows share no element: their first coordinates differ. -/
theorem rows_disjoint (i j : I31) (h : i ≠ j) :
    Disjoint (rowM i.val i.isLt).view.set (rowM j.val j.isLt).view.set := by
  rw [View.set_slice_whole, View.set_slice_whole]
  refine Rect.unit_disjoint 0 ?_
  have : i.val ≠ j.val := fun e => h (Fin.ext e)
  show i.val + 1 ≤ j.val ∨ j.val + 1 ≤ i.val
  omega

/-- The elements of the rows in `s`. -/
def rowsSet (c : Dev nD) (s : Finset I31) : Finset (Idx ((cM : Memref sig .tc .vmem S31x768 .f32).view.loc (c : Thread nD τ))) :=
  s.biUnion fun i => (rowM i.val i.isLt).view.set

/-- Holding the rows in `s` (all at contents `f`) is holding their elements. -/
theorem rows_iff (c : Dev nD) (s : Finset I31) (f : Buf (Elt F) ((cM : Memref sig .tc .vmem S31x768 .f32).view.loc (c : Thread nD τ))) :
    (bigSep s fun i : I31 => rowPts (F := F) c i.val i.isLt f)
      ⊣⊢ ((cM : Memref sig .tc .vmem S31x768 .f32).view.loc (c : Thread nD τ) ↦[rowsSet c s]{fullShare} f : sProp 𝕄) := by
  unfold rowsSet
  rw [pointsTo_biUnion s _ (fun i _ j _ h => rows_disjoint i j h)]
  exact .rfl

/-- All 31 rows are the whole buffer. -/
theorem rowsSet_univ (c : Dev nD) : rowsSet c Finset.univ = Finset.univ := by
  refine Finset.eq_univ_iff_forall.mpr fun idx => ?_
  exact Finset.mem_biUnion.mpr ⟨⟨(idx 0).val, (idx 0).isLt⟩, Finset.mem_univ _, (mem_row _ _ idx).mpr rfl⟩

/-- An element of the rectangle of rows `lo .. lo + sz 0 - 1` lies in the row of its first coordinate, which is below `lo + sz 0`. -/
theorem grp_sub (c : Dev nD) (lo : ℕ) (sz : Fin 2 → ℕ) (h : ∀ a, (![lo, 0] : Fin 2 → Nat) a + sz a ≤ S31x768.size a) (b : ℕ) (hb : lo + sz 0 ≤ b) :
    (cM : Memref sig .tc .vmem S31x768 .f32).view.setOn (Rect.unit (s := S31x768) ![lo, 0] sz h).toLoadRect.set ⊆ rowsSet c (done b) := by
  intro idx hidx
  obtain ⟨x, hx, rfl⟩ := Finset.mem_map.mp hidx
  have h0 := (Rect.mem_set_unit.mp hx) 0
  change lo ≤ (x 0).val ∧ (x 0).val < lo + sz 0 at h0
  refine Finset.mem_biUnion.mpr ⟨⟨(x 0).val, (x 0).isLt⟩, ?_, (mem_row _ _ x).mpr rfl⟩
  simp only [done, Finset.mem_filter, Finset.mem_univ, true_and]
  omega

/-- The kernel's four loads of received rows read rows it has received by then: rows 0-7 after 8 rows, 8-15 after 16, 16-23 after 24, 24-30 after all 31. -/
theorem grp0_sub (c : Dev nD) :
    (cM : Memref sig .tc .vmem S31x768 .f32).view.setOn (Rect.unit (s := S31x768) ![0, 0] S8x768.size Facts₀.inb_S31x768_S8x768_0_0).toLoadRect.set ⊆ rowsSet c (done 8) :=
  grp_sub c 0 _ _ 8 (Nat.le_refl _)
theorem grp1_sub (c : Dev nD) :
    (cM : Memref sig .tc .vmem S31x768 .f32).view.setOn (Rect.unit (s := S31x768) ![8, 0] S8x768.size Facts₀.inb_S31x768_S8x768_8_0).toLoadRect.set ⊆ rowsSet c (done 16) :=
  grp_sub c 8 _ _ 16 (Nat.le_refl _)
theorem grp2_sub (c : Dev nD) :
    (cM : Memref sig .tc .vmem S31x768 .f32).view.setOn (Rect.unit (s := S31x768) ![16, 0] S8x768.size Facts₀.inb_S31x768_S8x768_16_0).toLoadRect.set ⊆ rowsSet c (done 24) :=
  grp_sub c 16 _ _ 24 (Nat.le_refl _)
theorem grp3_sub (c : Dev nD) :
    (cM : Memref sig .tc .vmem S31x768 .f32).view.setOn (Rect.unit (s := S31x768) ![24, 0] S7x768.size Facts₀.inb_S31x768_S7x768_24_0).toLoadRect.set ⊆ rowsSet c (done 31) :=
  grp_sub c 24 _ _ 31 (Nat.le_refl _)

/-- A landed row: whatever the row held, once device `c`'s sent row is written over it, it agrees on the row's elements
    with what `commV` says the receiving device's buffer holds. -/
theorem landed_row (c : Dev nD) (i : I31)
    (fd : Buf (Elt F) ((rowM i.val i.isLt).view.loc ((peer c (i.val + 1) : Dev nD) : Thread nD τ))) :
    ∀ idx ∈ (rowM i.val i.isLt).view.set,
      (rowM i.val i.isLt).view.write (Elt F) fd ((sM : Memref sig .tc .vmem S1x768 .f32).view.read (Elt F) (sendV m c)) Finset.univ idx
        = commV m (peer c (i.val + 1)) idx := by
  intro idx hidx
  obtain ⟨y, rfl⟩ := View.exists_emb_of_mem_set _ hidx
  rw [View.write_emb_of_mem _ _ (Finset.mem_univ y), cast_eq]
  -- the element of row i under the row's index y is (i, y 1)
  have hy0 : ((rowM i.val i.isLt).view.emb y 0).val = i.val := by
    show i.val + 1 * (y 0).val = i.val
    have : (y 0).val < 1 := (y 0).isLt
    omega
  have hy1 : (rowM i.val i.isLt).view.emb y 1 = y 1 :=
    Fin.ext (by show 0 + 1 * (y 1).val = (y 1).val; omega)
  show sendF (xstg m c) y = sendF (xstg m (peer (peer c (i.val + 1)) (31 - ((rowM i.val i.isLt).view.emb y 0).val)))
    (fun a => match a with | 0 => ⟨0, by decide⟩ | 1 => (rowM i.val i.isLt).view.emb y 1)
  -- seen from the device i + 1 places on, the sender 31 - i places further on is c itself
  rw [hy0, peer_back, hy1]
  congr 1
  funext a
  revert a
  refine Fin.forall_fin_two.mpr ⟨?_, rfl⟩
  exact Fin.ext (by have : (y 0).val < 1 := (y 0).isLt; show (y 0).val = 0; omega)

/-- A buffer region held whole is the shares lent to the first `n` transfers and the share `rem n` left before transfer `n`. -/
theorem shares_upto (ℓ : Loc nD τ sig) (S : Finset (Idx ℓ)) (f : Buf (Elt F) ℓ) (n : ℕ) (hn : n ≤ 31) :
    (ℓ ↦[S]{fullShare} f : sProp 𝕄)
      ⊣⊢ iprop((bigSep (done n) fun i : I31 => (ℓ ↦[S]{sh i.val} f : sProp 𝕄)) ∗ (ℓ ↦[S]{rem n} f)) := by
  induction n with
  | zero =>
    rw [done_zero, bigSep_empty]
    exact emp_sep.symm
  | succ n ih =>
    have hn' : n < 31 := by omega
    rw [bigSep_done_push _ n hn']
    -- the share left before transfer n is the share it borrows and the share left after it
    have hs : (ℓ ↦[S]{rem n} f : sProp 𝕄) ⊣⊢ iprop((ℓ ↦[S]{sh n} f) ∗ ℓ ↦[S]{rem (n + 1)} f) :=
      pointsTo_share (rem_split n)
    refine (ih (by omega)).trans ⟨?_, ?_⟩
    · iintro ⟨HB, HR⟩
      ihave H := hs.1 $$ HR
      icases H with ⟨HS, HR'⟩
      isplitr [HR']
      · isplitl [HS]
        · iexact HS
        · iexact HB
      · iexact HR'
    · iintro ⟨⟨HS, HB⟩, HR'⟩
      isplitl [HB]
      · iexact HB
      · iapply hs.2
        isplitl [HS]
        · iexact HS
        · iexact HR'

/-- The sent row, held whole, is its 31 lent shares and the share that stays. -/
theorem send_shares (c : Dev nD) (f : Buf (Elt F) ((sM : Memref sig .tc .vmem S1x768 .f32).view.loc (c : Thread nD τ))) :
    ((sM : Memref sig .tc .vmem S1x768 .f32).view.loc (c : Thread nD τ) ↦[(sM : Memref sig .tc .vmem S1x768 .f32).view.set]{fullShare} f : sProp 𝕄)
      ⊣⊢ iprop((bigSep Finset.univ fun i : I31 =>
            ((sM : Memref sig .tc .vmem S1x768 .f32).view.loc (c : Thread nD τ) ↦[(sM : Memref sig .tc .vmem S1x768 .f32).view.set]{sh i.val} f : sProp 𝕄))
          ∗ ((sM : Memref sig .tc .vmem S1x768 .f32).view.loc (c : Thread nD τ) ↦[(sM : Memref sig .tc .vmem S1x768 .f32).view.set]{rem 31} f)) := by
  have h := shares_upto (F := F) _ (sM : Memref sig .tc .vmem S1x768 .f32).view.set f 31 (Nat.le_refl _)
  rw [done_31] at h
  exact h

end Cert.KernelIdeal.Hand

end
-- ==== Proof.Steps.lean ====
/-
  The protocol's steps on a device `c`, each once and for a symbolic row `i` (offset `i + 1`):
  the barrier signal to the device `i + 1` places on (it hands over row `30 - i` of `c`'s receive buffer, the row that
  device will write, and that `c`'s receive cell for it is at round 0); the barrier wait (all 31 other devices' rows come
  with it); the remote copy of the sent row into row `i` of that device; the wait for the row landing in `c`'s own row `i`;
  the wait for the copy's departure (the lent share of the sent row comes back).
-/
import proofs.«900944_g7700000000000945_dist_mean_ax0_shard0_i_m1536_n768_v7x_i32_f32_1_alg».proof.Proof.Rows

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F] [Named F]

local notation "𝕄" => MT nD τ sig Unit (Elt F) ℕ UU ℕ

variable (m : (ℓ : Loc nD τ sig) → Buf (Elt F) ℓ) (K : Dev nD × Fin 63 → ℕ)

theorem barPay_eq_of (t c : Dev nD) (e a : ℕ) (he : e - 1 < 31) (ha : a < 31) (h1 : peer t e = c) (h2 : e - 1 = a) :
    barPay (F := F) t e he = iprop((∃ f, rowPts c a ha f) ∗ reached ER (rcvCell c a ha) 0) := by
  subst h1; subst h2; rfl

/-- The row device `c` hands the device `i + 1` places on is its row `30 - i`. -/
def rowBack (i : I31) : I31 := ⟨30 - i.val, sub_lt31 i⟩

/-- THE BARRIER SIGNAL at offset `i + 1`. -/
theorem sig_step {α : Type} {Q : α → sProp 𝕄} {k : PUnit → Prog (TpuEff nD τ sig (Elt F) Λ₀ .tc) α} (c : Dev nD) (i : I31) (W : Waits sig Unit) (Orest : CellTallies nD τ sig Unit) :
    iprop(invs m K c ∗ owes (c : Thread nD τ) (Orest + OsigLast c (31 - i.val)) W
        ∗ dutyTok ER (barCell (peer c (i.val + 1))) 0 (dutyE i)
        ∗ (∃ f, rowPts (F := F) c (30 - i.val) (sub_lt31 i) f))
      ⊢ iprop((owes (c : Thread nD τ) (Orest + OsigLast c (30 - i.val)) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((peer c (i.val + 1) : Dev nD) : Thread nD τ) barS 1) k) Q) := by
  iintro ⟨#HI, HO, Htok, Hrow⟩
  ihave #Hi := (invs_at m K c i) $$ HI
  ihave #Hb := (invs_at m K c (rowBack i)) $$ HI
  unfold invAt
  icases Hi with ⟨-, -, #HIbarP, -, #HrBP, -, -⟩
  icases Hb with ⟨-, -, -, -, -, -, #HrV⟩
  iapply (Rounds.wp_signal 𝒱₀ ER (ringRd m) (c : Thread nD τ) none (dst := ((peer c (i.val + 1) : Dev nD) : Thread nD τ)) (κ := K (peer c (i.val + 1), 0))
      (d := dutyE i) (by rw [duties_bar]; exact Finset.mem_erase.mpr ⟨dutyE_ne_zero i, Finset.mem_univ _⟩)
      (amount_bar m (peer c (i.val + 1)) (dutyE i)) ()
      (O₀ := Orest + OsigLast c (31 - i.val)) (Orest + OsigLast c (30 - i.val)) (by rw [Osig_peel c i]; exact (add_assoc _ _ _).symm)) $$ [HO Htok Hrow]
  · isplitr; · iexact HIbarP
    isplitl [HO]; · iexact HO
    isplitl [Htok]; · iexact Htok
    isplitl [Hrow]
    · rw [payload_bar, barPay_eq_of (F := F) (peer c (i.val + 1)) c (dutyE i).val (30 - i.val) _ (sub_lt31 i) (peer_back c i)
        (by rw [dutyE_val]; have := i.isLt; omega)]
      isplitl [Hrow]; · iexact Hrow
      iexact HrV
    · iexact HrBP

/-! ## The barrier wait -/

/-- Row `i` is the barrier duty `i + 1`. -/
def dutyOf : I31 ↪ DN :=
  ⟨fun i => ⟨i.val + 1, by have := i.isLt; omega⟩, fun a b h => Fin.ext (by have e : a.val + 1 = b.val + 1 := congrArg Fin.val h; omega)⟩
theorem erase_zero_eq : (Finset.univ.erase (0 : DN)) = Finset.univ.map dutyOf := by
  ext d
  simp only [Finset.mem_erase, Finset.mem_univ, and_true, Finset.mem_map, true_and]
  constructor
  · intro h
    have hd : d.val ≠ 0 := fun e => h (Fin.ext e)
    have hl := d.isLt
    exact ⟨⟨d.val - 1, by omega⟩, Fin.ext (by show d.val - 1 + 1 = d.val; omega)⟩
  · rintro ⟨i, rfl⟩ h
    have e : i.val + 1 = 0 := congrArg Fin.val h
    omega

/-- What the device `i + 1` places on hands `c`: row `i` of its receive buffer, and its receive cell `i` at round 0. -/
abbrev peerRow (c : Dev nD) (i : I31) : sProp 𝕄 :=
  iprop((∃ f, rowPts (F := F) (peer c (i.val + 1)) i.val i.isLt f) ∗ reached ER (rcvCell (peer c (i.val + 1)) i.val i.isLt) 0)

theorem bar_rest (c : Dev nD) :
    bigSep ((ringRd (F := F) m).duties (barCell c) 0 \ ∅) (fun d => (ringRd (F := F) m).payload (barCell c) 0 d)
      = bigSep Finset.univ (peerRow (F := F) c) := by
  rw [Finset.sdiff_empty, duties_bar, erase_zero_eq, bigSep_map]
  refine bigSep_congr fun i _ => ?_
  rw [payload_bar]
  exact barPay_eq_of (F := F) c (peer c (i.val + 1)) (i.val + 1) i.val _ i.isLt rfl (by omega)

/-- THE BARRIER WAIT for the 31 units, owing `O` (row credits only: `hmw`). -/
theorem barwait_step {α : Type} {Q : α → sProp 𝕄} {k : PUnit → Prog (TpuEff nD τ sig (Elt F) Λ₀ .tc) α} (c : Dev nD) (W : Waits sig Unit) (O : CellTallies nD τ sig Unit)
    (hmw : (levAts L lv : sProp 𝕄) ⊢ MayWait (c : Thread nD τ) (.reg barS) () O) :
    iprop(invs m K c ∗ levAts L lv ∗ cred (tallyAt (barCell c) () 31) ∗ owes (c : Thread nD τ) O W ∗ atPos ER (barCell c) 0 ∅ 0)
      ⊢ iprop(((owes (c : Thread nD τ) O (insert (SemLoc.reg barS, ()) W) ∗ bigSep Finset.univ (peerRow (F := F) c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 31) k) Q) := by
  iintro ⟨#HI, #Hlev, Hc, HO, Hat⟩ Hk
  ihave #HIbar := (invs_bar m K c) $$ HI
  iapply (Rounds.wp_wait_rest_token 𝒱₀ ER (ringRd m) (c : Thread nD τ) none (κ := K (c, 0))
      (wpE_semWait_eq 𝒱₀ (c : Thread nD τ) none Set.univ) (Set.mem_univ _) () (O := O) (W := W) (R := 0) (m := 0) (T := ∅)
      (by rw [expect_bar])) $$ [Hc HO Hat]
  · isplitr; · iexact HIbar
    isplitl [Hc]; · iexact Hc
    isplitl [HO]; · iexact HO
    isplitr; · iapply hmw; iexact Hlev
    iexact Hat
  iintro ⟨HO, -, -, Hpay⟩
  ihave Hp := (Entails.of_eq (bar_rest m c)) $$ Hpay
  iapply Hk
  isplitl [HO]; · iexact HO
  iexact Hp

/-! ## The remote copy -/

/-- THE REMOTE COPY at offset `i + 1`: the sent row (its share `sh i`) into row `i` of the device `i + 1` places on. -/
theorem snd_step {α : Type} {Q : α → sProp 𝕄} {k : PUnit → Prog (TpuEff nD τ sig (Elt F) Λ₀ .tc) α} (c : Dev nD) (i : I31) (W : Waits sig Unit)
    (fd : Buf (Elt F) ((rowM i.val i.isLt).view.loc ((peer c (i.val + 1) : Dev nD) : Thread nD τ)))
    {hsc : (rowM i.val i.isLt : Memref sig (Dev.tc (peer c (i.val + 1)) : Thread nD τ).2.kind .vmem S1x768 .f32).view.ref.isScScratch = false}
    {hsrc : (sM : Memref sig .tc .vmem S1x768 .f32).view.WordExact} {hdst : (rowM i.val i.isLt).view.WordExact}
    {hsem : DmaTarget.Typed .vmem (.dma (rcvS i.val i.isLt)) (.remote (Dev.tc (peer c (i.val + 1)) : Thread nD τ) (rowM i.val i.isLt) (.dma (sndS i.val i.isLt)) hsc)} :
    iprop(invs m K c ∗ sPts m c (sh i.val) ∗ rowPts (F := F) (peer c (i.val + 1)) i.val i.isLt fd
        ∗ reached ER (rcvCell (peer c (i.val + 1)) i.val i.isLt) 0
        ∗ owes (c : Thread nD τ) (OsndLast c (31 - i.val)) W
        ∗ dutyTok ER (sndCell c i.val i.isLt) 0 0 ∗ dutyTok ER (rcvCell (peer c (i.val + 1)) i.val i.isLt) 0 0)
      ⊢ iprop(((cred (tallyAt (sndCell c i.val i.isLt) () N) ∗ owes (c : Thread nD τ) (OsndLast c (30 - i.val)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc (peer c (i.val + 1)) : Thread nD τ) (rowM i.val i.isLt) (.dma (sndS i.val i.isLt)) hsc) (.dma (rcvS i.val i.isLt)) hsrc hdst hsem) k) Q) := by
  iintro ⟨#HI, Hs, Hrow, #HrV, HO, HtS, HtV⟩
  ihave #Hi := (invs_at m K c i) $$ HI
  unfold invAt
  icases Hi with ⟨#HIsnd, -, -, #HIrcvP, -, #HrS, -⟩
  unfold sPts rowPts
  iapply (Rounds.wp_send_pointsTo 𝒱₀ ER (ringRd m) (c : Thread nD τ) none (κ₁ := K (c, kS i)) (κ₂ := K (peer c (i.val + 1), kR i))
      (r₁ := 0) (r₂ := 0) (d₁ := 0) (d₂ := 0) (fd := fd)
      (by rw [duties_snd]; exact Finset.mem_singleton_self _) (by rw [duties_rcv]; exact Finset.mem_singleton_self _)
      () () N rfl (amount_snd m c i.val i.isLt 0) (amount_rcv m (peer c (i.val + 1)) i.val i.isLt 0)
      (OsndLast c (30 - i.val)) (Osnd_peel c i) (W := W)
      (by rw [payload_snd]; unfold sndPay sPts; exact BI.Entails.refl _)
      (by rw [payload_rcv]; unfold rcvPay rowPts; rw [pointsTo_congr (landed_row m c i fd)])) $$ [Hs Hrow HO HtS HtV]
  · isplitr; · iexact HIsnd
    isplitr; · iexact HIrcvP
    isplitl [Hs]; · iexact Hs
    isplitl [Hrow]; · iexact Hrow
    isplitl [HO]; · iexact HO
    isplitl [HtS]; · iexact HtS
    isplitr; · iexact HrS
    isplitl [HtV]; · iexact HtV
    iexact HrV

/-- The same, the addressed device given as the kernel computes it (`n`, with its closed form): substituted, not rewritten. -/
theorem snd_step' {α : Type} {Q : α → sProp 𝕄} {k : PUnit → Prog (TpuEff nD τ sig (Elt F) Λ₀ .tc) α} (c : Dev nD) (i : I31) (W : Waits sig Unit)
    (n : Dev nD) (hn : n = peer c (i.val + 1))
    (fd : Buf (Elt F) ((rowM i.val i.isLt).view.loc ((peer c (i.val + 1) : Dev nD) : Thread nD τ)))
    {hsc : (rowM i.val i.isLt : Memref sig (Dev.tc n : Thread nD τ).2.kind .vmem S1x768 .f32).view.ref.isScScratch = false}
    {hsrc : (sM : Memref sig .tc .vmem S1x768 .f32).view.WordExact} {hdst : (rowM i.val i.isLt).view.WordExact}
    {hsem : DmaTarget.Typed .vmem (.dma (rcvS i.val i.isLt)) (.remote (Dev.tc n : Thread nD τ) (rowM i.val i.isLt) (.dma (sndS i.val i.isLt)) hsc)} :
    iprop(invs m K c ∗ sPts m c (sh i.val) ∗ rowPts (F := F) (peer c (i.val + 1)) i.val i.isLt fd
        ∗ reached ER (rcvCell (peer c (i.val + 1)) i.val i.isLt) 0
        ∗ owes (c : Thread nD τ) (OsndLast c (31 - i.val)) W
        ∗ dutyTok ER (sndCell c i.val i.isLt) 0 0 ∗ dutyTok ER (rcvCell (peer c (i.val + 1)) i.val i.isLt) 0 0)
      ⊢ iprop(((cred (tallyAt (sndCell c i.val i.isLt) () N) ∗ owes (c : Thread nD τ) (OsndLast c (30 - i.val)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) (rowM i.val i.isLt) (.dma (sndS i.val i.isLt)) hsc) (.dma (rcvS i.val i.isLt)) hsrc hdst hsem) k) Q) := by
  subst hn
  exact snd_step m K c i W fd

/-! ## The two DMA waits -/

/-- THE WAIT FOR THE LANDING in `c`'s own row `i`: the row comes back at its landed contents. -/
theorem rcvwait_step {α : Type} {Q : α → sProp 𝕄} {k : PUnit → Prog (TpuEff nD τ sig (Elt F) Λ₀ .tc) α} (c : Dev nD) (i : I31) (W : Waits sig Unit)
    {src : Memref sig .tc .vmem S1x768 .f32} {hsrc : src.view.WordExact} {hdst : (rowM i.val i.isLt).view.WordExact} :
    iprop(invs m K c ∗ cred (tallyAt (rcvCell c i.val i.isLt) () N) ∗ owes (c : Thread nD τ) 0 W ∗ atPos ER (rcvCell c i.val i.isLt) 0 ∅ 0)
      ⊢ iprop(((owes (c : Thread nD τ) 0 (insert (SemLoc.dma (rcvS i.val i.isLt), ()) W) ∗ atPos ER (rcvCell c i.val i.isLt) 1 ∅ 0
              ∗ rowPts (F := F) c i.val i.isLt (commV m c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (rcvS i.val i.isLt) src (rowM i.val i.isLt) hsrc hdst) k) Q) := by
  iintro ⟨#HI, Hc, HO, Hat⟩ Hk
  ihave #Hi := (invs_at m K c i) $$ HI
  unfold invAt
  icases Hi with ⟨-, #HIrcv, -, -, -, -, -⟩
  iapply (Rounds.wp_wait_rest_token 𝒱₀ ER (ringRd m) (c : Thread nD τ) none (κ := K (c, kR i))
      (wpE_waitDma2_eq 𝒱₀ (c : Thread nD τ) none Set.univ) (Set.mem_univ _) () (O := 0) (W := W) (R := 0) (m := 0) (T := ∅)
      (by rw [Nat.zero_add, expect_rcv])) $$ [Hc HO Hat]
  · isplitr; · iexact HIrcv
    isplitl [Hc]; · iexact Hc
    isplitl [HO]; · iexact HO
    isplitr; · rw [MayWait_zero]; iempintro
    iexact Hat
  iintro ⟨HO, Hat, -, Hpay⟩
  ihave Hp := (Entails.of_eq (rest_rcv m c i.val i.isLt)) $$ Hpay
  iapply Hk
  isplitl [HO]; · iexact HO
  isplitl [Hat]; · iexact Hat
  unfold rcvPay; iexact Hp

/-- THE WAIT FOR THE DEPARTURE of copy `i`: the lent share of the sent row comes back. -/
theorem sndwait_step {α : Type} {Q : α → sProp 𝕄} {k : PUnit → Prog (TpuEff nD τ sig (Elt F) Λ₀ .tc) α} (c : Dev nD) (i : I31) (W : Waits sig Unit)
    {src : Memref sig .tc .vmem S1x768 .f32} {hsrc : src.view.WordExact} {hdst : (sM : Memref sig .tc .vmem S1x768 .f32).view.WordExact} :
    iprop(invs m K c ∗ cred (tallyAt (sndCell c i.val i.isLt) () N) ∗ owes (c : Thread nD τ) 0 W ∗ atPos ER (sndCell c i.val i.isLt) 0 ∅ 0)
      ⊢ iprop(((owes (c : Thread nD τ) 0 (insert (SemLoc.dma (sndS i.val i.isLt), ()) W) ∗ atPos ER (sndCell c i.val i.isLt) 1 ∅ 0
              ∗ sPts m c (sh i.val))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sndS i.val i.isLt) src sM hsrc hdst) k) Q) := by
  iintro ⟨#HI, Hc, HO, Hat⟩ Hk
  ihave #Hi := (invs_at m K c i) $$ HI
  unfold invAt
  icases Hi with ⟨#HIsnd, -, -, -, -, -, -⟩
  iapply (Rounds.wp_wait_rest_token 𝒱₀ ER (ringRd m) (c : Thread nD τ) none (κ := K (c, kS i))
      (wpE_waitDma2_eq 𝒱₀ (c : Thread nD τ) none Set.univ) (Set.mem_univ _) () (O := 0) (W := W) (R := 0) (m := 0) (T := ∅)
      (by rw [Nat.zero_add, expect_snd])) $$ [Hc HO Hat]
  · isplitr; · iexact HIsnd
    isplitl [Hc]; · iexact Hc
    isplitl [HO]; · iexact HO
    isplitr; · rw [MayWait_zero]; iempintro
    iexact Hat
  iintro ⟨HO, Hat, -, Hpay⟩
  ihave Hp := (Entails.of_eq (rest_snd m c i.val i.isLt)) $$ Hpay
  iapply Hk
  isplitl [HO]; · iexact HO
  isplitl [Hat]; · iexact Hat
  unfold sndPay; iexact Hp

end Cert.KernelIdeal.Hand

end
-- ==== Proof.Devs.lean ====
/-
  The 62 device chains of the kernel, in closed form: the signal at offset k (chains 1 to 31) and the remote copy at
  offset k (chains 32 to 62) both address the device k places after this one on the ring of 32. Each chain is the
  kernel's word arithmetic `(me + k) mod 32`; over the 32 devices of the mesh each equation is decided.
-/
import proofs.«900944_g7700000000000945_dist_mean_ax0_shard0_i_m1536_n768_v7x_i32_f32_1_alg».proof.Proof.Proto

set_option Elab.async false

namespace Cert.KernelIdeal.Hand

open Cert.KernelIdeal Cert.KernelIdeal.Gen
open Idealize.ShloMosaic Idealize.SL.Sem
open Lean Elab Command

/-- For K = 1..62 states and proves `devK_eq : ⟨k0_devK c, _⟩ = peer c k`, k = K for a signal's chain and K - 31 for a
    copy's, by deciding `k0_devK c = (c + k) mod 32` over the mesh. -/
elab "ring_device_equations" : command => do
  for K in [1:63] do
    let k : Nat := if K ≤ 31 then K else K - 31
    let chain := mkIdent (Name.mkSimple s!"k0_dev{K}")
    let chainLt := mkIdent (Name.mkSimple s!"k0_dev{K}_lt")
    let valName := mkIdent (Name.mkSimple s!"k0_dev{K}_val")
    let eqName := mkIdent (Name.mkSimple s!"dev{K}_eq")
    let kq := Syntax.mkNumLit (toString k)
    elabCommand (← `(theorem $valName : ∀ c : Dev nD, $chain c = (c.val + $kq) % 32 := by decide +kernel))
    elabCommand (← `(@[sl_canon] theorem $eqName (c : Dev nD) : (⟨$chain c, $chainLt c⟩ : Dev nD) = peer c $kq := Fin.ext ($valName c)))

ring_device_equations

end Cert.KernelIdeal.Hand
-- ==== Proof.Credit.lean ====
/-
  What the 32 devices owe one another at launch, added up per cell: every barrier cell is owed one unit by each of the
  31 other devices, every receive cell one row's credit by the one device that writes that row; and the level facts a
  device's waits need (it waits on staging semaphores owing anything, on its barrier owing row credits only).
-/
import proofs.«900944_g7700000000000945_dist_mean_ax0_shard0_i_m1536_n768_v7x_i32_f32_1_alg».proof.Proof.Data

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

variable {F : FTy → Type} [FloatOps F] [Named F]

local notation "𝕄" => MT nD τ sig Unit (Elt F) ℕ UU ℕ

/-! ## Where a device owes: barrier cells and receive cells of devices on its ring, nowhere else -/

/-- The barrier units a device owes sit on barrier cells of devices on its ring. -/
theorem Osig_pos {c : Dev nD} {g : GSem nD τ sig} {u : Unit} : ∀ n, 0 < OsigLast c n g u → ∃ k, g = barCell (peer c k)
  | 0, h => absurd h (Nat.lt_irrefl 0)
  | n + 1, h => by
    change 0 < (OsigLast c n + tallyAt (barCell (peer c (31 - n))) () 1) g u at h
    rw [Pi.add_apply, Finsupp.add_apply] at h
    rcases Nat.eq_zero_or_pos (OsigLast c n g u) with h0 | h0
    · rw [h0, Nat.zero_add] at h
      exact ⟨_, (Pipeline.tallyAt_pos h).1⟩
    · exact Osig_pos n h0

/-- The row credits a device owes sit on receive cells of devices on its ring. -/
theorem Osnd_pos {c : Dev nD} {g : GSem nD τ sig} {u : Unit} :
    ∀ n, 0 < OsndLast c n g u → ∃ k i, ∃ hi : i < 31, g = rcvCell (peer c k) i hi
  | 0, h => absurd h (Nat.lt_irrefl 0)
  | n + 1, h => by
    change 0 < (OsndLast c n + (if h : 30 - n < 31 then tallyAt (rcvCell (peer c (31 - n)) (30 - n) h) () N else 0)) g u at h
    rw [Pi.add_apply, Finsupp.add_apply, dif_pos (by omega)] at h
    rcases Nat.eq_zero_or_pos (OsndLast c n g u) with h0 | h0
    · rw [h0, Nat.zero_add] at h
      exact ⟨_, _, _, (Pipeline.tallyAt_pos h).1⟩
    · exact Osnd_pos n h0

/-- Any mix of the two kinds of dues is positive only at such a cell. -/
theorem owes_pos {c : Dev nD} {g : GSem nD τ sig} {u : Unit} (n n' : ℕ) (h : 0 < (OsndLast c n + OsigLast c n') g u) :
    (∃ k, g = barCell (peer c k)) ∨ ∃ k i, ∃ hi : i < 31, g = rcvCell (peer c k) i hi := by
  rw [Pi.add_apply, Finsupp.add_apply] at h
  rcases Nat.eq_zero_or_pos (OsndLast c n g u) with h0 | h0
  · rw [h0, Nat.zero_add] at h
    exact Or.inl (Osig_pos n' h)
  · exact Or.inr (Osnd_pos n h0)

/-- A staging semaphore (numbered 0 or 1) is at level 0. -/
theorem semLevel_stage (q : DmaSem sig) (hq : q.val < 2) : semLevel (.dma q : SemLoc sig) = 0 := by
  show (if 33 ≤ q.val then 2 else 0) = 0
  rw [if_neg (by omega)]

/-- A wait on a staging semaphore (level 0), owing everything or nothing. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => ?_) (fun p hp => ?_) (fun g u hg => ?_)
    · rcases owes_pos 31 31 hg with ⟨k, rfl⟩ | ⟨k, i, hi, rfl⟩ <;> exact Finset.mem_singleton_self _
    · rw [Finset.mem_singleton.mp hp]
      exact Nat.le_of_eq (semLevel_stage q hq)
    · rcases owes_pos 31 31 hg with ⟨k, rfl⟩ | ⟨k, i, hi, rfl⟩
      · show 0 < lv (barCell (peer c k)) ()
        rw [lv_bar]; exact Nat.one_pos
      · show 0 < lv (rcvCell (peer c k) i hi) ()
        rw [lv_rcv]; exact Nat.two_pos
  · rw [MayWait_zero]; iintro -; iempintro

/-- At its barrier wait a device owes row credits only: receive cells, above its barrier cell. -/
theorem mayWait_bar (c : Dev nD) :
    (levAts L lv : sProp 𝕄) ⊢ MayWait (c : Thread nD τ) (.reg barS) () (OsndLast c 31 + OsigLast c 0) := by
  have hpos : ∀ (g : GSem nD τ sig) (u : Unit), 0 < (OsndLast c 31 + OsigLast c 0) g u → ∃ k i, ∃ hi : i < 31, g = rcvCell (peer c k) i hi :=
    fun g u hg => by
      rcases owes_pos 31 0 hg with ⟨k, hk⟩ | h
      · rw [Pi.add_apply, Finsupp.add_apply] at hg
        rcases Nat.eq_zero_or_pos (OsndLast c 31 g u) with h0 | h0
        · rw [h0, Nat.zero_add] at hg; exact absurd hg (Nat.lt_irrefl 0)
        · exact Osnd_pos 31 h0
      · exact h
  refine MayOwe.of_cut (L := L) (lev := lv) 1
    (fun p hp => by rw [Finset.mem_singleton.mp hp, L_tc]; exact Finset.mem_singleton_self _)
    (fun g u hg => ?_) (fun p hp => ?_) (fun g u hg => ?_)
  · obtain ⟨k, i, hi, rfl⟩ := hpos g u hg
    exact Finset.mem_singleton_self _
  · rw [Finset.mem_singleton.mp hp]
    exact Nat.le_of_eq (lv_bar c)
  · obtain ⟨k, i, hi, rfl⟩ := hpos g u hg
    show 1 < lv (rcvCell (peer c k) i hi) ()
    rw [lv_rcv]; exact Nat.one_lt_two

/-! ## The dues added up per cell -/

/-- How many places after `d` the device `c` sits on the ring. -/
def off (d c : Dev nD) : ℕ := (c.val + 32 - d.val) % 32

theorem off_lt (d c : Dev nD) : off d c < 32 := Nat.mod_lt _ (by decide)

/-- Within one turn, `c` is `k` places after `d` exactly when `k` is that offset. -/
theorem peer_eq_iff (d c : Dev nD) (k : ℕ) (hk : k < 32) : peer d k = c ↔ k = off d c := by
  have hd : d.val < 32 := d.isLt
  have hc : c.val < 32 := c.isLt
  unfold off
  rw [Fin.ext_iff, peer_val]
  omega

/-- Cells of different devices differ; receive cells of different rows differ. -/
theorem bar_eq_iff {a b : Dev nD} : barCell a = barCell b ↔ a = b :=
  ⟨fun h => Fin.ext (congrArg (fun g : GSem nD τ sig => g.1.1.val) h), fun h => h ▸ rfl⟩

theorem rcv_eq_iff {a b : Dev nD} {i j : ℕ} {hi : i < 31} {hj : j < 31} : rcvCell a i hi = rcvCell b j hj ↔ a = b ∧ i = j := by
  constructor
  · intro h
    have h1 : a = b := Fin.ext (congrArg (fun g : GSem nD τ sig => g.1.1.val) h)
    have h2 : (SemLoc.dma (rcvS i hi) : SemLoc sig) = .dma (rcvS j hj) := congrArg Prod.snd h
    have h3 : (rcvS i hi).val = (rcvS j hj).val := congrArg (fun s : DmaSem sig => s.val) (SemLoc.dma.inj h2)
    rw [rcvS_val, rcvS_val] at h3
    exact ⟨h1, by omega⟩
  · rintro ⟨rfl, rfl⟩; rfl

/-- One barrier unit owed `k` places on, read at `c`'s barrier cell. -/
theorem bar_tally (d c : Dev nD) (k : ℕ) (hk : k < 32) :
    tallyAt (barCell (peer d k)) () 1 (barCell c) () = if k = off d c then 1 else 0 := by
  rw [tallyAt_apply]
  by_cases h : k = off d c
  · rw [if_pos h, if_pos ⟨bar_eq_iff.mpr ((peer_eq_iff d c k hk).mpr h).symm, rfl⟩]
  · rw [if_neg h, if_neg fun h' => h ((peer_eq_iff d c k hk).mp (bar_eq_iff.mp h'.1).symm)]

/-- One row credit owed to row `j` of the device `k` places on, read at row `i` of `c`. -/
theorem rcv_tally (d c : Dev nD) (i j k : ℕ) (hi : i < 31) (hj : j < 31) (hk : k < 32) :
    tallyAt (rcvCell (peer d k) j hj) () N (rcvCell c i hi) () = if i = j ∧ k = off d c then N else 0 := by
  rw [tallyAt_apply]
  by_cases h : i = j ∧ k = off d c
  · rw [if_pos h, if_pos ⟨rcv_eq_iff.mpr ⟨((peer_eq_iff d c k hk).mpr h.2).symm, h.1⟩, rfl⟩]
  · rw [if_neg h, if_neg fun h' => h ⟨(rcv_eq_iff.mp h'.1).2, (peer_eq_iff d c k hk).mp (rcv_eq_iff.mp h'.1).1.symm⟩]

/-- The last `n` barrier signals of `d` reach `c` exactly when `c` is among the last `n` offsets. -/
theorem Osig_bar (d c : Dev nD) : ∀ n, n ≤ 32 → OsigLast d n (barCell c) () = if 32 - n ≤ off d c then 1 else 0
  | 0, _ => by
    have ho := off_lt d c
    rw [if_neg (by omega)]; rfl
  | n + 1, hn => by
    have ho := off_lt d c
    show (OsigLast d n + tallyAt (barCell (peer d (31 - n))) () 1) (barCell c) () = _
    rw [Pi.add_apply, Finsupp.add_apply, Osig_bar d c n (by omega), bar_tally d c _ (by omega)]
    by_cases h : 31 - n = off d c
    · rw [if_pos h, if_neg (by omega), if_pos (by omega)]
    · rw [if_neg h, Nat.add_zero]
      by_cases h2 : 32 - n ≤ off d c
      · rw [if_pos h2, if_pos (by omega)]
      · rw [if_neg h2, if_neg (by omega)]

/-- The last `n` row credits of `d` reach row `i` of `c` exactly when `c` sits `i + 1` places after `d` and row `i` is among them. -/
theorem Osnd_rcv (d c : Dev nD) (i : ℕ) (hi : i < 31) :
    ∀ n, n ≤ 31 → OsndLast d n (rcvCell c i hi) () = if 31 - n ≤ i ∧ i + 1 = off d c then N else 0
  | 0, _ => by rw [if_neg (by omega)]; rfl
  | n + 1, hn => by
    show (OsndLast d n + (if h : 30 - n < 31 then tallyAt (rcvCell (peer d (31 - n)) (30 - n) h) () N else 0)) (rcvCell c i hi) () = _
    rw [Pi.add_apply, Finsupp.add_apply, Osnd_rcv d c i hi n (by omega), dif_pos (by omega), rcv_tally d c i _ _ hi _ (by omega)]
    by_cases h : i = 30 - n ∧ 31 - n = off d c
    · rw [if_pos h, if_neg (by omega), if_pos (by omega), Nat.zero_add]
    · rw [if_neg h, Nat.add_zero]
      by_cases h2 : 31 - n ≤ i ∧ i + 1 = off d c
      · rw [if_pos h2, if_pos (by omega)]
      · rw [if_neg h2, if_neg (by omega)]

/-- No barrier unit lands on a receive cell, no row credit on a barrier cell. -/
theorem Osig_rcv (d c : Dev nD) (i : ℕ) (hi : i < 31) (n : ℕ) : OsigLast d n (rcvCell c i hi) () = 0 :=
  Nat.eq_zero_of_not_pos fun h => by
    obtain ⟨k, hk⟩ := Osig_pos n h
    exact rcv_ne_bar i hi (congrArg Prod.snd hk)

theorem Osnd_bar (d c : Dev nD) (n : ℕ) : OsndLast d n (barCell c) () = 0 :=
  Nat.eq_zero_of_not_pos fun h => by
    obtain ⟨k, i, hi, hk⟩ := Osnd_pos n h
    exact rcv_ne_bar i hi (congrArg Prod.snd hk).symm

/-- What device `d` owes device `c`'s barrier cell: one unit unless `d` is `c` itself. -/
theorem owed_bar (d c : Dev nD) : O₀ d (barCell c) () = if d ≠ c then 1 else 0 := by
  unfold O₀
  rw [Pi.add_apply, Finsupp.add_apply, Osnd_bar, Nat.zero_add, Osig_bar d c 31 (by omega)]
  have hd : d.val < 32 := d.isLt
  have hc : c.val < 32 := c.isLt
  have hiff : (32 - 31 ≤ off d c) ↔ d ≠ c := by
    unfold off; rw [Ne, Fin.ext_iff]; omega
  by_cases h : d ≠ c
  · rw [if_pos h, if_pos (hiff.mpr h)]
  · rw [if_neg h, if_neg fun h' => h (hiff.mp h')]

/-- What device `d` owes row `i` of device `c`: the row's credit when `d` is the device that writes that row. -/
theorem owed_rcv (d c : Dev nD) (i : ℕ) (hi : i < 31) : O₀ d (rcvCell c i hi) () = if d = peer c (31 - i) then N else 0 := by
  unfold O₀
  rw [Pi.add_apply, Finsupp.add_apply, Osig_rcv, Nat.add_zero, Osnd_rcv d c i hi 31 (by omega)]
  have hd : d.val < 32 := d.isLt
  have hc : c.val < 32 := c.isLt
  have hiff : (31 - 31 ≤ i ∧ i + 1 = off d c) ↔ d = peer c (31 - i) := by
    unfold off; rw [Fin.ext_iff, peer_val]; omega
  by_cases h : d = peer c (31 - i)
  · rw [if_pos h, if_pos (hiff.mpr h)]
  · rw [if_neg h, if_neg fun h' => h (hiff.mp h')]

/-- Every device but `c` itself: 31 of them. -/
theorem sum_others (c : Dev nD) : (∑ d : Dev nD, if d ≠ c then 1 else 0) = 31 := by
  rw [← Finset.add_sum_erase Finset.univ _ (Finset.mem_univ c), if_neg (fun h => h rfl), Nat.zero_add,
    Finset.sum_congr rfl (fun d hd => if_pos (Finset.ne_of_mem_erase hd)), Finset.sum_const, Finset.card_erase_of_mem (Finset.mem_univ _),
    Finset.card_univ, Fintype.card_fin, smul_eq_mul]
  rfl

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, sum_others]

theorem launch_rcv (c : Dev nD) (i : ℕ) (hi : i < 31) :
    tallyOn (rcvCell c i hi) (launchCredit (Pipeline.owing O₀) 0 (rcvCell c i hi)) = (tallyAt (rcvCell c i hi) () N : CellTallies nD τ sig Unit) := by
  unfold tallyAt; refine congrArg _ (Finsupp.ext fun u => ?_); cases u
  rw [Pipeline.launchCredit_owing, Finsupp.single_eq_same, Finset.sum_congr rfl fun d _ => owed_rcv d c i hi,
    Finset.sum_ite_eq' Finset.univ (peer c (31 - i)) fun _ => N, if_pos (Finset.mem_univ _)]

/-- The receive semaphores, one per row, are distinct. -/
def rcvEmb : I31 ↪ SemLoc sig :=
  ⟨fun i => .dma (rcvS i.val i.isLt), fun i j h => by
    have h3 : (rcvS i.val i.isLt).val = (rcvS j.val j.isLt).val := congrArg (fun s : DmaSem sig => s.val) (SemLoc.dma.inj h)
    rw [rcvS_val, rcvS_val] at h3
    exact Fin.ext (by omega)⟩

/-- The credit dealt to device `c` at launch: 31 units on its barrier cell, one row's credit on each receive cell. -/
theorem creds (c : Dev nD) :
    (Pipeline.launchCred O₀ c : sProp 𝕄)
      ⊢ iprop(cred (tallyAt (barCell c) () 31) ∗ bigSep Finset.univ fun i : I31 => cred (tallyAt (rcvCell c i.val i.isLt) () N)) := by
  unfold Pipeline.launchCred
  rw [bigSep_univ_at _ (SemLoc.reg barS), launch_bar]
  refine sep_mono_right ?_
  refine (bigSep_subset (t := Finset.univ.map rcvEmb) fun sm hsm => ?_).trans ?_
  · obtain ⟨i, -, rfl⟩ := Finset.mem_map.mp hsm
    exact Finset.mem_erase.mpr ⟨rcv_ne_bar i.val i.isLt, Finset.mem_univ _⟩
  · rw [bigSep_map]
    refine bigSep_mono fun i _ => ?_
    show cred (tallyOn (rcvCell c i.val i.isLt) (launchCredit (Pipeline.owing O₀) 0 (rcvCell c i.val i.isLt))) ⊢ _
    rw [launch_rcv]

end Cert.KernelIdeal.Hand

end
-- ==== Proof.BodyDefs.lean ====
/-
  One device's body, run once at a symbolic device `c`: the 31 barrier signals, the column sums stored in the sent row,
  the barrier wait, the 31 remote copies, the running total over the own row and the four groups of received rows
  (each read after its rows' landings are waited for), the scaled result stored, the 31 departures waited for.
-/
import proofs.«900944_g7700000000000945_dist_mean_ax0_shard0_i_m1536_n768_v7x_i32_f32_1_alg».proof.Proof.Steps
import proofs.«900944_g7700000000000945_dist_mean_ax0_shard0_i_m1536_n768_v7x_i32_f32_1_alg».proof.Proof.Devs
import proofs.«900944_g7700000000000945_dist_mean_ax0_shard0_i_m1536_n768_v7x_i32_f32_1_alg».proof.Proof.Credit
import Idealize.ShloMosaic.Lib.Tactic

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Fin 63 → ℕ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The bundles the body carries, each over the rows not yet handled -/

/-- for the signal at offset `i + 1`: its token, and the row `30 - i` it hands over -/
abbrev sigΦ (c : Dev nD) (i : I31) : sProp 𝕄 :=
  iprop(dutyTok ER (barCell (peer c (i.val + 1))) 0 (dutyE i) ∗ (∃ f, rowPts (F := F) c (30 - i.val) (sub_lt31 i) f))
/-- for the copy at offset `i + 1`: the peer's row and its cell's round, the lent share, the two tokens -/
abbrev sndΦ (c : Dev nD) (i : I31) : sProp 𝕄 :=
  iprop(peerRow (F := F) c i ∗ sPts m c (sh i.val) ∗ dutyTok ER (sndCell c i.val i.isLt) 0 0 ∗ dutyTok ER (rcvCell (peer c (i.val + 1)) i.val i.isLt) 0 0)
/-- for the landing in row `i`: its credit and the receive cell's position -/
abbrev rcvΦ (c : Dev nD) (i : I31) : sProp 𝕄 := iprop(cred (tallyAt (rcvCell c i.val i.isLt) () N) ∗ atPos ER (rcvCell c i.val i.isLt) 0 ∅ 0)
/-- for the departure of copy `i`: its credit and the send cell's position -/
abbrev swΦ (c : Dev nD) (i : I31) : sProp 𝕄 := iprop(cred (tallyAt (sndCell c i.val i.isLt) () N) ∗ atPos ER (sndCell c i.val i.isLt) 0 ∅ 0)

/-- what the steps leave behind, over the rows handled so far: departure credits, landed rows, the cells' new positions, returned shares -/
abbrev crSΦ (c : Dev nD) (i : I31) : sProp 𝕄 := cred (tallyAt (sndCell c i.val i.isLt) () N)
abbrev rowΦ (c : Dev nD) (i : I31) : sProp 𝕄 := rowPts c i.val i.isLt (commV m c)
abbrev posV1 (c : Dev nD) (i : I31) : sProp 𝕄 := atPos ER (rcvCell c i.val i.isLt) 1 ∅ 0
abbrev shΦ (c : Dev nD) (i : I31) : sProp 𝕄 := sPts m c (sh i.val)
abbrev posS1 (c : Dev nD) (i : I31) : sProp 𝕄 := atPos ER (sndCell c i.val i.isLt) 1 ∅ 0

def bodyPre (c : Dev nD) : sProp 𝕄 :=
  iprop((ghost m K c ∗ cred (tallyAt (barCell c) () 31) ∗ (bigSep Finset.univ fun i : I31 => cred (tallyAt (rcvCell c i.val i.isLt) () N)) ∗ levAts L lv
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m c) ∗ stg c cc0_stg1_0 (outV m c))

theorem lin_split (c : Dev nD) :
    (bigSep Finset.univ fun i : I31 => linAt (F := F) c i)
      = iprop((bigSep Finset.univ fun i : I31 => atPos ER (sndCell c i.val i.isLt) 0 ∅ 0)
          ∗ (bigSep Finset.univ fun i : I31 => atPos ER (rcvCell c i.val i.isLt) 0 ∅ 0)
          ∗ (bigSep Finset.univ fun i : I31 => dutyTok ER (barCell (peer c (i.val + 1))) 0 (dutyE i))
          ∗ (bigSep Finset.univ fun i : I31 => dutyTok ER (sndCell c i.val i.isLt) 0 0)
          ∗ (bigSep Finset.univ fun i : I31 => dutyTok ER (rcvCell (peer c (i.val + 1)) i.val i.isLt) 0 0)) := by
  unfold linAt
  rw [bigSep_sep', bigSep_sep', bigSep_sep', bigSep_sep']

/-- Row `i` and row `30 - i` trade places. -/
def revE : I31 ≃ I31 where
  toFun := rowBack
  invFun := rowBack
  left_inv i := Fin.ext (by show 30 - (30 - i.val) = i.val; have := i.isLt; omega)
  right_inv i := Fin.ext (by show 30 - (30 - i.val) = i.val; have := i.isLt; omega)

/-- The receive buffer, held whole, cut into the 31 rows the 31 signals hand over (signal `i` hands row `30 - i`). -/
theorem sig_bundle (c : Dev nD) (f : Buf (Elt F) ((c : Thread nD τ).loc cc0_scratch1)) :
    iprop((bigSep Finset.univ fun i : I31 => dutyTok ER (barCell (peer c (i.val + 1))) 0 (dutyE i)) ∗ (((c : Thread nD τ).loc cc0_scratch1) ↦{fullShare} f))
      ⊢ (bigSep (todo 0) (sigΦ (F := F) c) : sProp 𝕄) := by
  rw [todo_zero]; rw [bigSep_sep']
  iintro ⟨Ht, Hc⟩
  isplitl [Ht]; · iexact Ht
  ihave Hr := (rows_iff (F := F) c Finset.univ f).2 $$ [Hc]
  · rw [rowsSet_univ]; iexact Hc
  ihave Hr' := (Entails.of_eq (bigSep_univ_equiv revE (fun i : I31 => rowPts (F := F) c i.val i.isLt f))) $$ Hr
  have h1 : ∀ i : I31, rowPts (F := F) c (revE i).val (revE i).isLt f ⊢ (iprop(∃ f, rowPts (F := F) c (30 - i.val) (sub_lt31 i) f) : sProp 𝕄) :=
    fun i => by iintro H; iexists f; iexact H
  have hm : (bigSep Finset.univ fun i : I31 => rowPts (F := F) c (revE i).val (revE i).isLt f)
      ⊢ (bigSep Finset.univ fun i : I31 => iprop(∃ f, rowPts (F := F) c (30 - i.val) (sub_lt31 i) f) : sProp 𝕄) :=
    bigSep_mono fun i _ => h1 i
  iapply hm; iexact Hr'

set_option hygiene false in
/-- the barrier signal at offset `i + 1`, then the run resumed -/
macro "sig_at " i:num : tactic => `(tactic| (
  ihave Hpeel := (Entails.of_eq (bigSep_todo_peel (sigΦ c) $i (by decide))) $$ Hsig
  icases Hpeel with ⟨⟨Htok, Hrow⟩, Hsig⟩
  iapply (sig_step m K c ⟨$i, by decide⟩ W (OsndLast c 31)) $$ [HO Htok Hrow]
  · isplitr; · iexact HI
    isplitl [HO]; · iexact HO
    isplitl [Htok]; · iexact Htok
    iexact Hrow
  iintro HO
  first | sl_exec | (rw [ret_bind_fn]; sl_exec) | skip))

set_option hygiene false in
/-- the remote copy at offset `i + 1`, its departure credit kept, then the run resumed -/
macro "snd_at " i:num h:term : tactic => `(tactic| (
  ihave Hpeel := (Entails.of_eq (bigSep_todo_peel (sndΦ m c) $i (by decide))) $$ Hsnd
  icases Hpeel with ⟨⟨⟨⟨%fd, Hrow⟩, #HrV⟩, Hsh, HtSi, HtVi⟩, Hsnd⟩
  iapply (snd_step' m K c ⟨$i, by decide⟩ _ _ $h fd) $$ [Hsh Hrow HO HtSi HtVi]
  · isplitr; · iexact HI
    isplitl [Hsh]; · iexact Hsh
    isplitl [Hrow]; · iexact Hrow
    isplitr; · iexact HrV
    isplitl [HO]; · iexact HO
    isplitl [HtSi]; · iexact HtSi
    iexact HtVi
  iintro ⟨Hcr, HO⟩
  ihave Hcs := (Entails.of_eq (bigSep_done_push (crSΦ c) $i (by decide)).symm) $$ [Hcr Hcs]
  · isplitl [Hcr]; · iexact Hcr
    iexact Hcs
  first | sl_exec | (rw [ret_bind_fn]; sl_exec) | skip))

set_option hygiene false in
/-- the wait for row `i`'s landing: the row and the cell's new position kept, then the run resumed -/
macro "rcv_at " i:num : tactic => `(tactic| (
  ihave Hpeel := (Entails.of_eq (bigSep_todo_peel (rcvΦ c) $i (by decide))) $$ Hrcv
  icases Hpeel with ⟨⟨Hcr, Hat⟩, Hrcv⟩
  iapply (rcvwait_step m K c ⟨$i, by decide⟩ _) $$ [Hcr HO Hat]
  · isplitr; · iexact HI
    isplitl [Hcr]; · iexact Hcr
    isplitl [HO]; · iexact HO
    iexact Hat
  iintro ⟨HO, Hat, Hrow⟩
  ihave Hrows := (Entails.of_eq (bigSep_done_push (rowΦ m c) $i (by decide)).symm) $$ [Hrow Hrows]
  · isplitl [Hrow]; · iexact Hrow
    iexact Hrows
  ihave HatV1 := (Entails.of_eq (bigSep_done_push (posV1 c) $i (by decide)).symm) $$ [Hat HatV1]
  · isplitl [Hat]; · iexact Hat
    iexact HatV1
  first | sl_exec | (rw [ret_bind_fn]; sl_exec) | skip))

set_option hygiene false in
/-- the wait for copy `i`'s departure: the lent share and the cell's new position kept, then the run resumed -/
macro "sw_at " i:num : tactic => `(tactic| (
  ihave Hpeel := (Entails.of_eq (bigSep_todo_peel (swΦ c) $i (by decide))) $$ Hsw
  icases Hpeel with ⟨⟨Hcr, Hat⟩, Hsw⟩
  iapply (sndwait_step m K c ⟨$i, by decide⟩ _) $$ [Hcr HO Hat]
  · isplitr; · iexact HI
    isplitl [Hcr]; · iexact Hcr
    isplitl [HO]; · iexact HO
    iexact Hat
  iintro ⟨HO, Hat, Hshi⟩
  ihave Hshs := (Entails.of_eq (bigSep_done_push (shΦ m c) $i (by decide)).symm) $$ [Hshi Hshs]
  · isplitl [Hshi]; · iexact Hshi
    iexact Hshs
  ihave HatS1 := (Entails.of_eq (bigSep_done_push (posS1 c) $i (by decide)).symm) $$ [Hat HatS1]
  · isplitl [Hat]; · iexact Hat
    iexact HatS1
  first | sl_exec | (rw [ret_bind_fn]; sl_exec) | skip))

set_option hygiene false in
/-- a load of received rows, after `n` rows have landed: the rows held are read through the region they make up -/
macro "grp_load " n:num h:term : tactic => `(tactic| (
  ihave Hreg := (rows_iff c (done $n) (commV m c)).1 $$ Hrows
  iapply (wp_load 𝒱₀ (c : Thread nD τ) none Set.univ (m := (cM : Memref sig .tc .vmem S31x768 .f32)) $h) $$ Hreg
  iintro Hreg
  ihave Hrows := (rows_iff c (done $n) (commV m c)).2 $$ Hreg
  first | sl_exec | (rw [ret_bind_fn]; sl_exec) | skip))

open Lean Elab Tactic in
/-- `rows_do sig lo hi` / `rows_do snd lo hi` / …: the step for rows `lo .. hi - 1`, in order. -/
elab "rows_do " kind:ident lo:num hi:num : tactic => do
  for i in [lo.getNat:hi.getNat] do
    let n := Syntax.mkNumLit (toString i)
    match kind.getId with
    | `sig => evalTactic (← `(tactic| sig_at $n))
    | `snd =>
      let h := mkIdent (Name.mkSimple s!"dev{32 + i}_eq")
      let dev := mkIdent (Name.mkSimple "c")
      evalTactic (← `(tactic| snd_at $n ($h $dev)))
    | `rcv => evalTactic (← `(tactic| rcv_at $n))
    | `sw => evalTactic (← `(tactic| sw_at $n))
    | _ => throwError "rows_do: unknown step kind"

/-- A buffer held whole, spelt through its memref's view. -/
theorem to_view (c : Dev nD) (b : Ref sig .tc) (q : PosShare TreeShare) (f : Buf (Elt F) ((c : Thread nD τ).loc b)) :
    ((((c : Thread nD τ).loc b) ↦{q} f) : sProp 𝕄) ⊢ (((Memref.whole b).view.loc (c : Thread nD τ) ↦{q} f) : sProp 𝕄) := by
  iintro H; iexact H

theorem snd_bundle (c : Dev nD) :
    iprop((bigSep Finset.univ (peerRow (F := F) c)) ∗ (bigSep Finset.univ fun i : I31 => sPts m c (sh i.val))
        ∗ (bigSep Finset.univ fun i : I31 => dutyTok ER (sndCell c i.val i.isLt) 0 0)
        ∗ (bigSep Finset.univ fun i : I31 => dutyTok ER (rcvCell (peer c (i.val + 1)) i.val i.isLt) 0 0))
      ⊢ (bigSep (todo 0) (sndΦ m c) : sProp 𝕄) := by
  rw [todo_zero,
    bigSep_sep' Finset.univ (fun i : I31 => peerRow (F := F) c i)
      (fun i : I31 => iprop(sPts m c (sh i.val) ∗ dutyTok ER (sndCell c i.val i.isLt) 0 0 ∗ dutyTok ER (rcvCell (peer c (i.val + 1)) i.val i.isLt) 0 0)),
    bigSep_sep' Finset.univ (fun i : I31 => sPts m c (sh i.val))
      (fun i : I31 => iprop(dutyTok ER (sndCell c i.val i.isLt) 0 0 ∗ dutyTok ER (rcvCell (peer c (i.val + 1)) i.val i.isLt) 0 0)),
    bigSep_sep' Finset.univ (fun i : I31 => (dutyTok ER (sndCell c i.val i.isLt) 0 0 : sProp 𝕄))
      (fun i : I31 => dutyTok ER (rcvCell (peer c (i.val + 1)) i.val i.isLt) 0 0)]

theorem hz2 : (![0, 0] : Fin 2 → Nat) = fun _ => 0 := funext fun a => by fin_cases a <;> rfl

/-- Binding a returned value is applying the continuation to it. -/
theorem ret_bind_fn {E : Type → Type} {α β : Type} (a : α) (k : α → Prog E β) : (Prog.ret a : Prog E α).bind k = k a := rfl

/-- Reading the whole staged block of `x` reads the block. -/
theorem read_x (f : (cc0_stg0_0 : Ref sig .tc).ty.Contents (Elt F)) :
    (xM : Memref sig .tc .vmem S1536x768 .f32).view.readAt (Elt F) (Rect.unit (s := S1536x768) ![0, 0] S1536x768.size Facts₀.inb_S1536x768_S1536x768_0_0).toLoadRect f = f :=
  Memref.readAt_unit_zero (Elt F) cc0_stg0_0 hz2 _ f

/-- The column sums of the loaded block are what the device sends. -/
theorem sent_eq (c : Dev nD) :
    k0_pay1 (F := F) ((xM : Memref sig .tc .vmem S1536x768 .f32).view.readAt (Elt F) (Rect.unit (s := S1536x768) ![0, 0] S1536x768.size Facts₀.inb_S1536x768_S1536x768_0_0).toLoadRect (xstg m c))
      = sendV m c := by
  rw [read_x]; rfl

theorem sPts_whole (c : Dev nD) (q : PosShare TreeShare) :
    sPts m c q = ((((sM : Memref sig .tc .vmem S1x768 .f32).view.loc (c : Thread nD τ)) ↦{q} sendV m c) : sProp 𝕄) := by
  unfold sPts; rw [View.set_whole]

/-- The sent row held whole is the 31 shares the copies borrow and the share that stays. -/
theorem send_split (c : Dev nD) :
    ((((sM : Memref sig .tc .vmem S1x768 .f32).view.loc (c : Thread nD τ)) ↦{fullShare} sendV m c) : sProp 𝕄)
      ⊢ iprop((bigSep Finset.univ fun i : I31 => sPts m c (sh i.val)) ∗ sPts m c (rem 31)) := by
  rw [← sPts_whole]
  unfold sPts
  exact (send_shares (F := F) c (sendV m c)).1

theorem done_zero_intro (Φ : I31 → sProp 𝕄) : (emp : sProp 𝕄) ⊢ bigSep (done 0) Φ := by
  rw [done_zero, bigSep_empty]; iintro H; iexact H

end Cert.KernelIdeal.Hand

end
-- ==== Proof.Close.lean ====
/-
  At the end of the body every send and receive cell of the device has had its one round consumed: its position is
  at round 1, where the schedule has no duty, so the cell can be closed and its counter, at zero, handed back.
-/
import proofs.«900944_g7700000000000945_dist_mean_ax0_shard0_i_m1536_n768_v7x_i32_f32_1_alg».proof.Proof.Steps

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F] [Named F]

local notation "𝕄" => MT nD τ sig Unit (Elt F) ℕ UU ℕ

variable (m : (ℓ : Loc nD τ sig) → Buf (Elt F) ℓ) (K : Dev nD × Fin 63 → ℕ)

/-- One row's send cell and receive cell, each past its only round, close: their counters come back at zero. -/
theorem close_one (c : Dev nD) (i : I31) :
    iprop(invs m K c ∗ (atPos ER (sndCell c i.val i.isLt) 1 ∅ 0 ∗ atPos ER (rcvCell c i.val i.isLt) 1 ∅ 0))
      ⊢ (|={Set.univ}=> iprop(semVal (sndCell c i.val i.isLt) 0 ∗ semVal (rcvCell c i.val i.isLt) 0) : sProp 𝕄) := by
  iintro ⟨#HI, HatS, HatR⟩
  ihave HA := (invs_at m K c i) $$ HI
  unfold invAt
  icases HA with ⟨#HIs, #HIr, -⟩
  imod (Rounds.cell_close ER (ringRd m) (Set.mem_univ (K (c, kS i))) (fun h => h) (R := 1)
    (duties_later m (sndCell c i.val i.isLt))) $$ [HatS] with HzS
  · isplitr; · iexact HIs
    iexact HatS
  imod (Rounds.cell_close ER (ringRd m) (Set.mem_univ (K (c, kR i))) (fun h => h) (R := 1)
    (duties_later m (rcvCell c i.val i.isLt))) $$ [HatR] with HzR
  · isplitr; · iexact HIr
    iexact HatR
  imodintro
  isplitl [HzS]
  · iexact HzS
  · iexact HzR

/-- All 62 own cells closed: their counters at zero are the device's again. -/
theorem close_all (c : Dev nD) :
    iprop(invs m K c ∗ (bigSep Finset.univ fun i : I31 => atPos ER (sndCell c i.val i.isLt) 1 ∅ 0)
        ∗ (bigSep Finset.univ fun i : I31 => atPos ER (rcvCell c i.val i.isLt) 1 ∅ 0))
      ⊢ (|={Set.univ}=> bigSep Finset.univ fun i : I31 => iprop(semVal (sndCell c i.val i.isLt) 0 ∗ semVal (rcvCell c i.val i.isLt) 0) : sProp 𝕄) := by
  rw [← bigSep_sep']
  -- the persistent invariants go to every row, and the rows close one by one under one update
  refine (sep_mono_left (BI.bigSep_of_persistent (Finset.univ : Finset I31) (invs m K c))).trans ?_
  rw [← bigSep_sep']
  exact (bigSep_mono fun i _ => close_one m K c i).trans (bigSep_fupd _ _)

end Cert.KernelIdeal.Hand

end
-- ==== Proof.Body.lean ====
/-
  One device's body run from its ghost state to the pipeline's post: see BodyDefs.lean for the bundles and the steps.
-/
import proofs.«900944_g7700000000000945_dist_mean_ax0_shard0_i_m1536_n768_v7x_i32_f32_1_alg».proof.Proof.BodyDefs
import proofs.«900944_g7700000000000945_dist_mean_ax0_shard0_i_m1536_n768_v7x_i32_f32_1_alg».proof.Proof.Close

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Fin 63 → ℕ)

/-- The 31 returned shares and the share that stayed are the sent row held whole again. -/
theorem send_join (c : Dev nD) :
    iprop((bigSep Finset.univ (shΦ m c)) ∗ sPts m c (rem 31)) ⊢ ((((c : Thread nD τ).loc cc0_scratch0) ↦{fullShare} sendV m c) : sProp 𝕄) := by
  have h : iprop((bigSep Finset.univ (shΦ m c)) ∗ sPts m c (rem 31)) ⊢ sPts m c fullShare := by
    unfold sPts; exact (send_shares (F := F) c (sendV m c)).2
  refine h.trans ?_
  rw [sPts_whole]

/-- All 31 landed rows are the receive buffer held whole again. -/
theorem comm_join (c : Dev nD) :
    (bigSep Finset.univ (rowΦ m c)) ⊢ ((((c : Thread nD τ).loc cc0_scratch1) ↦{fullShare} commV m c) : sProp 𝕄) := by
  have h := (rows_iff (F := F) c Finset.univ (commV m c)).1
  rw [rowsSet_univ] at h
  iintro H; ihave H' := h $$ H; iexact H'

/-- Once the 31 signals are sent the device owes the row credits only; once the 31 copies are issued, nothing. -/
theorem owed_after_signals (c : Dev nD) : OsndLast c 31 + OsigLast c 0 = OsndLast c 31 := add_zero _
theorem owed_after_copies (c : Dev nD) : OsndLast c (30 - 30) = 0 := rfl

/-- One store of a whole row over anything leaves that row. -/
theorem send_written (f w : (cc0_scratch0 : Ref sig .tc).ty.Contents (Elt F)) :
    (Memref.whole cc0_scratch0 : Memref sig .tc .vmem S1x768 .f32).view.writes (Elt F) f
      [⟨Rect.unit (s := S1x768) ![0, 0] S1x768.size Facts₀.inb_S1x768_S1x768_0_0, w⟩] = w := by
  rw [View.writes_singleton]
  exact Memref.write_access_unit_zero_univ (Elt F) cc0_scratch0 hz2 _ f w

theorem rcv_bundle (c : Dev nD) :
    iprop((bigSep Finset.univ fun i : I31 => cred (tallyAt (rcvCell c i.val i.isLt) () N)) ∗ (bigSep Finset.univ fun i : I31 => atPos ER (rcvCell c i.val i.isLt) 0 ∅ 0))
      ⊢ (bigSep (todo 0) (rcvΦ (F := F) c) : sProp 𝕄) := by
  rw [todo_zero, bigSep_sep' Finset.univ (fun i : I31 => (cred (tallyAt (rcvCell c i.val i.isLt) () N) : sProp 𝕄)) (fun i : I31 => atPos ER (rcvCell c i.val i.isLt) 0 ∅ 0)]

theorem sw_bundle (c : Dev nD) :
    iprop(bigSep (done 31) (crSΦ (F := F) c) ∗ (bigSep Finset.univ fun i : I31 => atPos ER (sndCell c i.val i.isLt) 0 ∅ 0))
      ⊢ (bigSep (todo 0) (swΦ (F := F) c) : sProp 𝕄) := by
  rw [done_31, todo_zero, bigSep_sep' Finset.univ (fun i : I31 => (cred (tallyAt (sndCell c i.val i.isLt) () N) : sProp 𝕄)) (fun i : I31 => atPos ER (sndCell c i.val i.isLt) 0 ∅ 0)]

set_option maxHeartbeats 200000000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost linear
  iintro ⟨⟨⟨⟨#HI, HatB, Hlin⟩, HcB, HcV, #Hlev, ⟨%fs0, Hs⟩, ⟨%fc0, Hc⟩⟩, Ho, ⟨%d0, %g0, %hg0, Hx⟩, ⟨%d1, %g1, %hg1, Hout⟩⟩, Hk⟩
  have hx : g0 = xstg m c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  ihave Hl := (Entails.of_eq (lin_split (F := F) c)) $$ Hlin
  icases Hl with ⟨HatS, HatV, HtB, HtS, HtV⟩
  ihave Hsig := (sig_bundle (F := F) c fc0) $$ [HtB Hc]
  · isplitl [HtB]; · iexact HtB
    iexact Hc
  ihave Hx := (to_view (F := F) c cc0_stg0_0 fullShare _) $$ Hx
  ihave Hout := (to_view (F := F) c cc0_stg1_0 fullShare _) $$ Hout
  ihave Hs := (to_view (F := F) c cc0_scratch0 fullShare _) $$ Hs
  sl_exec_parts
  rows_do sig 0 31
  -- the barrier wait: the 31 other devices' rows come with it
  iapply (barwait_step m K c W (OsndLast c 31 + OsigLast c 0) (mayWait_bar c)) $$ [HcB HO HatB]
  · isplitr; · iexact HI
    isplitr; · iexact Hlev
    isplitl [HcB]; · iexact HcB
    isplitl [HO]; · iexact HO
    iexact HatB
  iintro ⟨HO, Hpeer⟩
  ihave HO := (Entails.of_eq (congrArg (fun O => (owes (c : Thread nD τ) O (insert (SemLoc.reg barS, ()) W) : sProp 𝕄)) (owed_after_signals c))) $$ HO
  -- the sent row holds the column sums; it is cut into the shares the 31 copies borrow
  ihave Hs := (Entails.of_eq (congrArg (fun f => ((((sM : Memref sig .tc .vmem S1x768 .f32).view.loc (c : Thread nD τ)) ↦{fullShare} f) : sProp 𝕄)) (send_written _ _))) $$ Hs
  -- the stored row is the column sums of the loaded block (the stored value may stand under a name of its own)
  first
    | ihave Hs := (Entails.of_eq (congrArg (fun f => ((((sM : Memref sig .tc .vmem S1x768 .f32).view.loc (c : Thread nD τ)) ↦{fullShare} f) : sProp 𝕄)) (sent_eq m c))) $$ Hs
    | (have hv : sound_body.sl.v412 m c = sendV m c := by sl_unfold_words; exact sent_eq m c
       ihave Hs := (Entails.of_eq (congrArg (fun f => ((((sM : Memref sig .tc .vmem S1x768 .f32).view.loc (c : Thread nD τ)) ↦{fullShare} f) : sProp 𝕄)) hv)) $$ Hs)
  ihave Hsp := (send_split m c) $$ Hs
  icases Hsp with ⟨Hsh, Hrem⟩
  ihave Hsnd := (snd_bundle m c) $$ [Hpeer Hsh HtS HtV]
  · isplitl [Hpeer]; · iexact Hpeer
    isplitl [Hsh]; · iexact Hsh
    isplitl [HtS]; · iexact HtS
    iexact HtV
  ihave Hrem := (Entails.of_eq (sPts_whole m c (rem 31))) $$ Hrem
  ihave Hcs := (done_zero_intro (crSΦ (F := F) c)) $$ []
  · iempintro
  sl_exec
  rows_do snd 0 31
  ihave HO := (Entails.of_eq (congrArg (fun O => (owes (c : Thread nD τ) O (insert (SemLoc.reg barS, ()) W) : sProp 𝕄)) (owed_after_copies c))) $$ HO
  -- the own sent row is read through the share that stayed
  first
    | (iapply (wp_load 𝒱₀ (c : Thread nD τ) none Set.univ (m := (sM : Memref sig .tc .vmem S1x768 .f32)) (Finset.subset_univ _)) $$ Hrem
       iintro Hrem
       sl_exec)
    | skip
  -- the 31 landings, the received rows read in four groups
  ihave Hrcv := (rcv_bundle (F := F) c) $$ [HcV HatV]
  · isplitl [HcV]; · iexact HcV
    iexact HatV
  ihave Hrows := (done_zero_intro (rowΦ m c)) $$ []
  · iempintro
  ihave HatV1 := (done_zero_intro (posV1 (F := F) c)) $$ []
  · iempintro
  rows_do rcv 0 8
  grp_load 8 (grp0_sub c)
  rows_do rcv 8 16
  grp_load 16 (grp1_sub c)
  rows_do rcv 16 24
  grp_load 24 (grp2_sub c)
  rows_do rcv 24 31
  grp_load 31 (grp3_sub c)
  -- the 31 departures
  ihave Hsw := (sw_bundle (F := F) c) $$ [Hcs HatS]
  · isplitl [Hcs]; · iexact Hcs
    iexact HatS
  ihave Hshs := (done_zero_intro (shΦ m c)) $$ []
  · iempintro
  ihave HatS1 := (done_zero_intro (posS1 (F := F) c)) $$ []
  · iempintro
  rows_do sw 0 31
  -- every own cell is closed: its counter, at zero, is the device's again
  ihave HatS1 := (Entails.of_eq (congrArg (fun s => (bigSep s (posS1 (F := F) c) : sProp 𝕄)) done_31)) $$ HatS1
  ihave HatV1 := (Entails.of_eq (congrArg (fun s => (bigSep s (posV1 (F := F) c) : sProp 𝕄)) done_31)) $$ HatV1
  imod (close_all m K c) $$ [HatS1 HatV1] with Hz
  · isplitr; · iexact HI
    isplitl [HatS1]; · iexact HatS1
    iexact HatV1
  -- the sent row and the receive buffer are held whole again
  ihave Hshs := (Entails.of_eq (congrArg (fun s => (bigSep s (shΦ m c) : sProp 𝕄)) done_31)) $$ Hshs
  ihave Hrem := (Entails.of_eq (sPts_whole m c (rem 31)).symm) $$ Hrem
  ihave Hsfull := (send_join m c) $$ [Hshs Hrem]
  · isplitl [Hshs]; · iexact Hshs
    iexact Hrem
  ihave Hrows := (Entails.of_eq (congrArg (fun s => (bigSep s (rowΦ m c) : sProp 𝕄)) done_31)) $$ Hrows
  ihave Hcfull := (comm_join m c) $$ Hrows
  sl_step
  iapply Hk
  unfold bodyPost Φ₁ Dat.owesAt Pipeline.owesWithin
  rw [show (dats m ρ 0 c).owed t₀.succ = 0 from rfl]
  isplitl [Hsfull Hcfull Hz]
  · isplitl [Hsfull]; · iexists _; iexact Hsfull
    isplitl [Hcfull]; · iexists _; iexact Hcfull
    iexact Hz
  isplitl [HO]
  · iexists _
    isplitr
    rotate_left
    · iexact HO
    · ipureintro; exact fun _ _ => Or.inl trivial
  isplitl [Hx]
  · iexists _; isplitr; · (ipureintro; rfl)
    iexact Hx
  iexists _
  isplitr
  rotate_left
  · iexact Hout
  · ipureintro
    rw [View.writes_singleton]
    refine (Memref.write_access_unit_zero_univ (Elt F) cc0_stg1_0 hz2 _ _ _).trans ?_
    sl_unfold_words
    rfl

end Cert.KernelIdeal.Hand

end
-- ==== Proof.Oblig.lean ====
/-
  The pipeline's body obligation on device `c`: what the launch hands the body at its one grid point is the body's
  precondition, and the body's post is what the pipeline expects back.
-/
import proofs.«900944_g7700000000000945_dist_mean_ax0_shard0_i_m1536_n768_v7x_i32_f32_1_alg».proof.Proof.Body

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

variable {F : FTy → Type} [FloatOps F] [Named F]

local notation "𝕄" => MT nD τ sig Unit (Elt F) ℕ UU ℕ

variable (m : (ℓ : Loc nD τ sig) → Buf (Elt F) ℓ) (ρ : Dev nD → PrngReg)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, HcB, HcV, Hlev⟩, Hs0, Hs1⟩, Ho, Hx, Hout⟩
  iapply (sound_body m ρ K c fun _ => bodyPost m ρ c)
  unfold bodyPre
  isplitr []
  · isplitl [Hg HcB HcV Hlev Hs0 Hs1]
    · isplitl [Hg]; · iexact Hg
      isplitl [HcB]; · iexact HcB
      isplitl [HcV]; · iexact HcV
      isplitl [Hlev]; · iexact Hlev
      isplitl [Hs0]; · iexact Hs0
      iexact Hs1
    isplitl [Ho]; · iexact Ho
    isplitl [Hx] <;> iassumption
  · iintro H; iexact H

end Cert.KernelIdeal.Hand

end
-- ==== Proof.Launch.lean ====
/-
  The launch of the 32-device column mean: from the memory at launch (every semaphore at zero) the rounds ghost state
  is allocated for all devices at once (the barrier semaphore is the runtime's, shared by every device that signals
  it), each device is dealt the ghost state, the tokens of the duties it pays and its launch credit, and the
  pipeline's launch theorem turns the body obligation of every device into the run of the whole program.
-/
import proofs.«900944_g7700000000000945_dist_mean_ax0_shard0_i_m1536_n768_v7x_i32_f32_1_alg».proof.Proof.Credit
import proofs.«900944_g7700000000000945_dist_mean_ax0_shard0_i_m1536_n768_v7x_i32_f32_1_alg».proof.Proof.Gen.KernelIdeal.Frame

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The cells of one device, enumerated -/

/-- A cell's place in the enumeration read back off its semaphore: DMA semaphore `n` is cell `n - 1`. -/
def semNo : SemLoc sig → ℕ
  | .dma s => s.val - 1
  | .reg _ => 0

theorem semNo_csem (k : Fin 63) : semNo (csem k) = k.val := by
  have hk := k.isLt
  unfold csem
  by_cases h0 : k.val = 0
  · rw [dif_pos h0]; show 0 = k.val; omega
  · rw [dif_neg h0]
    by_cases h1 : k.val ≤ 31
    · rw [dif_pos h1]; show (sndS (k.val - 1) _).val - 1 = k.val; rw [sndS_val]; omega
    · rw [dif_neg h1]; show (rcvS (k.val - 32) _).val - 1 = k.val; rw [rcvS_val]; omega

theorem csem_injective : Function.Injective csem := fun k k' h =>
  Fin.ext (by rw [← semNo_csem k, ← semNo_csem k', h])

theorem kcell_injective : Function.Injective (kcell : Dev nD × Fin 63 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

/-- The 63 cells as the barrier cell, the 31 send cells and the 31 receive cells. -/
def cellFwd : Unit ⊕ (I31 ⊕ I31) → Fin 63
  | .inl _ => 0
  | .inr (.inl i) => kS i
  | .inr (.inr i) => kR i
def cellBwd (k : Fin 63) : Unit ⊕ (I31 ⊕ I31) :=
  if h0 : k.val = 0 then .inl ()
  else if h1 : k.val ≤ 31 then .inr (.inl ⟨k.val - 1, by omega⟩)
  else .inr (.inr ⟨k.val - 32, by have := k.isLt; omega⟩)

theorem cellBwd_fwd (x : Unit ⊕ (I31 ⊕ I31)) : cellBwd (cellFwd x) = x := by
  rcases x with _ | i | i
  · rfl
  · have hi := i.isLt
    show cellBwd (kS i) = _
    unfold cellBwd
    rw [dif_neg (by show ¬ (i.val + 1 = 0); omega), dif_pos (by show i.val + 1 ≤ 31; omega)]
    exact congrArg (fun x => Sum.inr (Sum.inl x)) (Fin.ext (by show i.val + 1 - 1 = i.val; omega))
  · have hi := i.isLt
    show cellBwd (kR i) = _
    unfold cellBwd
    rw [dif_neg (by show ¬ (i.val + 32 = 0); omega), dif_neg (by show ¬ (i.val + 32 ≤ 31); omega)]
    exact congrArg (fun x => Sum.inr (Sum.inr x)) (Fin.ext (by show i.val + 32 - 32 = i.val; omega))

theorem cellFwd_bwd (k : Fin 63) : cellFwd (cellBwd k) = k := by
  have hk := k.isLt
  unfold cellBwd
  by_cases h0 : k.val = 0
  · rw [dif_pos h0]; exact Fin.ext h0.symm
  · rw [dif_neg h0]
    by_cases h1 : k.val ≤ 31
    · rw [dif_pos h1]; exact Fin.ext (by show k.val - 1 + 1 = k.val; omega)
    · rw [dif_neg h1]; exact Fin.ext (by show k.val - 32 + 32 = k.val; omega)

def cellEquiv : Unit ⊕ (I31 ⊕ I31) ≃ Fin 63 := ⟨cellFwd, cellBwd, cellBwd_fwd, cellFwd_bwd⟩

omit [FloatOps F] in
theorem bigSep_fin63 (Φ : Fin 63 → sProp 𝕄) :
    bigSep Finset.univ Φ = iprop(Φ 0 ∗ bigSep Finset.univ fun i : I31 => iprop(Φ (kS i) ∗ Φ (kR i))) := by
  rw [bigSep_univ_equiv cellEquiv Φ, bigSep_univ_sum, bigSep_univ_sum, bigSep_univ_of_subsingleton (), bigSep_sep']
  rfl

/-! ## The kernel's own semaphores: send and receive semaphore `i`, for each row `i` -/

abbrev osem : I31 × Fin 2 → SemLoc sig := fun ij => match ij.2 with
  | 0 => .dma (sndS ij.1.val ij.1.isLt)
  | 1 => .dma (rcvS ij.1.val ij.1.isLt)

/-- Own semaphore `(i, j)` is DMA semaphore `2 + 31 j + i`. -/
theorem osem_val (ij : I31 × Fin 2) : ∃ s : DmaSem sig, osem ij = .dma s ∧ s.val = 2 + 31 * ij.2.val + ij.1.val := by
  obtain ⟨i, j⟩ := ij
  fin_cases j
  · exact ⟨sndS i.val i.isLt, rfl, by rw [sndS_val]; show 2 + i.val = 2 + 31 * 0 + i.val; omega⟩
  · exact ⟨rcvS i.val i.isLt, rfl, by rw [rcvS_val]; show 33 + i.val = 2 + 31 * 1 + i.val; omega⟩

/-- They are scoped, pairwise distinct, and none is a staging semaphore (those are DMA semaphores 0 and 1). -/
theorem ownSemFacts : Pipeline.OwnSemFacts cfg0.spec osem where
  isScoped := fun ij => by
    obtain ⟨s, hs, -⟩ := osem_val ij
    rw [hs]
    exact (by decide : ∀ s : DmaSem sig, sig.isScopedDmaSem .tc s = true) s
  inj := fun ij ij' h => by
    obtain ⟨s, hs, hv⟩ := osem_val ij
    obtain ⟨s', hs', hv'⟩ := osem_val ij'
    rw [hs, hs'] at h
    have hss : s = s' := by injection h
    have hval : s.val = s'.val := congrArg Fin.val hss
    rw [hv, hv'] at hval
    have h1 := ij.1.isLt; have h1' := ij'.1.isLt; have h2 := ij.2.isLt; have h2' := ij'.2.isLt
    exact Prod.ext (Fin.ext (by omega)) (Fin.ext (by omega))
  disj := fun ij w s h => by
    obtain ⟨s0, hs, hv⟩ := osem_val ij
    rw [hs] at h
    have hss : s0 = (cfg0.spec w).sem s := by injection h
    have hlt : ((cfg0.spec w).sem s).val < 2 := by fin_cases w <;> fin_cases s <;> decide
    rw [← hss, hv] at hlt; omega

/-! ## The duty tokens minted at launch -/

/-- Cell `j` of row `i`'s three tokens: the barrier cell's (duty `31 - i`), the send cell's, the receive cell's. -/
def tokCell (ij : I31 × Fin 3) : Fin 63 := match ij.2 with
  | 0 => 0
  | 1 => kS ij.1
  | 2 => kR ij.1
def tokDuty (ij : I31 × Fin 3) : DN := match ij.2 with
  | 0 => dutyE ij.1
  | 1 => 0
  | 2 => 0

abbrev tokOf (x : Dev nD × (I31 × Fin 3)) : GSem nD τ sig × ℕ × DN := (kcell (x.1, tokCell x.2), 0, tokDuty x.2)

theorem tokOf_injective : Function.Injective (tokOf : Dev nD × (I31 × Fin 3) → GSem nD τ sig × ℕ × DN) := by
  rintro ⟨c, i, j⟩ ⟨c', i', j'⟩ h
  have h1 : (c, tokCell (i, j)) = (c', tokCell (i', j')) := kcell_injective (congrArg (fun x : GSem nD τ sig × ℕ × DN => x.1) h)
  have h2 : tokDuty (i, j) = tokDuty (i', j') := congrArg (fun x : GSem nD τ sig × ℕ × DN => x.2.2) h
  have hc : c = c' := congrArg Prod.fst h1
  have hk : (tokCell (i, j)).val = (tokCell (i', j')).val := congrArg (fun x : Dev nD × Fin 63 => x.2.val) h1
  have hd : (tokDuty (i, j)).val = (tokDuty (i', j')).val := congrArg Fin.val h2
  subst hc
  have hi := i.isLt
  have hi' := i'.isLt
  have : i = i' ∧ j = j' := by
    fin_cases j <;> fin_cases j' <;>
      first
      | (refine ⟨Fin.ext ?_, rfl⟩
         first
         | (change 31 - i.val = 31 - i'.val at hd; omega)
         | (change i.val + 1 = i'.val + 1 at hk; omega)
         | (change i.val + 32 = i'.val + 32 at hk; omega))
      | (exfalso
         first
         | (change 0 = i'.val + 1 at hk; omega)
         | (change 0 = i'.val + 32 at hk; omega)
         | (change i.val + 1 = 0 at hk; omega)
         | (change i.val + 32 = 0 at hk; omega)
         | (change i.val + 1 = i'.val + 32 at hk; omega)
         | (change i.val + 32 = i'.val + 1 at hk; omega))
  obtain ⟨rfl, rfl⟩ := this
  rfl

def ringToks : Finset (GSem nD τ sig × ℕ × DN) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  bigSep Finset.univ fun i : I31 =>
    iprop(dutyTok ER (barCell c) 0 (dutyE i) ∗ dutyTok ER (sndCell c i.val i.isLt) 0 0 ∗ dutyTok ER (rcvCell c i.val i.isLt) 0 0)

/-- What the launch element deals device `c`. -/
def G (c : Dev nD) : sProp 𝕄 :=
  iprop((bigSep Finset.univ fun k : Fin 63 => roundState ER (ringRd m) (kcell (c, k)) 0)
    ∗ (bigSep Finset.univ fun k : Fin 63 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun k : Fin 63 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks; rw [bigSep_univ_prod]
    refine bigSep_congr fun i _ => ?_
    rw [bigSep_fin3]
    show iprop(dutyTok ER (kcell (c, 0)) 0 (dutyE i) ∗ dutyTok ER (kcell (c, kS i)) 0 0 ∗ dutyTok ER (kcell (c, kR i)) 0 0) = _
    rw [kcell_snd, kcell_rcv]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt to the devices that pay them -/

omit [FloatOps F] in
/-- A family over a device's 63 cells, cell by cell. -/
theorem bigSep_cells (c : Dev nD) (Φ : GSem nD τ sig → sProp 𝕄) :
    (bigSep Finset.univ fun k : Fin 63 => Φ (kcell (c, k)))
      = iprop(Φ (barCell c) ∗ bigSep Finset.univ fun i : I31 => iprop(Φ (sndCell c i.val i.isLt) ∗ Φ (rcvCell c i.val i.isLt))) := by
  rw [bigSep_fin63]
  refine congrArg (fun X => iprop(Φ (barCell c) ∗ X)) (bigSep_congr fun i _ => ?_)
  show iprop(Φ (kcell (c, kS i)) ∗ Φ (kcell (c, kR i))) = _
  rw [kcell_snd, kcell_rcv]

omit [FloatOps F] in
/-- The kernel's own semaphores at zero: for each row its send and its receive semaphore. -/
theorem ownSems0_eq (c : Dev nD) :
    (Pipeline.ownSems0 (Ix := Unit) (Name := ℕ) (U := UU) (Lvl := ℕ) (Val := Elt F) (τ := τ) osem c : sProp 𝕄)
      = bigSep Finset.univ fun i : I31 => iprop(semVal (sndCell c i.val i.isLt) 0 ∗ semVal (rcvCell c i.val i.isLt) 0) := by
  unfold Pipeline.ownSems0
  rw [bigSep_univ_prod]
  exact bigSep_congr fun i _ => by rw [bigSep_univ_two]

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 63 => semVal (kcell (c, k)) 0 : sProp 𝕄) := by
  rw [ownSems0_eq, unscopedSems0_eq, bigSep_cells c (fun g => semVal g 0)]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 63 => iprop(∃ κ : ℕ, cellInv ER (ringRd m) κ (kcell (c, k))))
          ∗ (bigSep Finset.univ fun k : Fin 63 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 63 => semVal (kcell (c, k)) 0) ∗ bigSep Finset.univ fun k : Fin 63 => roundState ER (ringRd m) (kcell (c, k)) 0)
      ⊢ (|={Set.univ}=> bigSep Finset.univ fun k : Fin 63 => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant at its name, and that every cell has reached round 0. -/
def records (K : Dev nD × Fin 63 → ℕ) : sProp 𝕄 :=
  iprop((bigSep Finset.univ fun ck : Dev nD × Fin 63 => cellInv ER (ringRd m) (K ck) (kcell ck))
    ∗ bigSep Finset.univ fun ck : Dev nD × Fin 63 => reached ER (kcell ck) 0)

instance records_persistent (K : Dev nD × Fin 63 → ℕ) : BI.Persistent (records (F := F) m K) := by unfold records; infer_instance

variable (K : Dev nD × Fin 63 → ℕ)

theorem rec_inv (ck : Dev nD × Fin 63) : records (F := F) m K ⊢ cellInv ER (ringRd m) (K ck) (kcell ck) := by
  have h : (bigSep Finset.univ fun ck : Dev nD × Fin 63 => (cellInv ER (ringRd m) (K ck) (kcell ck) : sProp 𝕄))
      ⊢ cellInv ER (ringRd m) (K ck) (kcell ck) := bigSep_elim (Finset.mem_univ ck)
  unfold records; iintro ⟨H, -⟩; iapply h; iexact H
theorem rec_reached (ck : Dev nD × Fin 63) : records (F := F) m K ⊢ reached ER (kcell ck) 0 := by
  have h : (bigSep Finset.univ fun ck : Dev nD × Fin 63 => (reached ER (kcell ck) 0 : sProp 𝕄)) ⊢ reached ER (kcell ck) 0 :=
    bigSep_elim (Finset.mem_univ ck)
  unfold records; iintro ⟨-, H⟩; iapply h; iexact H

theorem rec_inv_snd (c : Dev nD) (i : I31) : records (F := F) m K ⊢ cellInv ER (ringRd m) (K (c, kS i)) (sndCell c i.val i.isLt) := by
  have h := rec_inv (F := F) m K (c, kS i); rwa [kcell_snd] at h
theorem rec_inv_rcv (c : Dev nD) (i : I31) : records (F := F) m K ⊢ cellInv ER (ringRd m) (K (c, kR i)) (rcvCell c i.val i.isLt) := by
  have h := rec_inv (F := F) m K (c, kR i); rwa [kcell_rcv] at h
theorem rec_reached_snd (c : Dev nD) (i : I31) : records (F := F) m K ⊢ reached ER (sndCell c i.val i.isLt) 0 := by
  have h := rec_reached (F := F) m K (c, kS i); rwa [kcell_snd] at h
theorem rec_reached_rcv (c : Dev nD) (i : I31) : records (F := F) m K ⊢ reached ER (rcvCell c i.val i.isLt) 0 := by
  have h := rec_reached (F := F) m K (c, kR i); rwa [kcell_rcv] at h

theorem invAt_intro (c : Dev nD) (i : I31) : records (F := F) m K ⊢ invAt m K c i := by
  unfold invAt
  iintro #H
  isplitr; · iapply (rec_inv_snd (F := F) m K c i); iexact H
  isplitr; · iapply (rec_inv_rcv (F := F) m K c i); iexact H
  isplitr; · iapply (rec_inv (F := F) m K (peer c (i.val + 1), 0)); iexact H
  isplitr; · iapply (rec_inv_rcv (F := F) m K (peer c (i.val + 1)) i); iexact H
  isplitr; · iapply (rec_reached (F := F) m K (peer c (i.val + 1), 0)); iexact H
  isplitr; · iapply (rec_reached_snd (F := F) m K c i); iexact H
  iapply (rec_reached_rcv (F := F) m K c i); iexact H

theorem invs_intro (c : Dev nD) : records (F := F) m K ⊢ invs m K c := by
  unfold invs
  iintro #H
  isplitr; · iapply (rec_inv (F := F) m K (c, 0)); iexact H
  iapply (bigSep_intro_persistent (S := Finset.univ) (R := records (F := F) m K) (Φ := fun i : I31 => invAt m K c i)
    fun i _ => invAt_intro m K c i)
  iexact H

/-- The tokens of the duties device `c` pays. -/
def payToks (c : Dev nD) : sProp 𝕄 :=
  bigSep Finset.univ fun i : I31 =>
    iprop(dutyTok ER (barCell (peer c (i.val + 1))) 0 (dutyE i) ∗ dutyTok ER (sndCell c i.val i.isLt) 0 0
      ∗ dutyTok ER (rcvCell (peer c (i.val + 1)) i.val i.isLt) 0 0)

omit [FloatOps F] in
theorem linAt_intro (c : Dev nD) (i : I31) :
    iprop((atPos ER (sndCell c i.val i.isLt) 0 ∅ 0 ∗ atPos ER (rcvCell c i.val i.isLt) 0 ∅ 0)
        ∗ dutyTok ER (barCell (peer c (i.val + 1))) 0 (dutyE i) ∗ dutyTok ER (sndCell c i.val i.isLt) 0 0
          ∗ dutyTok ER (rcvCell (peer c (i.val + 1)) i.val i.isLt) 0 0)
      ⊢ (linAt c i : sProp 𝕄) := by
  unfold linAt
  iintro ⟨⟨H1, H2⟩, H3, H4, H5⟩
  isplitl [H1]; · iexact H1
  isplitl [H2]; · iexact H2
  isplitl [H3]; · iexact H3
  isplitl [H4]; · iexact H4
  iexact H5

omit [FloatOps F] in
theorem linear_intro (c : Dev nD) :
    iprop((bigSep Finset.univ fun k : Fin 63 => atPos ER (kcell (c, k)) 0 ∅ 0) ∗ payToks c) ⊢ (linear c : sProp 𝕄) := by
  rw [bigSep_cells c (fun g => atPos ER g 0 ∅ 0)]
  unfold linear payToks
  iintro ⟨⟨HB, HA⟩, HT⟩
  isplitl [HB]; · iexact HB
  iapply (show iprop((bigSep Finset.univ fun i : I31 => iprop(atPos ER (sndCell c i.val i.isLt) 0 ∅ 0 ∗ atPos ER (rcvCell c i.val i.isLt) 0 ∅ 0))
      ∗ bigSep Finset.univ fun i : I31 => iprop(dutyTok ER (barCell (peer c (i.val + 1))) 0 (dutyE i) ∗ dutyTok ER (sndCell c i.val i.isLt) 0 0
          ∗ dutyTok ER (rcvCell (peer c (i.val + 1)) i.val i.isLt) 0 0))
      ⊢ (bigSep Finset.univ fun i : I31 => linAt c i : sProp 𝕄) from by
    rw [← bigSep_sep']
    exact bigSep_mono fun i _ => linAt_intro c i)
  isplitl [HA]; · iexact HA
  iexact HT

theorem ghost_intro (c : Dev nD) :
    iprop(records m K ∗ (bigSep Finset.univ fun k : Fin 63 => atPos ER (kcell (c, k)) 0 ∅ 0) ∗ payToks c) ⊢ G' m c := by
  unfold G' ghost
  iintro ⟨#HR, HL⟩
  iexists K
  isplitr
  · iapply (invs_intro (F := F) m K c); iexact HR
  · iapply (linear_intro (F := F) c); iexact HL

/-- Going `k` places on along the ring, as a bijection of the devices. -/
def peerEquiv (k : ℕ) (hk : k ≤ 32) : Dev nD ≃ Dev nD where
  toFun d := peer d k
  invFun d := peer d (32 - k)
  left_inv d := peer_peer d k hk
  right_inv d := by
    have h := peer_peer d (32 - k) (by omega)
    rwa [show 32 - (32 - k) = k by omega] at h

omit [FloatOps F] in
/-- The tokens dealt around the ring, row by row: device `t`'s barrier token of duty `31 - i` and its receive token `i` go
    to the device `c` with `t = peer c (i + 1)`; each send token stays. -/
theorem toks_around : (bigSep Finset.univ fun c : Dev nD => (toks c : sProp 𝕄)) = bigSep Finset.univ fun c : Dev nD => payToks c := by
  have h (i : I31) :
      (bigSep Finset.univ fun c : Dev nD => (iprop(dutyTok ER (barCell c) 0 (dutyE i) ∗ dutyTok ER (sndCell c i.val i.isLt) 0 0
          ∗ dutyTok ER (rcvCell c i.val i.isLt) 0 0) : sProp 𝕄))
        = bigSep Finset.univ fun c : Dev nD => iprop(dutyTok ER (barCell (peer c (i.val + 1))) 0 (dutyE i) ∗ dutyTok ER (sndCell c i.val i.isLt) 0 0
          ∗ dutyTok ER (rcvCell (peer c (i.val + 1)) i.val i.isLt) 0 0) := by
    have hi := i.isLt
    rw [bigSep_sep', bigSep_sep', bigSep_sep', bigSep_sep',
      bigSep_univ_equiv (peerEquiv (i.val + 1) (by omega)) (fun c : Dev nD => (dutyTok ER (barCell c) 0 (dutyE i) : sProp 𝕄)),
      bigSep_univ_equiv (peerEquiv (i.val + 1) (by omega)) (fun c : Dev nD => (dutyTok ER (rcvCell c i.val i.isLt) 0 0 : sProp 𝕄))]
    rfl
  unfold toks payToks
  exact (bigSep_univ_comm _).trans ((bigSep_congr fun i _ => h i).trans (bigSep_univ_comm _).symm)

theorem regroup :
    (bigSep Finset.univ fun c : Dev nD => iprop((bigSep Finset.univ fun k : Fin 63 => iprop(∃ κ : ℕ, cellInv ER (ringRd m) κ (kcell (c, k))))
          ∗ (bigSep Finset.univ fun k : Fin 63 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 63 => iprop(∃ κ : ℕ, cellInv ER (ringRd m) κ (kcell ck))),
    bigSep_congr (s := Finset.univ) (fun (c : Dev nD) _ => bigSep_sep' Finset.univ (fun k : Fin 63 => (atPos ER (kcell (c, k)) 0 ∅ 0 : sProp 𝕄)) (fun k => reached ER (kcell (c, k)) 0)),
    bigSep_sep', ← bigSep_univ_prod (fun ck : Dev nD × Fin 63 => (reached ER (kcell ck) 0 : sProp 𝕄)), toks_around]
  iintro ⟨HI, ⟨Hat, #HR⟩, Htok⟩
  ihave HK := (BI.bigSep_exists_pi Finset.univ (fun (ck : Dev nD × Fin 63) (κ : ℕ) => (cellInv ER (ringRd m) κ (kcell ck) : sProp 𝕄))) $$ HI
  icases HK with ⟨%K, #HI⟩
  iapply (bigSep_with_persistent (R := records m K) fun c _ => ghost_intro m K c)
  isplitr
  · unfold records; isplitl; · iexact HI
    iexact HR
  · rw [bigSep_sep']
    isplitl [Hat]; · iexact Hat
    iexact Htok

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, H0, H1⟩
  isplitl [Hs]; · iexact Hs
  isplitl [H0]; · iexact H0
  iexact H1

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨H0, H1, HZ⟩
  isplitr; · iempintro
  isplitl [HZ]; · iexact HZ
  isplitl [H0]; · iexact H0
  iexact H1

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Each window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- At the compiled mesh of 32 devices, from any memory with zero counters: every weakly fair execution of @main
    terminates, and every final state has each device's arrays at the proof data's final contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

end Cert.KernelIdeal.Hand

end
-- ==== Proof.Final.lean ====
/-
  The run of the idealized kernel read at the arrays: each device's block of x ends as it was, and each device's
  result row ends at the payload term `outV`.
-/
import proofs.«900944_g7700000000000945_dist_mean_ax0_shard0_i_m1536_n768_v7x_i32_f32_1_alg».proof.Proof.Launch

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

variable {F : FTy → Type} [FloatOps F] [Named F]

local notation "𝕄" => MT nD τ sig Unit (Elt F) ℕ UU ℕ

variable (m : (ℓ : Loc nD τ sig) → Buf (Elt F) ℓ) (ρ : Dev nD → PrngReg)

/-- The block of x after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result row after the run holds the payload term. -/
theorem finalA_out (c : Dev nD) : finalA m ρ c (1 : Fin 2) = outV m c := by
  show (dats m ρ 0 c).arrAt 1 (t0_0.val + 1) = _
  rw [(dats m ρ 0 c).arrAt_succ 1 t0_0, if_pos (flush0_1 t0_0)]
  exact Memref.write_access_unit_zero_univ (Elt F) main_v1 (funext fun a => Nat.zero_mul _) _ _ _

/-- The whole program's run with its values named: every weakly fair execution from the launch memory terminates with
    each device's result row at `outV m c` and its block of x unchanged. -/
theorem kernel_run (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outV m c
      ∧ r.2.mem ((c.tc : Thread nD τ).loc main_arg0) = m ((c.tc : Thread nD τ).loc main_arg0)) :=
  (θ_run defs _ _).mono (fun r h c => ⟨(h c 1).trans (finalA_out m ρ c), (h c 0).trans (finalA_x m ρ c)⟩) (run_main m ρ hbody)

end Cert.KernelIdeal.Hand

end
-- ==== Proof.Bits.Proto.lean ====
/-
  The all-to-all column-mean kernel on 32 devices: names for the ring of peers, the kernel's four VMEM buffers
  (the device's block of x, the result row, the row of column sums it sends, the 31 rows it receives), its 62 DMA
  semaphores and the runtime's barrier semaphore, seen as cells of the rounds discipline.

  Device c sends, at offset k = 1..31, its row of column sums to device c + k (mod 32), into row k-1 of that
  device's receive buffer, crediting that device's receive semaphore k-1 and its own send semaphore k-1. Hence row i
  of device c's receive buffer is written by device c - (i+1) = c + (31 - i) (mod 32).
-/
import proofs.«900944_g7700000000000945_dist_mean_ax0_shard0_i_m1536_n768_v7x_i32_f32_1_alg».proof.Proof.Gen.Kernel
import proofs.«900944_g7700000000000945_dist_mean_ax0_shard0_i_m1536_n768_v7x_i32_f32_1_alg».proof.Proof.Gen.Kernel.Skeleton
import proofs.«900944_g7700000000000945_dist_mean_ax0_shard0_i_m1536_n768_v7x_i32_f32_1_alg».proof.Proof.Gen.Kernel.Launch
import proofs.«900944_g7700000000000945_dist_mean_ax0_shard0_i_m1536_n768_v7x_i32_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.Hand

open Cert.Kernel Cert.Kernel.Gen
open Cert.Kernel.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

variable {F : FTy → Type} [FloatOps F]

/-! ## The resource algebra: the pipeline library's copy and the protocol's (duty names `Fin 32`) -/

abbrev DN : Type := Fin 32
abbrev UB : Type := URounds (GSem nD τ sig) DN
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

/-- The device `k` places after `c` on the ring of 32. -/
def peer (c : Dev nD) (k : ℕ) : Dev nD := ⟨(c.val + k) % 32, Nat.mod_lt _ (by decide)⟩

theorem peer_val (c : Dev nD) (k : ℕ) : (peer c k).val = (c.val + k) % 32 := rfl

/-- Going `k` places on and then `32 - k` more is a full turn. -/
theorem peer_peer (c : Dev nD) (k : ℕ) (hk : k ≤ 32) : peer (peer c k) (32 - k) = c := by
  apply Fin.ext
  have hc : c.val < 32 := c.isLt
  simp only [peer_val]
  omega

theorem peer_inj (c : Dev nD) {j k : ℕ} (hj : j < 32) (hk : k < 32) (h : peer c j = peer c k) : j = k := by
  have hc : c.val < 32 := c.isLt
  have := congrArg Fin.val h
  simp only [peer_val] at this
  omega

/-! ## The memrefs -/

/-- the device's block of `x` (staged), the result row (staged), the row of column sums, the 31 received rows -/
abbrev xM : Memref sig .tc .vmem S1536x768 .f32 := Memref.whole cc0_stg0_0
abbrev oM : Memref sig .tc .vmem S1x768 .f32 := Memref.whole cc0_stg1_0
abbrev sM : Memref sig .tc .vmem S1x768 .f32 := Memref.whole cc0_scratch0
abbrev cM : Memref sig .tc .vmem S31x768 .f32 := Memref.whole cc0_scratch1

theorem row_inb (i : ℕ) (hi : i < 31) : ∀ a, (![i, 0] : Fin 2 → Nat) a + S1x768.size a ≤ S31x768.size a := by
  intro a; fin_cases a
  · show i + 1 ≤ 31; omega
  · show 0 + 768 ≤ 768; omega

theorem sem_inb (i : ℕ) (hi : i < 31) : ∀ a, (![i] : Fin 1 → Nat) a + S1.size a ≤ S31.size a := by
  intro a; fin_cases a
  show i + 1 ≤ 31; omega

/-- Row `i` of the receive buffer, as the kernel slices it. -/
abbrev rowM (i : ℕ) (hi : i < 31 := by decide) : Memref sig .tc .vmem S1x768 .f32 :=
  cM.slice (Rect.unit (s := S31x768) ![i, 0] S1x768.size (row_inb i hi)) (fun _ => rfl)

/-- The runtime's barrier semaphore of collective id 0; send and receive DMA semaphore `i`, as the kernel slices them. -/
abbrev barS : Sem sig := (SemArray.scalar (sig.barrier 0 rfl) : Sems sig S_).sem
abbrev sndS (i : ℕ) (hi : i < 31 := by decide) : DmaSem sig :=
  ((cc0_scratch2.slice (Rect.unit (s := S31) ![i] S1.size (sem_inb i hi))).squeeze S_ Facts₀.squeezes_S1_S_).sem
abbrev rcvS (i : ℕ) (hi : i < 31 := by decide) : DmaSem sig :=
  ((cc0_scratch3.slice (Rect.unit (s := S31) ![i] S1.size (sem_inb i hi))).squeeze S_ Facts₀.squeezes_S1_S_).sem

/-- Element `i` of an array of 31 semaphores sits `i` places after the array's first. -/
theorem unit1_val (i : ℕ) (h : ∀ a, (![i] : Fin 1 → Nat) a + S1.size a ≤ S31.size a)
    (j : (Rect.unit (s := S31) ![i] S1.size h).shape.Idx) :
    (S31.rowMajor ((Rect.unit (s := S31) ![i] S1.size h).emb j)).val = i := by
  rw [Shape.rowMajor_val_one, Rect.emb_apply]
  have hj : (j 0).val < 1 := (j 0).isLt
  show i + 1 * (j 0).val = i
  omega

theorem sndS_val (i : ℕ) (hi : i < 31) : (sndS i hi).val = 2 + i := congrArg (2 + ·) (unit1_val i _ _)
theorem rcvS_val (i : ℕ) (hi : i < 31) : (rcvS i hi).val = 33 + i := congrArg (33 + ·) (unit1_val i _ _)

abbrev barCell (c : Dev nD) : GSem nD τ sig := ((c : Thread nD τ), .reg barS)
abbrev sndCell (c : Dev nD) (i : ℕ) (hi : i < 31 := by decide) : GSem nD τ sig := ((c : Thread nD τ), .dma (sndS i hi))
abbrev rcvCell (c : Dev nD) (i : ℕ) (hi : i < 31 := by decide) : GSem nD τ sig := ((c : Thread nD τ), .dma (rcvS i hi))

/-- One transfer's credit: a row of 768 words. -/
abbrev N : ℕ := (sM : Memref sig .tc .vmem S1x768 .f32).view.dmaCredit
theorem N_pos : 0 < N := View.dmaCredit_pos _ (by decide)

/-! ## Contents -/

variable (m : (ℓ : Loc nD τ sig) → Buf (Elt F) ℓ)

/-- Device `c`'s block of `x` as the pipeline stages it. -/
def xstg (c : Dev nD) : (cc0_stg0_0 : Ref sig .tc).ty.Contents (Elt F) :=
  (win0_0.blk (0 : Fin 1)).view.read (Elt F) (m ((c : Thread nD τ).loc main_arg0))

/-! The kernel's values as pure functions of the 32 blocks `xs` (device `c'` holds `xs c'`). -/

/-- The row a device sends: the column sums of its block. -/
def sendF (xb : Vec F S1536x768 .f32) : FVec F S1x768 .f32 := k0_pay1 xb

/-- What device `c`'s receive buffer holds once every row has landed: row `i` is the row sent by the device
    `31 - i` places after `c` (that is, `i + 1` places before it). -/
def commF (xs : Dev nD → Vec F S1536x768 .f32) (c : Dev nD) : Vec F S31x768 .f32 :=
  fun idx => sendF (xs (peer c (31 - (idx 0).val))) (fun a => match a with | 0 => ⟨0, by decide⟩ | 1 => idx 1)

/-- The kernel's load of its own sent row, and of rows `lo .. lo + S'.size 0 - 1` of the receive buffer. -/
def rdS (s : FVec F S1x768 .f32) : Vec F S1x768 .f32 :=
  (sM : Memref sig .tc .vmem S1x768 .f32).view.readAt (Elt F) (Rect.unit (s := S1x768) ![0, 0] S1x768.size Facts₀.inb_S1x768_S1x768_0_0).toLoadRect s
def rdC (lo : ℕ) (sz : Fin 2 → ℕ) (h : ∀ a, (![lo, 0] : Fin 2 → Nat) a + sz a ≤ S31x768.size a) (f : Vec F S31x768 .f32) :=
  (cM : Memref sig .tc .vmem S31x768 .f32).view.readAt (Elt F) (Rect.unit (s := S31x768) ![lo, 0] sz h).toLoadRect f

/-- The result row on device `c`: its own column sums plus the four groups of received rows (8, 8, 8 and 7 rows, each
    group summed over its rows), times the named constant. -/
def outF (xs : Dev nD → Vec F S1536x768 .f32) (c : Dev nD) : FVec F S1x768 .f32 :=
  k0_pay8
    (k0_pay6
      (k0_pay5
        (k0_pay4
          (k0_pay3 (k0_pay2 (rdS (sendF (xs c)))) (rdC 0 S8x768.size Facts₀.inb_S31x768_S8x768_0_0 (commF xs c)))
          (rdC 8 S8x768.size Facts₀.inb_S31x768_S8x768_8_0 (commF xs c)))
        (rdC 16 S8x768.size Facts₀.inb_S31x768_S8x768_16_0 (commF xs c)))
      (rdC 24 S7x768.size Facts₀.inb_S31x768_S7x768_24_0 (commF xs c)))
    k0_pay7

/-- On the launch memory `m`: what device `c` sends, what its receive buffer ends holding, its result row. -/
def sendV (c : Dev nD) : (cc0_scratch0 : Ref sig .tc).ty.Contents (Elt F) := sendF (xstg m c)
def commV (c : Dev nD) : (cc0_scratch1 : Ref sig .tc).ty.Contents (Elt F) := commF (xstg m) c
def outV (c : Dev nD) : (cc0_stg1_0 : Ref sig .tc).ty.Contents (Elt F) := outF (xstg m) c

/-! ## Shares of the sent row: transfer `i` borrows `sh i`, and `rem i` is what is left before it -/

def rem : ℕ → PosShare TreeShare
  | 0 => fullShare
  | n + 1 => (rem n).right
def sh (i : ℕ) : PosShare TreeShare := (rem i).left
theorem rem_split (i : ℕ) : rem i ∈ sh i ·? rem (i + 1) := PosShare.mem_left_op_right (rem i)

/-! ## The payloads -/

/-- the sent row at share `q`; row `i` of the receive buffer at contents `f` -/
def sPts (c : Dev nD) (q : PosShare TreeShare) : sProp 𝕄 :=
  (sM : Memref sig .tc .vmem S1x768 .f32).view.loc (c : Thread nD τ) ↦[(sM : Memref sig .tc .vmem S1x768 .f32).view.set]{q} sendV m c
def rowPts (c : Dev nD) (i : ℕ) (hi : i < 31) (f : Buf (Elt F) ((rowM i hi).view.loc (c : Thread nD τ))) : sProp 𝕄 :=
  (rowM i hi).view.loc (c : Thread nD τ) ↦[(rowM i hi).view.set]{fullShare} f

/-- What the device `e` places after `c` hands `c` with its barrier signal: row `e - 1` of its receive buffer
    (the row `c` will write), and that its receive cell `e - 1` is at round 0. -/
def barPay (c : Dev nD) (e : ℕ) (he : e - 1 < 31) : sProp 𝕄 :=
  iprop((∃ f, rowPts (peer c e) (e - 1) he f) ∗ reached ER (rcvCell (peer c e) (e - 1) he) 0)
def rcvPay (c : Dev nD) (i : ℕ) (hi : i < 31) : sProp 𝕄 := rowPts c i hi (commV m c)
def sndPay (c : Dev nD) (i : ℕ) : sProp 𝕄 := sPts m c (sh i)

theorem DN_sub (e : DN) : e.val - 1 < 31 := by have := e.isLt; omega

abbrev IsBar (g : GSem nD τ sig) : Prop := g.1.2 = .tc ∧ g.2 = .reg barS
/-- A send or receive cell: a DMA semaphore numbered 2 or more on a TensorCore (0 and 1 are the staging buffers'). -/
def xferNo : SemLoc sig → Option ℕ
  | .dma s => if 2 ≤ s.val then some (s.val - 2) else none
  | _ => none
abbrev IsXfer (g : GSem nD τ sig) : Prop := g.1.2 = .tc ∧ (xferNo g.2).isSome

/-- One round, round 0. A barrier cell has the 31 unit duties `e = 1..31`, duty `e` paid by the device `e` places
    after the owner. A send or receive cell has the one duty `0` of a row's credit. -/
def ringRd : Rounds.Schedule (GSem nD τ sig) DN 𝕄 where
  duties g r := if r = 0 ∧ IsBar g then Finset.univ.erase 0 else if r = 0 ∧ IsXfer g then {0} else ∅
  unitless _ := False
  amount g _ _ := if g.2 = .reg barS then 1 else N
  payload g _ d :=
    if g.2 = .reg barS then barPay g.1.1 d.val (DN_sub d)
    else match xferNo g.2 with
      | some n => if h : n < 31 then sndPay m g.1.1 n else if h' : n - 31 < 31 then rcvPay m g.1.1 (n - 31) h' else iprop(emp)
      | none => iprop(emp)
  amount_pos g _ _ _ := by
    by_cases h : g.2 = .reg barS
    · rw [if_pos h]; exact Nat.one_pos
    · rw [if_neg h]; exact N_pos

instance ringRd_payload_storable (g : GSem nD τ sig) (r : ℕ) (d : DN) :
    BI.Storable (upEmb : UEmb _ 𝕄) ((ringRd (F := F) m).payload g r d) := by
  show BI.Storable upEmb (if g.2 = .reg barS then barPay g.1.1 d.val (DN_sub d)
    else match xferNo g.2 with
      | some n => if h : n < 31 then sndPay m g.1.1 n else if h' : n - 31 < 31 then rcvPay m g.1.1 (n - 31) h' else iprop(emp)
      | none => iprop(emp))
  unfold barPay rcvPay sndPay sPts rowPts
  (repeat' split) <;> infer_instance

section Sched
variable (c : Dev nD)

theorem snd_ne_bar (i : ℕ) (hi : i < 31) : (SemLoc.dma (sndS i hi) : SemLoc sig) ≠ .reg barS := fun h => by cases h
theorem rcv_ne_bar (i : ℕ) (hi : i < 31) : (SemLoc.dma (rcvS i hi) : SemLoc sig) ≠ .reg barS := fun h => by cases h

theorem xferNo_snd (i : ℕ) (hi : i < 31) : xferNo (.dma (sndS i hi) : SemLoc sig) = some i := by
  show (if 2 ≤ (sndS i hi).val then some ((sndS i hi).val - 2) else none) = some i
  rw [sndS_val, if_pos (by omega)]; congr 1; omega
theorem xferNo_rcv (i : ℕ) (hi : i < 31) : xferNo (.dma (rcvS i hi) : SemLoc sig) = some (31 + i) := by
  show (if 2 ≤ (rcvS i hi).val then some ((rcvS i hi).val - 2) else none) = some (31 + i)
  rw [rcvS_val, if_pos (by omega)]; congr 1; omega

theorem duties_bar : (ringRd (F := F) m).duties (barCell c) 0 = Finset.univ.erase 0 := by
  dsimp only [ringRd]; exact if_pos ⟨rfl, rfl, rfl⟩
theorem duties_snd (i : ℕ) (hi : i < 31) : (ringRd (F := F) m).duties (sndCell c i hi) 0 = {0} := by
  dsimp only [ringRd]
  rw [if_neg (fun h => snd_ne_bar i hi h.2.2), if_pos ⟨rfl, rfl, by rw [xferNo_snd]; rfl⟩]
theorem duties_rcv (i : ℕ) (hi : i < 31) : (ringRd (F := F) m).duties (rcvCell c i hi) 0 = {0} := by
  dsimp only [ringRd]
  rw [if_neg (fun h => rcv_ne_bar i hi h.2.2), if_pos ⟨rfl, rfl, by rw [xferNo_rcv]; rfl⟩]
theorem duties_later (g : GSem nD τ sig) : ∀ r, 1 ≤ r → (ringRd (F := F) m).duties g r = ∅ :=
  fun r hr => by dsimp only [ringRd]; rw [if_neg fun h => by omega, if_neg fun h => by omega]

theorem amount_bar (d : DN) : (ringRd (F := F) m).amount (barCell c) 0 d = 1 := by dsimp only [ringRd]; exact if_pos rfl
theorem amount_snd (i : ℕ) (hi : i < 31) (d : DN) : (ringRd (F := F) m).amount (sndCell c i hi) 0 d = N := by
  dsimp only [ringRd]; exact if_neg (snd_ne_bar i hi)
theorem amount_rcv (i : ℕ) (hi : i < 31) (d : DN) : (ringRd (F := F) m).amount (rcvCell c i hi) 0 d = N := by
  dsimp only [ringRd]; exact if_neg (rcv_ne_bar i hi)

theorem expect_bar : (ringRd (F := F) m).expect (barCell c) 0 = 31 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]
theorem expect_snd (i : ℕ) (hi : i < 31) : (ringRd (F := F) m).expect (sndCell c i hi) 0 = N := by
  unfold Schedule.expect Schedule.amountOf; rw [duties_snd, Finset.sum_singleton, amount_snd]
theorem expect_rcv (i : ℕ) (hi : i < 31) : (ringRd (F := F) m).expect (rcvCell c i hi) 0 = N := by
  unfold Schedule.expect Schedule.amountOf; rw [duties_rcv, Finset.sum_singleton, amount_rcv]

theorem payload_bar (e : DN) : (ringRd (F := F) m).payload (barCell c) 0 e = barPay c e.val (DN_sub e) := by
  dsimp only [ringRd]; rw [if_pos rfl]
theorem payload_snd (i : ℕ) (hi : i < 31) (d : DN) : (ringRd (F := F) m).payload (sndCell c i hi) 0 d = sndPay m c i := by
  dsimp only [ringRd]; rw [if_neg (snd_ne_bar i hi), xferNo_snd]; dsimp only; rw [dif_pos hi]

theorem rcvPay_congr {a b : ℕ} (h : a = b) (ha : a < 31) (hb : b < 31) : rcvPay m c a ha = rcvPay m c b hb := by subst h; rfl
theorem payload_rcv (i : ℕ) (hi : i < 31) (d : DN) : (ringRd (F := F) m).payload (rcvCell c i hi) 0 d = rcvPay m c i hi := by
  dsimp only [ringRd]; rw [if_neg (rcv_ne_bar i hi), xferNo_rcv]; dsimp only
  rw [dif_neg (by omega), dif_pos (by omega)]
  exact rcvPay_congr m c (by omega) _ _

theorem rest_snd (i : ℕ) (hi : i < 31) :
    bigSep ((ringRd (F := F) m).duties (sndCell c i hi) 0 \ ∅) (fun d => (ringRd (F := F) m).payload (sndCell c i hi) 0 d) = sndPay m c i := by
  rw [Finset.sdiff_empty, duties_snd, bigSep_singleton, payload_snd]
theorem rest_rcv (i : ℕ) (hi : i < 31) :
    bigSep ((ringRd (F := F) m).duties (rcvCell c i hi) 0 \ ∅) (fun d => (ringRd (F := F) m).payload (rcvCell c i hi) 0 d) = rcvPay m c i hi := by
  rw [Finset.sdiff_empty, duties_rcv, bigSep_singleton, payload_rcv]

end Sched

end Cert.Kernel.Hand

end
-- ==== Proof.Bits.Data.lean ====
/-
  The proof data of the 32-device column mean: what each device owes at launch (31 barrier units, one to every other
  device, and 31 row credits, one to every other device's receive cell), the levels (barrier cells below receive
  cells; a device waits on its barrier owing only row credits, and on its receive and send cells owing nothing), the
  ghost state a device's body starts from, and the pipeline's data (the result row is the payload term `outV`).
-/
import proofs.«900944_g7700000000000945_dist_mean_ax0_shard0_i_m1536_n768_v7x_i32_f32_1_alg».proof.Proof.Bits.Proto

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Indices: `i : Fin 31` is row `i`, offset `i + 1` -/

abbrev I31 : Type := Fin 31

/-- The barrier duty device `c` pays on the device `i + 1` places after it: that device sees `c` `31 - i` places after itself. -/
def dutyE (i : I31) : DN := ⟨31 - i.val, by have := i.isLt; omega⟩
theorem dutyE_val (i : I31) : (dutyE i).val = 31 - i.val := rfl
theorem dutyE_ne_zero (i : I31) : dutyE i ≠ 0 := fun h => by
  have := congrArg Fin.val h; have hi := i.isLt; simp only [dutyE_val] at this; change 31 - i.val = 0 at this; omega
theorem sub_lt31 (i : I31) : 30 - i.val < 31 := by omega
theorem peer_back (c : Dev nD) (i : I31) : peer (peer c (i.val + 1)) (31 - i.val) = c := by
  have h := peer_peer c (i.val + 1) (by have := i.isLt; omega)
  have e : 32 - (i.val + 1) = 31 - i.val := by omega
  rwa [e] at h

/-! ## What each device owes at launch -/

/-- the last `n` barrier signals (offsets `32 - n .. 31`), and the last `n` row credits -/
def OsigLast (c : Dev nD) : ℕ → CellTallies nD τ sig Unit
  | 0 => 0
  | n + 1 => OsigLast c n + tallyAt (barCell (peer c (31 - n))) () 1
def OsndLast (c : Dev nD) : ℕ → CellTallies nD τ sig Unit
  | 0 => 0
  | n + 1 => OsndLast c n + (if h : 30 - n < 31 then tallyAt (rcvCell (peer c (31 - n)) (30 - n) h) () N else 0)
def O₀ (c : Dev nD) : CellTallies nD τ sig Unit := OsndLast c 31 + OsigLast c 31

theorem Osig_peel (c : Dev nD) (i : I31) :
    OsigLast c (31 - i.val) = OsigLast c (30 - i.val) + tallyAt (barCell (peer c (i.val + 1))) () 1 := by
  have hi := i.isLt
  have h : 31 - i.val = (30 - i.val) + 1 := by omega
  rw [h]
  show OsigLast c (30 - i.val) + tallyAt (barCell (peer c (31 - (30 - i.val)))) () 1 = _
  have h2 : 31 - (30 - i.val) = i.val + 1 := by omega
  rw [h2]

theorem rcvCell_congr (t : Dev nD) {a b : ℕ} (h : a = b) (ha : a < 31) (hb : b < 31) : rcvCell t a ha = rcvCell t b hb := by
  subst h; rfl

theorem Osnd_peel (c : Dev nD) (i : I31) :
    OsndLast c (31 - i.val) = OsndLast c (30 - i.val) + tallyAt (rcvCell (peer c (i.val + 1)) i.val i.isLt) () N := by
  have hi := i.isLt
  have h : 31 - i.val = (30 - i.val) + 1 := by omega
  rw [h]
  show OsndLast c (30 - i.val) + (if h : 30 - (30 - i.val) < 31 then tallyAt (rcvCell (peer c (31 - (30 - i.val))) (30 - (30 - i.val)) h) () N else 0) = _
  rw [dif_pos (by omega)]
  have h2 : 31 - (30 - i.val) = i.val + 1 := by omega
  have h3 : 30 - (30 - i.val) = i.val := by omega
  congr 2
  rw [h2]
  exact rcvCell_congr _ h3 _ _

/-! ## Levels: barrier cells at 1, receive cells at 2, everything else (staging, send) at 0 -/

def L (g : GSem nD τ sig) : Finset Unit := if g.1.2 = .tc then {()} else ∅
def semLevel : SemLoc sig → ℕ
  | .dma s => if 33 ≤ s.val then 2 else 0
  | sm => if sm = .reg barS then 1 else 0
def lv (g : GSem nD τ sig) (_ : Unit) : ℕ := semLevel g.2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_rcv (c : Dev nD) (i : ℕ) (hi : i < 31) : lv (rcvCell c i hi) () = 2 := by
  show (if 33 ≤ (rcvS i hi).val then 2 else 0) = 2
  rw [rcvS_val, if_pos (by omega)]
theorem lv_snd (c : Dev nD) (i : ℕ) (hi : i < 31) : lv (sndCell c i hi) () = 0 := by
  show (if 33 ≤ (sndS i hi).val then 2 else 0) = 0
  rw [sndS_val, if_neg (by omega)]

/-! ## The cells of one device, enumerated: 0 the barrier, 1..31 the send cells, 32..62 the receive cells -/

def csem (k : Fin 63) : SemLoc sig :=
  if h0 : k.val = 0 then .reg barS
  else if h1 : k.val ≤ 31 then .dma (sndS (k.val - 1) (by omega))
  else .dma (rcvS (k.val - 32) (by have := k.isLt; omega))
abbrev kcell (ck : Dev nD × Fin 63) : GSem nD τ sig := ((ck.1 : Thread nD τ), csem ck.2)
def kS (i : I31) : Fin 63 := ⟨i.val + 1, by have := i.isLt; omega⟩
def kR (i : I31) : Fin 63 := ⟨i.val + 32, by have := i.isLt; omega⟩

theorem sndS_congr {a b : ℕ} (h : a = b) (ha : a < 31) (hb : b < 31) : sndS a ha = sndS b hb := by subst h; rfl
theorem rcvS_congr {a b : ℕ} (h : a = b) (ha : a < 31) (hb : b < 31) : rcvS a ha = rcvS b hb := by subst h; rfl
theorem kcell_bar (c : Dev nD) : kcell (c, 0) = barCell c := rfl
theorem kcell_snd (c : Dev nD) (i : I31) : kcell (c, kS i) = sndCell c i.val i.isLt := by
  show ((c : Thread nD τ), csem (kS i)) = _
  unfold csem kS
  rw [dif_neg (by show ¬ (i.val + 1 = 0); omega), dif_pos (by have := i.isLt; show i.val + 1 ≤ 31; omega)]
  exact congrArg (fun s => ((c : Thread nD τ), SemLoc.dma s)) (sndS_congr (by show i.val + 1 - 1 = i.val; omega) _ _)
theorem kcell_rcv (c : Dev nD) (i : I31) : kcell (c, kR i) = rcvCell c i.val i.isLt := by
  show ((c : Thread nD τ), csem (kR i)) = _
  unfold csem kR
  rw [dif_neg (by show ¬ (i.val + 32 = 0); omega), dif_neg (by show ¬ (i.val + 32 ≤ 31); omega)]
  exact congrArg (fun s => ((c : Thread nD τ), SemLoc.dma s)) (rcvS_congr (by show i.val + 32 - 32 = i.val; omega) _ _)

/-! ## The ghost state of device `c` -/

variable (K : Dev nD × Fin 63 → ℕ)

/-- What device `c` knows for good: the invariants of its own 63 cells and of the 62 cells of other devices it pays
    (each other device's barrier cell and the receive cell of the row it writes there), and the rounds reached. -/
def invAt (c : Dev nD) (i : I31) : sProp 𝕄 :=
  iprop(cellInv ER (ringRd m) (K (c, kS i)) (sndCell c i.val i.isLt) ∗ cellInv ER (ringRd m) (K (c, kR i)) (rcvCell c i.val i.isLt)
    ∗ cellInv ER (ringRd m) (K (peer c (i.val + 1), 0)) (barCell (peer c (i.val + 1)))
    ∗ cellInv ER (ringRd m) (K (peer c (i.val + 1), kR i)) (rcvCell (peer c (i.val + 1)) i.val i.isLt)
    ∗ reached ER (barCell (peer c (i.val + 1))) 0 ∗ reached ER (sndCell c i.val i.isLt) 0 ∗ reached ER (rcvCell c i.val i.isLt) 0)
def invs (c : Dev nD) : sProp 𝕄 :=
  iprop(cellInv ER (ringRd m) (K (c, 0)) (barCell c) ∗ bigSep Finset.univ fun i : I31 => invAt m K c i)

instance invAt_persistent (c : Dev nD) (i : I31) : BI.Persistent (invAt (F := F) m K c i) := by unfold invAt; infer_instance
instance invs_persistent (c : Dev nD) : BI.Persistent (invs (F := F) m K c) := by unfold invs; infer_instance

theorem invs_at (c : Dev nD) (i : I31) : invs (F := F) m K c ⊢ invAt m K c i := by
  unfold invs
  have h : (bigSep Finset.univ fun i : I31 => invAt (F := F) m K c i) ⊢ invAt m K c i := bigSep_elim (Finset.mem_univ i)
  iintro ⟨-, H⟩; iapply h; iexact H
theorem invs_bar (c : Dev nD) : invs (F := F) m K c ⊢ cellInv ER (ringRd m) (K (c, 0)) (barCell c) := by
  unfold invs; iintro ⟨H, -⟩; iexact H

/-- What it holds once: its positions at round 0 of its own cells, and the tokens of the 93 duties it pays. -/
def linAt (c : Dev nD) (i : I31) : sProp 𝕄 :=
  iprop(atPos ER (sndCell c i.val i.isLt) 0 ∅ 0 ∗ atPos ER (rcvCell c i.val i.isLt) 0 ∅ 0
    ∗ dutyTok ER (barCell (peer c (i.val + 1))) 0 (dutyE i)
    ∗ dutyTok ER (sndCell c i.val i.isLt) 0 0
    ∗ dutyTok ER (rcvCell (peer c (i.val + 1)) i.val i.isLt) 0 0)
def linear (c : Dev nD) : sProp 𝕄 :=
  iprop(atPos ER (barCell c) 0 ∅ 0 ∗ bigSep Finset.univ fun i : I31 => linAt (F := F) c i)

def ghost (c : Dev nD) : sProp 𝕄 := iprop(invs m K c ∗ linear (F := F) c)

/-- What device `c`'s body starts from: that at some names, its credit tokens and the level facts. -/
def start (c : Dev nD) : sProp 𝕄 :=
  iprop((∃ K, ghost m K c) ∗ cred (tallyAt (barCell c) () 31)
    ∗ (bigSep Finset.univ fun i : I31 => cred (tallyAt (rcvCell c i.val i.isLt) () N)) ∗ levAts L lv)

def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After the point: the two scratch buffers at something, the 62 own cells closed with their counters at zero. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ bigSep Finset.univ fun i : I31 => iprop(semVal (sndCell c i.val i.isLt) 0 ∗ semVal (rcvCell c i.val i.isLt) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.Kernel.Hand

end
-- ==== Proof.Bits.Bundle.lean ====
/-
  Index bookkeeping for the 31 rows: the rows not yet handled (`todo j`: those from `j` on) and the rows handled
  (`done j`: those before `j`), and how a separating conjunction over them loses or gains row `j`.
-/
import proofs.«900944_g7700000000000945_dist_mean_ax0_shard0_i_m1536_n768_v7x_i32_f32_1_alg».proof.Proof.Bits.Data

noncomputable section

namespace Cert.Kernel.Hand

open Cert.Kernel
open Idealize.ShloMosaic
open Idealize.SL Idealize.SL.RA Idealize.SL.BI
open scoped Idealize.SL.BI
open Idealize.SL.BI.BIBase Idealize.SL.BI.Laws Idealize.SL.ProofMode

def todo (j : ℕ) : Finset I31 := Finset.univ.filter fun i => j ≤ i.val
def done (j : ℕ) : Finset I31 := Finset.univ.filter fun i => i.val < j

theorem todo_zero : todo 0 = Finset.univ := Finset.filter_true_of_mem fun i _ => Nat.zero_le _
theorem todo_31 : todo 31 = ∅ := Finset.filter_false_of_mem fun i _ => by have := i.isLt; omega
theorem done_zero : done 0 = ∅ := Finset.filter_false_of_mem fun i _ => by omega
theorem done_31 : done 31 = Finset.univ := Finset.filter_true_of_mem fun i _ => i.isLt

theorem todo_peel (j : ℕ) (hj : j < 31) : todo j = insert ⟨j, hj⟩ (todo (j + 1)) := by
  ext i
  simp only [todo, Finset.mem_filter, Finset.mem_univ, true_and, Finset.mem_insert]
  constructor
  · intro h
    by_cases e : i.val = j
    · exact Or.inl (Fin.ext e)
    · exact Or.inr (by omega)
  · rintro (h | h)
    · subst h; exact Nat.le_refl _
    · omega
theorem not_mem_todo_succ (j : ℕ) (hj : j < 31) : (⟨j, hj⟩ : I31) ∉ todo (j + 1) := by
  simp only [todo, Finset.mem_filter, Finset.mem_univ, true_and]; omega

theorem done_push (j : ℕ) (hj : j < 31) : done (j + 1) = insert ⟨j, hj⟩ (done j) := by
  ext i
  simp only [done, Finset.mem_filter, Finset.mem_univ, true_and, Finset.mem_insert]
  constructor
  · intro h
    by_cases e : i.val = j
    · exact Or.inl (Fin.ext e)
    · exact Or.inr (by omega)
  · rintro (h | h)
    · subst h; exact Nat.lt_succ_self _
    · omega
theorem not_mem_done (j : ℕ) (hj : j < 31) : (⟨j, hj⟩ : I31) ∉ done j := by
  simp only [done, Finset.mem_filter, Finset.mem_univ, true_and]; omega

variable {M : Type} [URA M]

theorem bigSep_todo_peel (Φ : I31 → sProp M) (j : ℕ) (hj : j < 31) :
    bigSep (todo j) Φ = iprop(Φ ⟨j, hj⟩ ∗ bigSep (todo (j + 1)) Φ) := by
  rw [todo_peel j hj, bigSep_insert (not_mem_todo_succ j hj)]; rfl
theorem bigSep_done_push (Φ : I31 → sProp M) (j : ℕ) (hj : j < 31) :
    bigSep (done (j + 1)) Φ = iprop(Φ ⟨j, hj⟩ ∗ bigSep (done j) Φ) := by
  rw [done_push j hj, bigSep_insert (not_mem_done j hj)]; rfl

end Cert.Kernel.Hand

end
-- ==== Proof.Bits.Rows.lean ====
/-
  The receive buffer as 31 rows and the sent row as 32 shares.
  Row i of the receive buffer is the slice the kernel writes and reads it through; the rows' element sets are pairwise
  disjoint and together are the whole buffer, so holding the buffer is holding its rows, and holding some rows is
  holding the union of their element sets. A landed row holds the sender's column sums: device c writes row i of the
  device i + 1 places after it, and seen from there c is 31 - i places further on, which is what `commV` says row i holds.
  The sent row is lent to the 31 transfers at the shares `sh 0 .. sh 30`, `rem 31` staying with the device.
-/
import proofs.«900944_g7700000000000945_dist_mean_ax0_shard0_i_m1536_n768_v7x_i32_f32_1_alg».proof.Proof.Bits.Bundle
import Idealize.ShloMosaic.Lib.Pipeline.Value

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open PCS URA

variable {F : FTy → Type} [FloatOps F]

local notation "𝕄" => MT nD τ sig Unit (Elt F) ℕ UU ℕ

variable (m : (ℓ : Loc nD τ sig) → Buf (Elt F) ℓ)

/-- An element of the receive buffer lies in row `i` exactly when its first coordinate is `i`. -/
theorem mem_row (i : ℕ) (hi : i < 31) (idx : S31x768.Idx) :
    idx ∈ (rowM i hi).view.set ↔ (idx 0).val = i := by
  rw [View.set_slice_whole, Rect.mem_set_unit]
  have h1 : (idx 1).val < 768 := (idx 1).isLt
  constructor
  · intro h
    have h0 := h 0
    change i ≤ (idx 0).val ∧ (idx 0).val < i + 1 at h0
    omega
  · intro h
    refine Fin.forall_fin_two.mpr ⟨?_, ?_⟩
    · show i ≤ (idx 0).val ∧ (idx 0).val < i + 1
      omega
    · show 0 ≤ (idx 1).val ∧ (idx 1).val < 0 + 768
      omega

/-- Different rows share no element: their first coordinates differ. -/
theorem rows_disjoint (i j : I31) (h : i ≠ j) :
    Disjoint (rowM i.val i.isLt).view.set (rowM j.val j.isLt).view.set := by
  rw [View.set_slice_whole, View.set_slice_whole]
  refine Rect.unit_disjoint 0 ?_
  have : i.val ≠ j.val := fun e => h (Fin.ext e)
  show i.val + 1 ≤ j.val ∨ j.val + 1 ≤ i.val
  omega

/-- The elements of the rows in `s`. -/
def rowsSet (c : Dev nD) (s : Finset I31) : Finset (Idx ((cM : Memref sig .tc .vmem S31x768 .f32).view.loc (c : Thread nD τ))) :=
  s.biUnion fun i => (rowM i.val i.isLt).view.set

/-- Holding the rows in `s` (all at contents `f`) is holding their elements. -/
theorem rows_iff (c : Dev nD) (s : Finset I31) (f : Buf (Elt F) ((cM : Memref sig .tc .vmem S31x768 .f32).view.loc (c : Thread nD τ))) :
    (bigSep s fun i : I31 => rowPts (F := F) c i.val i.isLt f)
      ⊣⊢ ((cM : Memref sig .tc .vmem S31x768 .f32).view.loc (c : Thread nD τ) ↦[rowsSet c s]{fullShare} f : sProp 𝕄) := by
  unfold rowsSet
  rw [pointsTo_biUnion s _ (fun i _ j _ h => rows_disjoint i j h)]
  exact .rfl

/-- All 31 rows are the whole buffer. -/
theorem rowsSet_univ (c : Dev nD) : rowsSet c Finset.univ = Finset.univ := by
  refine Finset.eq_univ_iff_forall.mpr fun idx => ?_
  exact Finset.mem_biUnion.mpr ⟨⟨(idx 0).val, (idx 0).isLt⟩, Finset.mem_univ _, (mem_row _ _ idx).mpr rfl⟩

/-- An element of the rectangle of rows `lo .. lo + sz 0 - 1` lies in the row of its first coordinate, which is below `lo + sz 0`. -/
theorem grp_sub (c : Dev nD) (lo : ℕ) (sz : Fin 2 → ℕ) (h : ∀ a, (![lo, 0] : Fin 2 → Nat) a + sz a ≤ S31x768.size a) (b : ℕ) (hb : lo + sz 0 ≤ b) :
    (cM : Memref sig .tc .vmem S31x768 .f32).view.setOn (Rect.unit (s := S31x768) ![lo, 0] sz h).toLoadRect.set ⊆ rowsSet c (done b) := by
  intro idx hidx
  obtain ⟨x, hx, rfl⟩ := Finset.mem_map.mp hidx
  have h0 := (Rect.mem_set_unit.mp hx) 0
  change lo ≤ (x 0).val ∧ (x 0).val < lo + sz 0 at h0
  refine Finset.mem_biUnion.mpr ⟨⟨(x 0).val, (x 0).isLt⟩, ?_, (mem_row _ _ x).mpr rfl⟩
  simp only [done, Finset.mem_filter, Finset.mem_univ, true_and]
  omega

/-- The kernel's four loads of received rows read rows it has received by then: rows 0-7 after 8 rows, 8-15 after 16, 16-23 after 24, 24-30 after all 31. -/
theorem grp0_sub (c : Dev nD) :
    (cM : Memref sig .tc .vmem S31x768 .f32).view.setOn (Rect.unit (s := S31x768) ![0, 0] S8x768.size Facts₀.inb_S31x768_S8x768_0_0).toLoadRect.set ⊆ rowsSet c (done 8) :=
  grp_sub c 0 _ _ 8 (Nat.le_refl _)
theorem grp1_sub (c : Dev nD) :
    (cM : Memref sig .tc .vmem S31x768 .f32).view.setOn (Rect.unit (s := S31x768) ![8, 0] S8x768.size Facts₀.inb_S31x768_S8x768_8_0).toLoadRect.set ⊆ rowsSet c (done 16) :=
  grp_sub c 8 _ _ 16 (Nat.le_refl _)
theorem grp2_sub (c : Dev nD) :
    (cM : Memref sig .tc .vmem S31x768 .f32).view.setOn (Rect.unit (s := S31x768) ![16, 0] S8x768.size Facts₀.inb_S31x768_S8x768_16_0).toLoadRect.set ⊆ rowsSet c (done 24) :=
  grp_sub c 16 _ _ 24 (Nat.le_refl _)
theorem grp3_sub (c : Dev nD) :
    (cM : Memref sig .tc .vmem S31x768 .f32).view.setOn (Rect.unit (s := S31x768) ![24, 0] S7x768.size Facts₀.inb_S31x768_S7x768_24_0).toLoadRect.set ⊆ rowsSet c (done 31) :=
  grp_sub c 24 _ _ 31 (Nat.le_refl _)

/-- A landed row: whatever the row held, once device `c`'s sent row is written over it, it agrees on the row's elements
    with what `commV` says the receiving device's buffer holds. -/
theorem landed_row (c : Dev nD) (i : I31)
    (fd : Buf (Elt F) ((rowM i.val i.isLt).view.loc ((peer c (i.val + 1) : Dev nD) : Thread nD τ))) :
    ∀ idx ∈ (rowM i.val i.isLt).view.set,
      (rowM i.val i.isLt).view.write (Elt F) fd ((sM : Memref sig .tc .vmem S1x768 .f32).view.read (Elt F) (sendV m c)) Finset.univ idx
        = commV m (peer c (i.val + 1)) idx := by
  intro idx hidx
  obtain ⟨y, rfl⟩ := View.exists_emb_of_mem_set _ hidx
  rw [View.write_emb_of_mem _ _ (Finset.mem_univ y), cast_eq]
  -- the element of row i under the row's index y is (i, y 1)
  have hy0 : ((rowM i.val i.isLt).view.emb y 0).val = i.val := by
    show i.val + 1 * (y 0).val = i.val
    have : (y 0).val < 1 := (y 0).isLt
    omega
  have hy1 : (rowM i.val i.isLt).view.emb y 1 = y 1 :=
    Fin.ext (by show 0 + 1 * (y 1).val = (y 1).val; omega)
  show sendF (xstg m c) y = sendF (xstg m (peer (peer c (i.val + 1)) (31 - ((rowM i.val i.isLt).view.emb y 0).val)))
    (fun a => match a with | 0 => ⟨0, by decide⟩ | 1 => (rowM i.val i.isLt).view.emb y 1)
  -- seen from the device i + 1 places on, the sender 31 - i places further on is c itself
  rw [hy0, peer_back, hy1]
  congr 1
  funext a
  revert a
  refine Fin.forall_fin_two.mpr ⟨?_, rfl⟩
  exact Fin.ext (by have : (y 0).val < 1 := (y 0).isLt; show (y 0).val = 0; omega)

/-- A buffer region held whole is the shares lent to the first `n` transfers and the share `rem n` left before transfer `n`. -/
theorem shares_upto (ℓ : Loc nD τ sig) (S : Finset (Idx ℓ)) (f : Buf (Elt F) ℓ) (n : ℕ) (hn : n ≤ 31) :
    (ℓ ↦[S]{fullShare} f : sProp 𝕄)
      ⊣⊢ iprop((bigSep (done n) fun i : I31 => (ℓ ↦[S]{sh i.val} f : sProp 𝕄)) ∗ (ℓ ↦[S]{rem n} f)) := by
  induction n with
  | zero =>
    rw [done_zero, bigSep_empty]
    exact emp_sep.symm
  | succ n ih =>
    have hn' : n < 31 := by omega
    rw [bigSep_done_push _ n hn']
    -- the share left before transfer n is the share it borrows and the share left after it
    have hs : (ℓ ↦[S]{rem n} f : sProp 𝕄) ⊣⊢ iprop((ℓ ↦[S]{sh n} f) ∗ ℓ ↦[S]{rem (n + 1)} f) :=
      pointsTo_share (rem_split n)
    refine (ih (by omega)).trans ⟨?_, ?_⟩
    · iintro ⟨HB, HR⟩
      ihave H := hs.1 $$ HR
      icases H with ⟨HS, HR'⟩
      isplitr [HR']
      · isplitl [HS]
        · iexact HS
        · iexact HB
      · iexact HR'
    · iintro ⟨⟨HS, HB⟩, HR'⟩
      isplitl [HB]
      · iexact HB
      · iapply hs.2
        isplitl [HS]
        · iexact HS
        · iexact HR'

/-- The sent row, held whole, is its 31 lent shares and the share that stays. -/
theorem send_shares (c : Dev nD) (f : Buf (Elt F) ((sM : Memref sig .tc .vmem S1x768 .f32).view.loc (c : Thread nD τ))) :
    ((sM : Memref sig .tc .vmem S1x768 .f32).view.loc (c : Thread nD τ) ↦[(sM : Memref sig .tc .vmem S1x768 .f32).view.set]{fullShare} f : sProp 𝕄)
      ⊣⊢ iprop((bigSep Finset.univ fun i : I31 =>
            ((sM : Memref sig .tc .vmem S1x768 .f32).view.loc (c : Thread nD τ) ↦[(sM : Memref sig .tc .vmem S1x768 .f32).view.set]{sh i.val} f : sProp 𝕄))
          ∗ ((sM : Memref sig .tc .vmem S1x768 .f32).view.loc (c : Thread nD τ) ↦[(sM : Memref sig .tc .vmem S1x768 .f32).view.set]{rem 31} f)) := by
  have h := shares_upto (F := F) _ (sM : Memref sig .tc .vmem S1x768 .f32).view.set f 31 (Nat.le_refl _)
  rw [done_31] at h
  exact h

end Cert.Kernel.Hand

end
-- ==== Proof.Bits.Steps.lean ====
/-
  The protocol's steps on a device `c`, each once and for a symbolic row `i` (offset `i + 1`):
  the barrier signal to the device `i + 1` places on (it hands over row `30 - i` of `c`'s receive buffer, the row that
  device will write, and that `c`'s receive cell for it is at round 0); the barrier wait (all 31 other devices' rows come
  with it); the remote copy of the sent row into row `i` of that device; the wait for the row landing in `c`'s own row `i`;
  the wait for the copy's departure (the lent share of the sent row comes back).
-/
import proofs.«900944_g7700000000000945_dist_mean_ax0_shard0_i_m1536_n768_v7x_i32_f32_1_alg».proof.Proof.Bits.Rows

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (m : (ℓ : Loc nD τ sig) → Buf (Elt F) ℓ) (K : Dev nD × Fin 63 → ℕ)

theorem barPay_eq_of (t c : Dev nD) (e a : ℕ) (he : e - 1 < 31) (ha : a < 31) (h1 : peer t e = c) (h2 : e - 1 = a) :
    barPay (F := F) t e he = iprop((∃ f, rowPts c a ha f) ∗ reached ER (rcvCell c a ha) 0) := by
  subst h1; subst h2; rfl

/-- The row device `c` hands the device `i + 1` places on is its row `30 - i`. -/
def rowBack (i : I31) : I31 := ⟨30 - i.val, sub_lt31 i⟩

/-- THE BARRIER SIGNAL at offset `i + 1`. -/
theorem sig_step {α : Type} {Q : α → sProp 𝕄} {k : PUnit → Prog (TpuEff nD τ sig (Elt F) Λ₀ .tc) α} (c : Dev nD) (i : I31) (W : Waits sig Unit) (Orest : CellTallies nD τ sig Unit) :
    iprop(invs m K c ∗ owes (c : Thread nD τ) (Orest + OsigLast c (31 - i.val)) W
        ∗ dutyTok ER (barCell (peer c (i.val + 1))) 0 (dutyE i)
        ∗ (∃ f, rowPts (F := F) c (30 - i.val) (sub_lt31 i) f))
      ⊢ iprop((owes (c : Thread nD τ) (Orest + OsigLast c (30 - i.val)) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((peer c (i.val + 1) : Dev nD) : Thread nD τ) barS 1) k) Q) := by
  iintro ⟨#HI, HO, Htok, Hrow⟩
  ihave #Hi := (invs_at m K c i) $$ HI
  ihave #Hb := (invs_at m K c (rowBack i)) $$ HI
  unfold invAt
  icases Hi with ⟨-, -, #HIbarP, -, #HrBP, -, -⟩
  icases Hb with ⟨-, -, -, -, -, -, #HrV⟩
  iapply (Rounds.wp_signal 𝒱₀ ER (ringRd m) (c : Thread nD τ) none (dst := ((peer c (i.val + 1) : Dev nD) : Thread nD τ)) (κ := K (peer c (i.val + 1), 0))
      (d := dutyE i) (by rw [duties_bar]; exact Finset.mem_erase.mpr ⟨dutyE_ne_zero i, Finset.mem_univ _⟩)
      (amount_bar m (peer c (i.val + 1)) (dutyE i)) ()
      (O₀ := Orest + OsigLast c (31 - i.val)) (Orest + OsigLast c (30 - i.val)) (by rw [Osig_peel c i]; exact (add_assoc _ _ _).symm)) $$ [HO Htok Hrow]
  · isplitr; · iexact HIbarP
    isplitl [HO]; · iexact HO
    isplitl [Htok]; · iexact Htok
    isplitl [Hrow]
    · rw [payload_bar, barPay_eq_of (F := F) (peer c (i.val + 1)) c (dutyE i).val (30 - i.val) _ (sub_lt31 i) (peer_back c i)
        (by rw [dutyE_val]; have := i.isLt; omega)]
      isplitl [Hrow]; · iexact Hrow
      iexact HrV
    · iexact HrBP

/-! ## The barrier wait -/

/-- Row `i` is the barrier duty `i + 1`. -/
def dutyOf : I31 ↪ DN :=
  ⟨fun i => ⟨i.val + 1, by have := i.isLt; omega⟩, fun a b h => Fin.ext (by have e : a.val + 1 = b.val + 1 := congrArg Fin.val h; omega)⟩
theorem erase_zero_eq : (Finset.univ.erase (0 : DN)) = Finset.univ.map dutyOf := by
  ext d
  simp only [Finset.mem_erase, Finset.mem_univ, and_true, Finset.mem_map, true_and]
  constructor
  · intro h
    have hd : d.val ≠ 0 := fun e => h (Fin.ext e)
    have hl := d.isLt
    exact ⟨⟨d.val - 1, by omega⟩, Fin.ext (by show d.val - 1 + 1 = d.val; omega)⟩
  · rintro ⟨i, rfl⟩ h
    have e : i.val + 1 = 0 := congrArg Fin.val h
    omega

/-- What the device `i + 1` places on hands `c`: row `i` of its receive buffer, and its receive cell `i` at round 0. -/
abbrev peerRow (c : Dev nD) (i : I31) : sProp 𝕄 :=
  iprop((∃ f, rowPts (F := F) (peer c (i.val + 1)) i.val i.isLt f) ∗ reached ER (rcvCell (peer c (i.val + 1)) i.val i.isLt) 0)

theorem bar_rest (c : Dev nD) :
    bigSep ((ringRd (F := F) m).duties (barCell c) 0 \ ∅) (fun d => (ringRd (F := F) m).payload (barCell c) 0 d)
      = bigSep Finset.univ (peerRow (F := F) c) := by
  rw [Finset.sdiff_empty, duties_bar, erase_zero_eq, bigSep_map]
  refine bigSep_congr fun i _ => ?_
  rw [payload_bar]
  exact barPay_eq_of (F := F) c (peer c (i.val + 1)) (i.val + 1) i.val _ i.isLt rfl (by omega)

/-- THE BARRIER WAIT for the 31 units, owing `O` (row credits only: `hmw`). -/
theorem barwait_step {α : Type} {Q : α → sProp 𝕄} {k : PUnit → Prog (TpuEff nD τ sig (Elt F) Λ₀ .tc) α} (c : Dev nD) (W : Waits sig Unit) (O : CellTallies nD τ sig Unit)
    (hmw : (levAts L lv : sProp 𝕄) ⊢ MayWait (c : Thread nD τ) (.reg barS) () O) :
    iprop(invs m K c ∗ levAts L lv ∗ cred (tallyAt (barCell c) () 31) ∗ owes (c : Thread nD τ) O W ∗ atPos ER (barCell c) 0 ∅ 0)
      ⊢ iprop(((owes (c : Thread nD τ) O (insert (SemLoc.reg barS, ()) W) ∗ bigSep Finset.univ (peerRow (F := F) c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 31) k) Q) := by
  iintro ⟨#HI, #Hlev, Hc, HO, Hat⟩ Hk
  ihave #HIbar := (invs_bar m K c) $$ HI
  iapply (Rounds.wp_wait_rest_token 𝒱₀ ER (ringRd m) (c : Thread nD τ) none (κ := K (c, 0))
      (wpE_semWait_eq 𝒱₀ (c : Thread nD τ) none Set.univ) (Set.mem_univ _) () (O := O) (W := W) (R := 0) (m := 0) (T := ∅)
      (by rw [expect_bar])) $$ [Hc HO Hat]
  · isplitr; · iexact HIbar
    isplitl [Hc]; · iexact Hc
    isplitl [HO]; · iexact HO
    isplitr; · iapply hmw; iexact Hlev
    iexact Hat
  iintro ⟨HO, -, -, Hpay⟩
  ihave Hp := (Entails.of_eq (bar_rest m c)) $$ Hpay
  iapply Hk
  isplitl [HO]; · iexact HO
  iexact Hp

/-! ## The remote copy -/

/-- THE REMOTE COPY at offset `i + 1`: the sent row (its share `sh i`) into row `i` of the device `i + 1` places on. -/
theorem snd_step {α : Type} {Q : α → sProp 𝕄} {k : PUnit → Prog (TpuEff nD τ sig (Elt F) Λ₀ .tc) α} (c : Dev nD) (i : I31) (W : Waits sig Unit)
    (fd : Buf (Elt F) ((rowM i.val i.isLt).view.loc ((peer c (i.val + 1) : Dev nD) : Thread nD τ)))
    {hsc : (rowM i.val i.isLt : Memref sig (Dev.tc (peer c (i.val + 1)) : Thread nD τ).2.kind .vmem S1x768 .f32).view.ref.isScScratch = false}
    {hsrc : (sM : Memref sig .tc .vmem S1x768 .f32).view.WordExact} {hdst : (rowM i.val i.isLt).view.WordExact}
    {hsem : DmaTarget.Typed .vmem (.dma (rcvS i.val i.isLt)) (.remote (Dev.tc (peer c (i.val + 1)) : Thread nD τ) (rowM i.val i.isLt) (.dma (sndS i.val i.isLt)) hsc)} :
    iprop(invs m K c ∗ sPts m c (sh i.val) ∗ rowPts (F := F) (peer c (i.val + 1)) i.val i.isLt fd
        ∗ reached ER (rcvCell (peer c (i.val + 1)) i.val i.isLt) 0
        ∗ owes (c : Thread nD τ) (OsndLast c (31 - i.val)) W
        ∗ dutyTok ER (sndCell c i.val i.isLt) 0 0 ∗ dutyTok ER (rcvCell (peer c (i.val + 1)) i.val i.isLt) 0 0)
      ⊢ iprop(((cred (tallyAt (sndCell c i.val i.isLt) () N) ∗ owes (c : Thread nD τ) (OsndLast c (30 - i.val)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc (peer c (i.val + 1)) : Thread nD τ) (rowM i.val i.isLt) (.dma (sndS i.val i.isLt)) hsc) (.dma (rcvS i.val i.isLt)) hsrc hdst hsem) k) Q) := by
  iintro ⟨#HI, Hs, Hrow, #HrV, HO, HtS, HtV⟩
  ihave #Hi := (invs_at m K c i) $$ HI
  unfold invAt
  icases Hi with ⟨#HIsnd, -, -, #HIrcvP, -, #HrS, -⟩
  unfold sPts rowPts
  iapply (Rounds.wp_send_pointsTo 𝒱₀ ER (ringRd m) (c : Thread nD τ) none (κ₁ := K (c, kS i)) (κ₂ := K (peer c (i.val + 1), kR i))
      (r₁ := 0) (r₂ := 0) (d₁ := 0) (d₂ := 0) (fd := fd)
      (by rw [duties_snd]; exact Finset.mem_singleton_self _) (by rw [duties_rcv]; exact Finset.mem_singleton_self _)
      () () N rfl (amount_snd m c i.val i.isLt 0) (amount_rcv m (peer c (i.val + 1)) i.val i.isLt 0)
      (OsndLast c (30 - i.val)) (Osnd_peel c i) (W := W)
      (by rw [payload_snd]; unfold sndPay sPts; exact BI.Entails.refl _)
      (by rw [payload_rcv]; unfold rcvPay rowPts; rw [pointsTo_congr (landed_row m c i fd)])) $$ [Hs Hrow HO HtS HtV]
  · isplitr; · iexact HIsnd
    isplitr; · iexact HIrcvP
    isplitl [Hs]; · iexact Hs
    isplitl [Hrow]; · iexact Hrow
    isplitl [HO]; · iexact HO
    isplitl [HtS]; · iexact HtS
    isplitr; · iexact HrS
    isplitl [HtV]; · iexact HtV
    iexact HrV

/-- The same, the addressed device given as the kernel computes it (`n`, with its closed form): substituted, not rewritten. -/
theorem snd_step' {α : Type} {Q : α → sProp 𝕄} {k : PUnit → Prog (TpuEff nD τ sig (Elt F) Λ₀ .tc) α} (c : Dev nD) (i : I31) (W : Waits sig Unit)
    (n : Dev nD) (hn : n = peer c (i.val + 1))
    (fd : Buf (Elt F) ((rowM i.val i.isLt).view.loc ((peer c (i.val + 1) : Dev nD) : Thread nD τ)))
    {hsc : (rowM i.val i.isLt : Memref sig (Dev.tc n : Thread nD τ).2.kind .vmem S1x768 .f32).view.ref.isScScratch = false}
    {hsrc : (sM : Memref sig .tc .vmem S1x768 .f32).view.WordExact} {hdst : (rowM i.val i.isLt).view.WordExact}
    {hsem : DmaTarget.Typed .vmem (.dma (rcvS i.val i.isLt)) (.remote (Dev.tc n : Thread nD τ) (rowM i.val i.isLt) (.dma (sndS i.val i.isLt)) hsc)} :
    iprop(invs m K c ∗ sPts m c (sh i.val) ∗ rowPts (F := F) (peer c (i.val + 1)) i.val i.isLt fd
        ∗ reached ER (rcvCell (peer c (i.val + 1)) i.val i.isLt) 0
        ∗ owes (c : Thread nD τ) (OsndLast c (31 - i.val)) W
        ∗ dutyTok ER (sndCell c i.val i.isLt) 0 0 ∗ dutyTok ER (rcvCell (peer c (i.val + 1)) i.val i.isLt) 0 0)
      ⊢ iprop(((cred (tallyAt (sndCell c i.val i.isLt) () N) ∗ owes (c : Thread nD τ) (OsndLast c (30 - i.val)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) (rowM i.val i.isLt) (.dma (sndS i.val i.isLt)) hsc) (.dma (rcvS i.val i.isLt)) hsrc hdst hsem) k) Q) := by
  subst hn
  exact snd_step m K c i W fd

/-! ## The two DMA waits -/

/-- THE WAIT FOR THE LANDING in `c`'s own row `i`: the row comes back at its landed contents. -/
theorem rcvwait_step {α : Type} {Q : α → sProp 𝕄} {k : PUnit → Prog (TpuEff nD τ sig (Elt F) Λ₀ .tc) α} (c : Dev nD) (i : I31) (W : Waits sig Unit)
    {src : Memref sig .tc .vmem S1x768 .f32} {hsrc : src.view.WordExact} {hdst : (rowM i.val i.isLt).view.WordExact} :
    iprop(invs m K c ∗ cred (tallyAt (rcvCell c i.val i.isLt) () N) ∗ owes (c : Thread nD τ) 0 W ∗ atPos ER (rcvCell c i.val i.isLt) 0 ∅ 0)
      ⊢ iprop(((owes (c : Thread nD τ) 0 (insert (SemLoc.dma (rcvS i.val i.isLt), ()) W) ∗ atPos ER (rcvCell c i.val i.isLt) 1 ∅ 0
              ∗ rowPts (F := F) c i.val i.isLt (commV m c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (rcvS i.val i.isLt) src (rowM i.val i.isLt) hsrc hdst) k) Q) := by
  iintro ⟨#HI, Hc, HO, Hat⟩ Hk
  ihave #Hi := (invs_at m K c i) $$ HI
  unfold invAt
  icases Hi with ⟨-, #HIrcv, -, -, -, -, -⟩
  iapply (Rounds.wp_wait_rest_token 𝒱₀ ER (ringRd m) (c : Thread nD τ) none (κ := K (c, kR i))
      (wpE_waitDma2_eq 𝒱₀ (c : Thread nD τ) none Set.univ) (Set.mem_univ _) () (O := 0) (W := W) (R := 0) (m := 0) (T := ∅)
      (by rw [Nat.zero_add, expect_rcv])) $$ [Hc HO Hat]
  · isplitr; · iexact HIrcv
    isplitl [Hc]; · iexact Hc
    isplitl [HO]; · iexact HO
    isplitr; · rw [MayWait_zero]; iempintro
    iexact Hat
  iintro ⟨HO, Hat, -, Hpay⟩
  ihave Hp := (Entails.of_eq (rest_rcv m c i.val i.isLt)) $$ Hpay
  iapply Hk
  isplitl [HO]; · iexact HO
  isplitl [Hat]; · iexact Hat
  unfold rcvPay; iexact Hp

/-- THE WAIT FOR THE DEPARTURE of copy `i`: the lent share of the sent row comes back. -/
theorem sndwait_step {α : Type} {Q : α → sProp 𝕄} {k : PUnit → Prog (TpuEff nD τ sig (Elt F) Λ₀ .tc) α} (c : Dev nD) (i : I31) (W : Waits sig Unit)
    {src : Memref sig .tc .vmem S1x768 .f32} {hsrc : src.view.WordExact} {hdst : (sM : Memref sig .tc .vmem S1x768 .f32).view.WordExact} :
    iprop(invs m K c ∗ cred (tallyAt (sndCell c i.val i.isLt) () N) ∗ owes (c : Thread nD τ) 0 W ∗ atPos ER (sndCell c i.val i.isLt) 0 ∅ 0)
      ⊢ iprop(((owes (c : Thread nD τ) 0 (insert (SemLoc.dma (sndS i.val i.isLt), ()) W) ∗ atPos ER (sndCell c i.val i.isLt) 1 ∅ 0
              ∗ sPts m c (sh i.val))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sndS i.val i.isLt) src sM hsrc hdst) k) Q) := by
  iintro ⟨#HI, Hc, HO, Hat⟩ Hk
  ihave #Hi := (invs_at m K c i) $$ HI
  unfold invAt
  icases Hi with ⟨#HIsnd, -, -, -, -, -, -⟩
  iapply (Rounds.wp_wait_rest_token 𝒱₀ ER (ringRd m) (c : Thread nD τ) none (κ := K (c, kS i))
      (wpE_waitDma2_eq 𝒱₀ (c : Thread nD τ) none Set.univ) (Set.mem_univ _) () (O := 0) (W := W) (R := 0) (m := 0) (T := ∅)
      (by rw [Nat.zero_add, expect_snd])) $$ [Hc HO Hat]
  · isplitr; · iexact HIsnd
    isplitl [Hc]; · iexact Hc
    isplitl [HO]; · iexact HO
    isplitr; · rw [MayWait_zero]; iempintro
    iexact Hat
  iintro ⟨HO, Hat, -, Hpay⟩
  ihave Hp := (Entails.of_eq (rest_snd m c i.val i.isLt)) $$ Hpay
  iapply Hk
  isplitl [HO]; · iexact HO
  isplitl [Hat]; · iexact Hat
  unfold sndPay; iexact Hp

end Cert.Kernel.Hand

end
-- ==== Proof.Bits.Devs.lean ====
/-
  The 62 device chains of the kernel, in closed form: the signal at offset k (chains 1 to 31) and the remote copy at
  offset k (chains 32 to 62) both address the device k places after this one on the ring of 32. Each chain is the
  kernel's word arithmetic `(me + k) mod 32`; over the 32 devices of the mesh each equation is decided.
-/
import proofs.«900944_g7700000000000945_dist_mean_ax0_shard0_i_m1536_n768_v7x_i32_f32_1_alg».proof.Proof.Bits.Proto

set_option Elab.async false

namespace Cert.Kernel.Hand

open Cert.Kernel Cert.Kernel.Gen
open Idealize.ShloMosaic Idealize.SL.Sem
open Lean Elab Command

/-- For K = 1..62 states and proves `devK_eq : ⟨k0_devK c, _⟩ = peer c k`, k = K for a signal's chain and K - 31 for a
    copy's, by deciding `k0_devK c = (c + k) mod 32` over the mesh. -/
elab "ring_device_equations" : command => do
  for K in [1:63] do
    let k : Nat := if K ≤ 31 then K else K - 31
    let chain := mkIdent (Name.mkSimple s!"k0_dev{K}")
    let chainLt := mkIdent (Name.mkSimple s!"k0_dev{K}_lt")
    let valName := mkIdent (Name.mkSimple s!"k0_dev{K}_val")
    let eqName := mkIdent (Name.mkSimple s!"dev{K}_eq")
    let kq := Syntax.mkNumLit (toString k)
    elabCommand (← `(theorem $valName : ∀ c : Dev nD, $chain c = (c.val + $kq) % 32 := by decide +kernel))
    elabCommand (← `(@[sl_canon] theorem $eqName (c : Dev nD) : (⟨$chain c, $chainLt c⟩ : Dev nD) = peer c $kq := Fin.ext ($valName c)))

ring_device_equations

end Cert.Kernel.Hand
-- ==== Proof.Bits.Credit.lean ====
/-
  What the 32 devices owe one another at launch, added up per cell: every barrier cell is owed one unit by each of the
  31 other devices, every receive cell one row's credit by the one device that writes that row; and the level facts a
  device's waits need (it waits on staging semaphores owing anything, on its barrier owing row credits only).
-/
import proofs.«900944_g7700000000000945_dist_mean_ax0_shard0_i_m1536_n768_v7x_i32_f32_1_alg».proof.Proof.Bits.Data

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

variable {F : FTy → Type} [FloatOps F]

local notation "𝕄" => MT nD τ sig Unit (Elt F) ℕ UU ℕ

/-! ## Where a device owes: barrier cells and receive cells of devices on its ring, nowhere else -/

/-- The barrier units a device owes sit on barrier cells of devices on its ring. -/
theorem Osig_pos {c : Dev nD} {g : GSem nD τ sig} {u : Unit} : ∀ n, 0 < OsigLast c n g u → ∃ k, g = barCell (peer c k)
  | 0, h => absurd h (Nat.lt_irrefl 0)
  | n + 1, h => by
    change 0 < (OsigLast c n + tallyAt (barCell (peer c (31 - n))) () 1) g u at h
    rw [Pi.add_apply, Finsupp.add_apply] at h
    rcases Nat.eq_zero_or_pos (OsigLast c n g u) with h0 | h0
    · rw [h0, Nat.zero_add] at h
      exact ⟨_, (Pipeline.tallyAt_pos h).1⟩
    · exact Osig_pos n h0

/-- The row credits a device owes sit on receive cells of devices on its ring. -/
theorem Osnd_pos {c : Dev nD} {g : GSem nD τ sig} {u : Unit} :
    ∀ n, 0 < OsndLast c n g u → ∃ k i, ∃ hi : i < 31, g = rcvCell (peer c k) i hi
  | 0, h => absurd h (Nat.lt_irrefl 0)
  | n + 1, h => by
    change 0 < (OsndLast c n + (if h : 30 - n < 31 then tallyAt (rcvCell (peer c (31 - n)) (30 - n) h) () N else 0)) g u at h
    rw [Pi.add_apply, Finsupp.add_apply, dif_pos (by omega)] at h
    rcases Nat.eq_zero_or_pos (OsndLast c n g u) with h0 | h0
    · rw [h0, Nat.zero_add] at h
      exact ⟨_, _, _, (Pipeline.tallyAt_pos h).1⟩
    · exact Osnd_pos n h0

/-- Any mix of the two kinds of dues is positive only at such a cell. -/
theorem owes_pos {c : Dev nD} {g : GSem nD τ sig} {u : Unit} (n n' : ℕ) (h : 0 < (OsndLast c n + OsigLast c n') g u) :
    (∃ k, g = barCell (peer c k)) ∨ ∃ k i, ∃ hi : i < 31, g = rcvCell (peer c k) i hi := by
  rw [Pi.add_apply, Finsupp.add_apply] at h
  rcases Nat.eq_zero_or_pos (OsndLast c n g u) with h0 | h0
  · rw [h0, Nat.zero_add] at h
    exact Or.inl (Osig_pos n' h)
  · exact Or.inr (Osnd_pos n h0)

/-- A staging semaphore (numbered 0 or 1) is at level 0. -/
theorem semLevel_stage (q : DmaSem sig) (hq : q.val < 2) : semLevel (.dma q : SemLoc sig) = 0 := by
  show (if 33 ≤ q.val then 2 else 0) = 0
  rw [if_neg (by omega)]

/-- A wait on a staging semaphore (level 0), owing everything or nothing. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => ?_) (fun p hp => ?_) (fun g u hg => ?_)
    · rcases owes_pos 31 31 hg with ⟨k, rfl⟩ | ⟨k, i, hi, rfl⟩ <;> exact Finset.mem_singleton_self _
    · rw [Finset.mem_singleton.mp hp]
      exact Nat.le_of_eq (semLevel_stage q hq)
    · rcases owes_pos 31 31 hg with ⟨k, rfl⟩ | ⟨k, i, hi, rfl⟩
      · show 0 < lv (barCell (peer c k)) ()
        rw [lv_bar]; exact Nat.one_pos
      · show 0 < lv (rcvCell (peer c k) i hi) ()
        rw [lv_rcv]; exact Nat.two_pos
  · rw [MayWait_zero]; iintro -; iempintro

/-- At its barrier wait a device owes row credits only: receive cells, above its barrier cell. -/
theorem mayWait_bar (c : Dev nD) :
    (levAts L lv : sProp 𝕄) ⊢ MayWait (c : Thread nD τ) (.reg barS) () (OsndLast c 31 + OsigLast c 0) := by
  have hpos : ∀ (g : GSem nD τ sig) (u : Unit), 0 < (OsndLast c 31 + OsigLast c 0) g u → ∃ k i, ∃ hi : i < 31, g = rcvCell (peer c k) i hi :=
    fun g u hg => by
      rcases owes_pos 31 0 hg with ⟨k, hk⟩ | h
      · rw [Pi.add_apply, Finsupp.add_apply] at hg
        rcases Nat.eq_zero_or_pos (OsndLast c 31 g u) with h0 | h0
        · rw [h0, Nat.zero_add] at hg; exact absurd hg (Nat.lt_irrefl 0)
        · exact Osnd_pos 31 h0
      · exact h
  refine MayOwe.of_cut (L := L) (lev := lv) 1
    (fun p hp => by rw [Finset.mem_singleton.mp hp, L_tc]; exact Finset.mem_singleton_self _)
    (fun g u hg => ?_) (fun p hp => ?_) (fun g u hg => ?_)
  · obtain ⟨k, i, hi, rfl⟩ := hpos g u hg
    exact Finset.mem_singleton_self _
  · rw [Finset.mem_singleton.mp hp]
    exact Nat.le_of_eq (lv_bar c)
  · obtain ⟨k, i, hi, rfl⟩ := hpos g u hg
    show 1 < lv (rcvCell (peer c k) i hi) ()
    rw [lv_rcv]; exact Nat.one_lt_two

/-! ## The dues added up per cell -/

/-- How many places after `d` the device `c` sits on the ring. -/
def off (d c : Dev nD) : ℕ := (c.val + 32 - d.val) % 32

theorem off_lt (d c : Dev nD) : off d c < 32 := Nat.mod_lt _ (by decide)

/-- Within one turn, `c` is `k` places after `d` exactly when `k` is that offset. -/
theorem peer_eq_iff (d c : Dev nD) (k : ℕ) (hk : k < 32) : peer d k = c ↔ k = off d c := by
  have hd : d.val < 32 := d.isLt
  have hc : c.val < 32 := c.isLt
  unfold off
  rw [Fin.ext_iff, peer_val]
  omega

/-- Cells of different devices differ; receive cells of different rows differ. -/
theorem bar_eq_iff {a b : Dev nD} : barCell a = barCell b ↔ a = b :=
  ⟨fun h => Fin.ext (congrArg (fun g : GSem nD τ sig => g.1.1.val) h), fun h => h ▸ rfl⟩

theorem rcv_eq_iff {a b : Dev nD} {i j : ℕ} {hi : i < 31} {hj : j < 31} : rcvCell a i hi = rcvCell b j hj ↔ a = b ∧ i = j := by
  constructor
  · intro h
    have h1 : a = b := Fin.ext (congrArg (fun g : GSem nD τ sig => g.1.1.val) h)
    have h2 : (SemLoc.dma (rcvS i hi) : SemLoc sig) = .dma (rcvS j hj) := congrArg Prod.snd h
    have h3 : (rcvS i hi).val = (rcvS j hj).val := congrArg (fun s : DmaSem sig => s.val) (SemLoc.dma.inj h2)
    rw [rcvS_val, rcvS_val] at h3
    exact ⟨h1, by omega⟩
  · rintro ⟨rfl, rfl⟩; rfl

/-- One barrier unit owed `k` places on, read at `c`'s barrier cell. -/
theorem bar_tally (d c : Dev nD) (k : ℕ) (hk : k < 32) :
    tallyAt (barCell (peer d k)) () 1 (barCell c) () = if k = off d c then 1 else 0 := by
  rw [tallyAt_apply]
  by_cases h : k = off d c
  · rw [if_pos h, if_pos ⟨bar_eq_iff.mpr ((peer_eq_iff d c k hk).mpr h).symm, rfl⟩]
  · rw [if_neg h, if_neg fun h' => h ((peer_eq_iff d c k hk).mp (bar_eq_iff.mp h'.1).symm)]

/-- One row credit owed to row `j` of the device `k` places on, read at row `i` of `c`. -/
theorem rcv_tally (d c : Dev nD) (i j k : ℕ) (hi : i < 31) (hj : j < 31) (hk : k < 32) :
    tallyAt (rcvCell (peer d k) j hj) () N (rcvCell c i hi) () = if i = j ∧ k = off d c then N else 0 := by
  rw [tallyAt_apply]
  by_cases h : i = j ∧ k = off d c
  · rw [if_pos h, if_pos ⟨rcv_eq_iff.mpr ⟨((peer_eq_iff d c k hk).mpr h.2).symm, h.1⟩, rfl⟩]
  · rw [if_neg h, if_neg fun h' => h ⟨(rcv_eq_iff.mp h'.1).2, (peer_eq_iff d c k hk).mp (rcv_eq_iff.mp h'.1).1.symm⟩]

/-- The last `n` barrier signals of `d` reach `c` exactly when `c` is among the last `n` offsets. -/
theorem Osig_bar (d c : Dev nD) : ∀ n, n ≤ 32 → OsigLast d n (barCell c) () = if 32 - n ≤ off d c then 1 else 0
  | 0, _ => by
    have ho := off_lt d c
    rw [if_neg (by omega)]; rfl
  | n + 1, hn => by
    have ho := off_lt d c
    show (OsigLast d n + tallyAt (barCell (peer d (31 - n))) () 1) (barCell c) () = _
    rw [Pi.add_apply, Finsupp.add_apply, Osig_bar d c n (by omega), bar_tally d c _ (by omega)]
    by_cases h : 31 - n = off d c
    · rw [if_pos h, if_neg (by omega), if_pos (by omega)]
    · rw [if_neg h, Nat.add_zero]
      by_cases h2 : 32 - n ≤ off d c
      · rw [if_pos h2, if_pos (by omega)]
      · rw [if_neg h2, if_neg (by omega)]

/-- The last `n` row credits of `d` reach row `i` of `c` exactly when `c` sits `i + 1` places after `d` and row `i` is among them. -/
theorem Osnd_rcv (d c : Dev nD) (i : ℕ) (hi : i < 31) :
    ∀ n, n ≤ 31 → OsndLast d n (rcvCell c i hi) () = if 31 - n ≤ i ∧ i + 1 = off d c then N else 0
  | 0, _ => by rw [if_neg (by omega)]; rfl
  | n + 1, hn => by
    show (OsndLast d n + (if h : 30 - n < 31 then tallyAt (rcvCell (peer d (31 - n)) (30 - n) h) () N else 0)) (rcvCell c i hi) () = _
    rw [Pi.add_apply, Finsupp.add_apply, Osnd_rcv d c i hi n (by omega), dif_pos (by omega), rcv_tally d c i _ _ hi _ (by omega)]
    by_cases h : i = 30 - n ∧ 31 - n = off d c
    · rw [if_pos h, if_neg (by omega), if_pos (by omega), Nat.zero_add]
    · rw [if_neg h, Nat.add_zero]
      by_cases h2 : 31 - n ≤ i ∧ i + 1 = off d c
      · rw [if_pos h2, if_pos (by omega)]
      · rw [if_neg h2, if_neg (by omega)]

/-- No barrier unit lands on a receive cell, no row credit on a barrier cell. -/
theorem Osig_rcv (d c : Dev nD) (i : ℕ) (hi : i < 31) (n : ℕ) : OsigLast d n (rcvCell c i hi) () = 0 :=
  Nat.eq_zero_of_not_pos fun h => by
    obtain ⟨k, hk⟩ := Osig_pos n h
    exact rcv_ne_bar i hi (congrArg Prod.snd hk)

theorem Osnd_bar (d c : Dev nD) (n : ℕ) : OsndLast d n (barCell c) () = 0 :=
  Nat.eq_zero_of_not_pos fun h => by
    obtain ⟨k, i, hi, hk⟩ := Osnd_pos n h
    exact rcv_ne_bar i hi (congrArg Prod.snd hk).symm

/-- What device `d` owes device `c`'s barrier cell: one unit unless `d` is `c` itself. -/
theorem owed_bar (d c : Dev nD) : O₀ d (barCell c) () = if d ≠ c then 1 else 0 := by
  unfold O₀
  rw [Pi.add_apply, Finsupp.add_apply, Osnd_bar, Nat.zero_add, Osig_bar d c 31 (by omega)]
  have hd : d.val < 32 := d.isLt
  have hc : c.val < 32 := c.isLt
  have hiff : (32 - 31 ≤ off d c) ↔ d ≠ c := by
    unfold off; rw [Ne, Fin.ext_iff]; omega
  by_cases h : d ≠ c
  · rw [if_pos h, if_pos (hiff.mpr h)]
  · rw [if_neg h, if_neg fun h' => h (hiff.mp h')]

/-- What device `d` owes row `i` of device `c`: the row's credit when `d` is the device that writes that row. -/
theorem owed_rcv (d c : Dev nD) (i : ℕ) (hi : i < 31) : O₀ d (rcvCell c i hi) () = if d = peer c (31 - i) then N else 0 := by
  unfold O₀
  rw [Pi.add_apply, Finsupp.add_apply, Osig_rcv, Nat.add_zero, Osnd_rcv d c i hi 31 (by omega)]
  have hd : d.val < 32 := d.isLt
  have hc : c.val < 32 := c.isLt
  have hiff : (31 - 31 ≤ i ∧ i + 1 = off d c) ↔ d = peer c (31 - i) := by
    unfold off; rw [Fin.ext_iff, peer_val]; omega
  by_cases h : d = peer c (31 - i)
  · rw [if_pos h, if_pos (hiff.mpr h)]
  · rw [if_neg h, if_neg fun h' => h (hiff.mp h')]

/-- Every device but `c` itself: 31 of them. -/
theorem sum_others (c : Dev nD) : (∑ d : Dev nD, if d ≠ c then 1 else 0) = 31 := by
  rw [← Finset.add_sum_erase Finset.univ _ (Finset.mem_univ c), if_neg (fun h => h rfl), Nat.zero_add,
    Finset.sum_congr rfl (fun d hd => if_pos (Finset.ne_of_mem_erase hd)), Finset.sum_const, Finset.card_erase_of_mem (Finset.mem_univ _),
    Finset.card_univ, Fintype.card_fin, smul_eq_mul]
  rfl

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, sum_others]

theorem launch_rcv (c : Dev nD) (i : ℕ) (hi : i < 31) :
    tallyOn (rcvCell c i hi) (launchCredit (Pipeline.owing O₀) 0 (rcvCell c i hi)) = (tallyAt (rcvCell c i hi) () N : CellTallies nD τ sig Unit) := by
  unfold tallyAt; refine congrArg _ (Finsupp.ext fun u => ?_); cases u
  rw [Pipeline.launchCredit_owing, Finsupp.single_eq_same, Finset.sum_congr rfl fun d _ => owed_rcv d c i hi,
    Finset.sum_ite_eq' Finset.univ (peer c (31 - i)) fun _ => N, if_pos (Finset.mem_univ _)]

/-- The receive semaphores, one per row, are distinct. -/
def rcvEmb : I31 ↪ SemLoc sig :=
  ⟨fun i => .dma (rcvS i.val i.isLt), fun i j h => by
    have h3 : (rcvS i.val i.isLt).val = (rcvS j.val j.isLt).val := congrArg (fun s : DmaSem sig => s.val) (SemLoc.dma.inj h)
    rw [rcvS_val, rcvS_val] at h3
    exact Fin.ext (by omega)⟩

/-- The credit dealt to device `c` at launch: 31 units on its barrier cell, one row's credit on each receive cell. -/
theorem creds (c : Dev nD) :
    (Pipeline.launchCred O₀ c : sProp 𝕄)
      ⊢ iprop(cred (tallyAt (barCell c) () 31) ∗ bigSep Finset.univ fun i : I31 => cred (tallyAt (rcvCell c i.val i.isLt) () N)) := by
  unfold Pipeline.launchCred
  rw [bigSep_univ_at _ (SemLoc.reg barS), launch_bar]
  refine sep_mono_right ?_
  refine (bigSep_subset (t := Finset.univ.map rcvEmb) fun sm hsm => ?_).trans ?_
  · obtain ⟨i, -, rfl⟩ := Finset.mem_map.mp hsm
    exact Finset.mem_erase.mpr ⟨rcv_ne_bar i.val i.isLt, Finset.mem_univ _⟩
  · rw [bigSep_map]
    refine bigSep_mono fun i _ => ?_
    show cred (tallyOn (rcvCell c i.val i.isLt) (launchCredit (Pipeline.owing O₀) 0 (rcvCell c i.val i.isLt))) ⊢ _
    rw [launch_rcv]

end Cert.Kernel.Hand

end
-- ==== Proof.Bits.BodyDefs.lean ====
/-
  One device's body, run once at a symbolic device `c`: the 31 barrier signals, the column sums stored in the sent row,
  the barrier wait, the 31 remote copies, the running total over the own row and the four groups of received rows
  (each read after its rows' landings are waited for), the scaled result stored, the 31 departures waited for.
-/
import proofs.«900944_g7700000000000945_dist_mean_ax0_shard0_i_m1536_n768_v7x_i32_f32_1_alg».proof.Proof.Bits.Steps
import proofs.«900944_g7700000000000945_dist_mean_ax0_shard0_i_m1536_n768_v7x_i32_f32_1_alg».proof.Proof.Bits.Devs
import proofs.«900944_g7700000000000945_dist_mean_ax0_shard0_i_m1536_n768_v7x_i32_f32_1_alg».proof.Proof.Bits.Credit
import Idealize.ShloMosaic.Lib.Tactic

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 63 → ℕ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The bundles the body carries, each over the rows not yet handled -/

/-- for the signal at offset `i + 1`: its token, and the row `30 - i` it hands over -/
abbrev sigΦ (c : Dev nD) (i : I31) : sProp 𝕄 :=
  iprop(dutyTok ER (barCell (peer c (i.val + 1))) 0 (dutyE i) ∗ (∃ f, rowPts (F := F) c (30 - i.val) (sub_lt31 i) f))
/-- for the copy at offset `i + 1`: the peer's row and its cell's round, the lent share, the two tokens -/
abbrev sndΦ (c : Dev nD) (i : I31) : sProp 𝕄 :=
  iprop(peerRow (F := F) c i ∗ sPts m c (sh i.val) ∗ dutyTok ER (sndCell c i.val i.isLt) 0 0 ∗ dutyTok ER (rcvCell (peer c (i.val + 1)) i.val i.isLt) 0 0)
/-- for the landing in row `i`: its credit and the receive cell's position -/
abbrev rcvΦ (c : Dev nD) (i : I31) : sProp 𝕄 := iprop(cred (tallyAt (rcvCell c i.val i.isLt) () N) ∗ atPos ER (rcvCell c i.val i.isLt) 0 ∅ 0)
/-- for the departure of copy `i`: its credit and the send cell's position -/
abbrev swΦ (c : Dev nD) (i : I31) : sProp 𝕄 := iprop(cred (tallyAt (sndCell c i.val i.isLt) () N) ∗ atPos ER (sndCell c i.val i.isLt) 0 ∅ 0)

/-- what the steps leave behind, over the rows handled so far: departure credits, landed rows, the cells' new positions, returned shares -/
abbrev crSΦ (c : Dev nD) (i : I31) : sProp 𝕄 := cred (tallyAt (sndCell c i.val i.isLt) () N)
abbrev rowΦ (c : Dev nD) (i : I31) : sProp 𝕄 := rowPts c i.val i.isLt (commV m c)
abbrev posV1 (c : Dev nD) (i : I31) : sProp 𝕄 := atPos ER (rcvCell c i.val i.isLt) 1 ∅ 0
abbrev shΦ (c : Dev nD) (i : I31) : sProp 𝕄 := sPts m c (sh i.val)
abbrev posS1 (c : Dev nD) (i : I31) : sProp 𝕄 := atPos ER (sndCell c i.val i.isLt) 1 ∅ 0

def bodyPre (c : Dev nD) : sProp 𝕄 :=
  iprop((ghost m K c ∗ cred (tallyAt (barCell c) () 31) ∗ (bigSep Finset.univ fun i : I31 => cred (tallyAt (rcvCell c i.val i.isLt) () N)) ∗ levAts L lv
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m c) ∗ stg c cc0_stg1_0 (outV m c))

theorem lin_split (c : Dev nD) :
    (bigSep Finset.univ fun i : I31 => linAt (F := F) c i)
      = iprop((bigSep Finset.univ fun i : I31 => atPos ER (sndCell c i.val i.isLt) 0 ∅ 0)
          ∗ (bigSep Finset.univ fun i : I31 => atPos ER (rcvCell c i.val i.isLt) 0 ∅ 0)
          ∗ (bigSep Finset.univ fun i : I31 => dutyTok ER (barCell (peer c (i.val + 1))) 0 (dutyE i))
          ∗ (bigSep Finset.univ fun i : I31 => dutyTok ER (sndCell c i.val i.isLt) 0 0)
          ∗ (bigSep Finset.univ fun i : I31 => dutyTok ER (rcvCell (peer c (i.val + 1)) i.val i.isLt) 0 0)) := by
  unfold linAt
  rw [bigSep_sep', bigSep_sep', bigSep_sep', bigSep_sep']

/-- Row `i` and row `30 - i` trade places. -/
def revE : I31 ≃ I31 where
  toFun := rowBack
  invFun := rowBack
  left_inv i := Fin.ext (by show 30 - (30 - i.val) = i.val; have := i.isLt; omega)
  right_inv i := Fin.ext (by show 30 - (30 - i.val) = i.val; have := i.isLt; omega)

/-- The receive buffer, held whole, cut into the 31 rows the 31 signals hand over (signal `i` hands row `30 - i`). -/
theorem sig_bundle (c : Dev nD) (f : Buf (Elt F) ((c : Thread nD τ).loc cc0_scratch1)) :
    iprop((bigSep Finset.univ fun i : I31 => dutyTok ER (barCell (peer c (i.val + 1))) 0 (dutyE i)) ∗ (((c : Thread nD τ).loc cc0_scratch1) ↦{fullShare} f))
      ⊢ (bigSep (todo 0) (sigΦ (F := F) c) : sProp 𝕄) := by
  rw [todo_zero]; rw [bigSep_sep']
  iintro ⟨Ht, Hc⟩
  isplitl [Ht]; · iexact Ht
  ihave Hr := (rows_iff (F := F) c Finset.univ f).2 $$ [Hc]
  · rw [rowsSet_univ]; iexact Hc
  ihave Hr' := (Entails.of_eq (bigSep_univ_equiv revE (fun i : I31 => rowPts (F := F) c i.val i.isLt f))) $$ Hr
  have h1 : ∀ i : I31, rowPts (F := F) c (revE i).val (revE i).isLt f ⊢ (iprop(∃ f, rowPts (F := F) c (30 - i.val) (sub_lt31 i) f) : sProp 𝕄) :=
    fun i => by iintro H; iexists f; iexact H
  have hm : (bigSep Finset.univ fun i : I31 => rowPts (F := F) c (revE i).val (revE i).isLt f)
      ⊢ (bigSep Finset.univ fun i : I31 => iprop(∃ f, rowPts (F := F) c (30 - i.val) (sub_lt31 i) f) : sProp 𝕄) :=
    bigSep_mono fun i _ => h1 i
  iapply hm; iexact Hr'

set_option hygiene false in
/-- the barrier signal at offset `i + 1`, then the run resumed -/
macro "sig_at " i:num : tactic => `(tactic| (
  ihave Hpeel := (Entails.of_eq (bigSep_todo_peel (sigΦ c) $i (by decide))) $$ Hsig
  icases Hpeel with ⟨⟨Htok, Hrow⟩, Hsig⟩
  iapply (sig_step m K c ⟨$i, by decide⟩ W (OsndLast c 31)) $$ [HO Htok Hrow]
  · isplitr; · iexact HI
    isplitl [HO]; · iexact HO
    isplitl [Htok]; · iexact Htok
    iexact Hrow
  iintro HO
  first | sl_exec | (rw [ret_bind_fn]; sl_exec) | skip))

set_option hygiene false in
/-- the remote copy at offset `i + 1`, its departure credit kept, then the run resumed -/
macro "snd_at " i:num h:term : tactic => `(tactic| (
  ihave Hpeel := (Entails.of_eq (bigSep_todo_peel (sndΦ m c) $i (by decide))) $$ Hsnd
  icases Hpeel with ⟨⟨⟨⟨%fd, Hrow⟩, #HrV⟩, Hsh, HtSi, HtVi⟩, Hsnd⟩
  iapply (snd_step' m K c ⟨$i, by decide⟩ _ _ $h fd) $$ [Hsh Hrow HO HtSi HtVi]
  · isplitr; · iexact HI
    isplitl [Hsh]; · iexact Hsh
    isplitl [Hrow]; · iexact Hrow
    isplitr; · iexact HrV
    isplitl [HO]; · iexact HO
    isplitl [HtSi]; · iexact HtSi
    iexact HtVi
  iintro ⟨Hcr, HO⟩
  ihave Hcs := (Entails.of_eq (bigSep_done_push (crSΦ c) $i (by decide)).symm) $$ [Hcr Hcs]
  · isplitl [Hcr]; · iexact Hcr
    iexact Hcs
  first | sl_exec | (rw [ret_bind_fn]; sl_exec) | skip))

set_option hygiene false in
/-- the wait for row `i`'s landing: the row and the cell's new position kept, then the run resumed -/
macro "rcv_at " i:num : tactic => `(tactic| (
  ihave Hpeel := (Entails.of_eq (bigSep_todo_peel (rcvΦ c) $i (by decide))) $$ Hrcv
  icases Hpeel with ⟨⟨Hcr, Hat⟩, Hrcv⟩
  iapply (rcvwait_step m K c ⟨$i, by decide⟩ _) $$ [Hcr HO Hat]
  · isplitr; · iexact HI
    isplitl [Hcr]; · iexact Hcr
    isplitl [HO]; · iexact HO
    iexact Hat
  iintro ⟨HO, Hat, Hrow⟩
  ihave Hrows := (Entails.of_eq (bigSep_done_push (rowΦ m c) $i (by decide)).symm) $$ [Hrow Hrows]
  · isplitl [Hrow]; · iexact Hrow
    iexact Hrows
  ihave HatV1 := (Entails.of_eq (bigSep_done_push (posV1 c) $i (by decide)).symm) $$ [Hat HatV1]
  · isplitl [Hat]; · iexact Hat
    iexact HatV1
  first | sl_exec | (rw [ret_bind_fn]; sl_exec) | skip))

set_option hygiene false in
/-- the wait for copy `i`'s departure: the lent share and the cell's new position kept, then the run resumed -/
macro "sw_at " i:num : tactic => `(tactic| (
  ihave Hpeel := (Entails.of_eq (bigSep_todo_peel (swΦ c) $i (by decide))) $$ Hsw
  icases Hpeel with ⟨⟨Hcr, Hat⟩, Hsw⟩
  iapply (sndwait_step m K c ⟨$i, by decide⟩ _) $$ [Hcr HO Hat]
  · isplitr; · iexact HI
    isplitl [Hcr]; · iexact Hcr
    isplitl [HO]; · iexact HO
    iexact Hat
  iintro ⟨HO, Hat, Hshi⟩
  ihave Hshs := (Entails.of_eq (bigSep_done_push (shΦ m c) $i (by decide)).symm) $$ [Hshi Hshs]
  · isplitl [Hshi]; · iexact Hshi
    iexact Hshs
  ihave HatS1 := (Entails.of_eq (bigSep_done_push (posS1 c) $i (by decide)).symm) $$ [Hat HatS1]
  · isplitl [Hat]; · iexact Hat
    iexact HatS1
  first | sl_exec | (rw [ret_bind_fn]; sl_exec) | skip))

set_option hygiene false in
/-- a load of received rows, after `n` rows have landed: the rows held are read through the region they make up -/
macro "grp_load " n:num h:term : tactic => `(tactic| (
  ihave Hreg := (rows_iff c (done $n) (commV m c)).1 $$ Hrows
  iapply (wp_load 𝒱₀ (c : Thread nD τ) none Set.univ (m := (cM : Memref sig .tc .vmem S31x768 .f32)) $h) $$ Hreg
  iintro Hreg
  ihave Hrows := (rows_iff c (done $n) (commV m c)).2 $$ Hreg
  first | sl_exec | (rw [ret_bind_fn]; sl_exec) | skip))

open Lean Elab Tactic in
/-- `rows_do sig lo hi` / `rows_do snd lo hi` / …: the step for rows `lo .. hi - 1`, in order. -/
elab "rows_do " kind:ident lo:num hi:num : tactic => do
  for i in [lo.getNat:hi.getNat] do
    let n := Syntax.mkNumLit (toString i)
    match kind.getId with
    | `sig => evalTactic (← `(tactic| sig_at $n))
    | `snd =>
      let h := mkIdent (Name.mkSimple s!"dev{32 + i}_eq")
      let dev := mkIdent (Name.mkSimple "c")
      evalTactic (← `(tactic| snd_at $n ($h $dev)))
    | `rcv => evalTactic (← `(tactic| rcv_at $n))
    | `sw => evalTactic (← `(tactic| sw_at $n))
    | _ => throwError "rows_do: unknown step kind"

/-- A buffer held whole, spelt through its memref's view. -/
theorem to_view (c : Dev nD) (b : Ref sig .tc) (q : PosShare TreeShare) (f : Buf (Elt F) ((c : Thread nD τ).loc b)) :
    ((((c : Thread nD τ).loc b) ↦{q} f) : sProp 𝕄) ⊢ (((Memref.whole b).view.loc (c : Thread nD τ) ↦{q} f) : sProp 𝕄) := by
  iintro H; iexact H

theorem snd_bundle (c : Dev nD) :
    iprop((bigSep Finset.univ (peerRow (F := F) c)) ∗ (bigSep Finset.univ fun i : I31 => sPts m c (sh i.val))
        ∗ (bigSep Finset.univ fun i : I31 => dutyTok ER (sndCell c i.val i.isLt) 0 0)
        ∗ (bigSep Finset.univ fun i : I31 => dutyTok ER (rcvCell (peer c (i.val + 1)) i.val i.isLt) 0 0))
      ⊢ (bigSep (todo 0) (sndΦ m c) : sProp 𝕄) := by
  rw [todo_zero,
    bigSep_sep' Finset.univ (fun i : I31 => peerRow (F := F) c i)
      (fun i : I31 => iprop(sPts m c (sh i.val) ∗ dutyTok ER (sndCell c i.val i.isLt) 0 0 ∗ dutyTok ER (rcvCell (peer c (i.val + 1)) i.val i.isLt) 0 0)),
    bigSep_sep' Finset.univ (fun i : I31 => sPts m c (sh i.val))
      (fun i : I31 => iprop(dutyTok ER (sndCell c i.val i.isLt) 0 0 ∗ dutyTok ER (rcvCell (peer c (i.val + 1)) i.val i.isLt) 0 0)),
    bigSep_sep' Finset.univ (fun i : I31 => (dutyTok ER (sndCell c i.val i.isLt) 0 0 : sProp 𝕄))
      (fun i : I31 => dutyTok ER (rcvCell (peer c (i.val + 1)) i.val i.isLt) 0 0)]

theorem hz2 : (![0, 0] : Fin 2 → Nat) = fun _ => 0 := funext fun a => by fin_cases a <;> rfl

/-- Binding a returned value is applying the continuation to it. -/
theorem ret_bind_fn {E : Type → Type} {α β : Type} (a : α) (k : α → Prog E β) : (Prog.ret a : Prog E α).bind k = k a := rfl

/-- Reading the whole staged block of `x` reads the block. -/
theorem read_x (f : (cc0_stg0_0 : Ref sig .tc).ty.Contents (Elt F)) :
    (xM : Memref sig .tc .vmem S1536x768 .f32).view.readAt (Elt F) (Rect.unit (s := S1536x768) ![0, 0] S1536x768.size Facts₀.inb_S1536x768_S1536x768_0_0).toLoadRect f = f :=
  Memref.readAt_unit_zero (Elt F) cc0_stg0_0 hz2 _ f

/-- The column sums of the loaded block are what the device sends. -/
theorem sent_eq (c : Dev nD) :
    k0_pay1 (F := F) ((xM : Memref sig .tc .vmem S1536x768 .f32).view.readAt (Elt F) (Rect.unit (s := S1536x768) ![0, 0] S1536x768.size Facts₀.inb_S1536x768_S1536x768_0_0).toLoadRect (xstg m c))
      = sendV m c := by
  rw [read_x]; rfl

theorem sPts_whole (c : Dev nD) (q : PosShare TreeShare) :
    sPts m c q = ((((sM : Memref sig .tc .vmem S1x768 .f32).view.loc (c : Thread nD τ)) ↦{q} sendV m c) : sProp 𝕄) := by
  unfold sPts; rw [View.set_whole]

/-- The sent row held whole is the 31 shares the copies borrow and the share that stays. -/
theorem send_split (c : Dev nD) :
    ((((sM : Memref sig .tc .vmem S1x768 .f32).view.loc (c : Thread nD τ)) ↦{fullShare} sendV m c) : sProp 𝕄)
      ⊢ iprop((bigSep Finset.univ fun i : I31 => sPts m c (sh i.val)) ∗ sPts m c (rem 31)) := by
  rw [← sPts_whole]
  unfold sPts
  exact (send_shares (F := F) c (sendV m c)).1

theorem done_zero_intro (Φ : I31 → sProp 𝕄) : (emp : sProp 𝕄) ⊢ bigSep (done 0) Φ := by
  rw [done_zero, bigSep_empty]; iintro H; iexact H

end Cert.Kernel.Hand

end
-- ==== Proof.Bits.Close.lean ====
/-
  At the end of the body every send and receive cell of the device has had its one round consumed: its position is
  at round 1, where the schedule has no duty, so the cell can be closed and its counter, at zero, handed back.
-/
import proofs.«900944_g7700000000000945_dist_mean_ax0_shard0_i_m1536_n768_v7x_i32_f32_1_alg».proof.Proof.Bits.Steps

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA

variable {F : FTy → Type} [FloatOps F]

local notation "𝕄" => MT nD τ sig Unit (Elt F) ℕ UU ℕ

variable (m : (ℓ : Loc nD τ sig) → Buf (Elt F) ℓ) (K : Dev nD × Fin 63 → ℕ)

/-- One row's send cell and receive cell, each past its only round, close: their counters come back at zero. -/
theorem close_one (c : Dev nD) (i : I31) :
    iprop(invs m K c ∗ (atPos ER (sndCell c i.val i.isLt) 1 ∅ 0 ∗ atPos ER (rcvCell c i.val i.isLt) 1 ∅ 0))
      ⊢ (|={Set.univ}=> iprop(semVal (sndCell c i.val i.isLt) 0 ∗ semVal (rcvCell c i.val i.isLt) 0) : sProp 𝕄) := by
  iintro ⟨#HI, HatS, HatR⟩
  ihave HA := (invs_at m K c i) $$ HI
  unfold invAt
  icases HA with ⟨#HIs, #HIr, -⟩
  imod (Rounds.cell_close ER (ringRd m) (Set.mem_univ (K (c, kS i))) (fun h => h) (R := 1)
    (duties_later m (sndCell c i.val i.isLt))) $$ [HatS] with HzS
  · isplitr; · iexact HIs
    iexact HatS
  imod (Rounds.cell_close ER (ringRd m) (Set.mem_univ (K (c, kR i))) (fun h => h) (R := 1)
    (duties_later m (rcvCell c i.val i.isLt))) $$ [HatR] with HzR
  · isplitr; · iexact HIr
    iexact HatR
  imodintro
  isplitl [HzS]
  · iexact HzS
  · iexact HzR

/-- All 62 own cells closed: their counters at zero are the device's again. -/
theorem close_all (c : Dev nD) :
    iprop(invs m K c ∗ (bigSep Finset.univ fun i : I31 => atPos ER (sndCell c i.val i.isLt) 1 ∅ 0)
        ∗ (bigSep Finset.univ fun i : I31 => atPos ER (rcvCell c i.val i.isLt) 1 ∅ 0))
      ⊢ (|={Set.univ}=> bigSep Finset.univ fun i : I31 => iprop(semVal (sndCell c i.val i.isLt) 0 ∗ semVal (rcvCell c i.val i.isLt) 0) : sProp 𝕄) := by
  rw [← bigSep_sep']
  -- the persistent invariants go to every row, and the rows close one by one under one update
  refine (sep_mono_left (BI.bigSep_of_persistent (Finset.univ : Finset I31) (invs m K c))).trans ?_
  rw [← bigSep_sep']
  exact (bigSep_mono fun i _ => close_one m K c i).trans (bigSep_fupd _ _)

end Cert.Kernel.Hand

end
-- ==== Proof.Bits.Body.lean ====
/-
  One device's body run from its ghost state to the pipeline's post: see BodyDefs.lean for the bundles and the steps.
-/
import proofs.«900944_g7700000000000945_dist_mean_ax0_shard0_i_m1536_n768_v7x_i32_f32_1_alg».proof.Proof.Bits.BodyDefs
import proofs.«900944_g7700000000000945_dist_mean_ax0_shard0_i_m1536_n768_v7x_i32_f32_1_alg».proof.Proof.Bits.Close

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 63 → ℕ)

/-- The 31 returned shares and the share that stayed are the sent row held whole again. -/
theorem send_join (c : Dev nD) :
    iprop((bigSep Finset.univ (shΦ m c)) ∗ sPts m c (rem 31)) ⊢ ((((c : Thread nD τ).loc cc0_scratch0) ↦{fullShare} sendV m c) : sProp 𝕄) := by
  have h : iprop((bigSep Finset.univ (shΦ m c)) ∗ sPts m c (rem 31)) ⊢ sPts m c fullShare := by
    unfold sPts; exact (send_shares (F := F) c (sendV m c)).2
  refine h.trans ?_
  rw [sPts_whole]

/-- All 31 landed rows are the receive buffer held whole again. -/
theorem comm_join (c : Dev nD) :
    (bigSep Finset.univ (rowΦ m c)) ⊢ ((((c : Thread nD τ).loc cc0_scratch1) ↦{fullShare} commV m c) : sProp 𝕄) := by
  have h := (rows_iff (F := F) c Finset.univ (commV m c)).1
  rw [rowsSet_univ] at h
  iintro H; ihave H' := h $$ H; iexact H'

/-- Once the 31 signals are sent the device owes the row credits only; once the 31 copies are issued, nothing. -/
theorem owed_after_signals (c : Dev nD) : OsndLast c 31 + OsigLast c 0 = OsndLast c 31 := add_zero _
theorem owed_after_copies (c : Dev nD) : OsndLast c (30 - 30) = 0 := rfl

/-- One store of a whole row over anything leaves that row. -/
theorem send_written (f w : (cc0_scratch0 : Ref sig .tc).ty.Contents (Elt F)) :
    (Memref.whole cc0_scratch0 : Memref sig .tc .vmem S1x768 .f32).view.writes (Elt F) f
      [⟨Rect.unit (s := S1x768) ![0, 0] S1x768.size Facts₀.inb_S1x768_S1x768_0_0, w⟩] = w := by
  rw [View.writes_singleton]
  exact Memref.write_access_unit_zero_univ (Elt F) cc0_scratch0 hz2 _ f w

theorem rcv_bundle (c : Dev nD) :
    iprop((bigSep Finset.univ fun i : I31 => cred (tallyAt (rcvCell c i.val i.isLt) () N)) ∗ (bigSep Finset.univ fun i : I31 => atPos ER (rcvCell c i.val i.isLt) 0 ∅ 0))
      ⊢ (bigSep (todo 0) (rcvΦ (F := F) c) : sProp 𝕄) := by
  rw [todo_zero, bigSep_sep' Finset.univ (fun i : I31 => (cred (tallyAt (rcvCell c i.val i.isLt) () N) : sProp 𝕄)) (fun i : I31 => atPos ER (rcvCell c i.val i.isLt) 0 ∅ 0)]

theorem sw_bundle (c : Dev nD) :
    iprop(bigSep (done 31) (crSΦ (F := F) c) ∗ (bigSep Finset.univ fun i : I31 => atPos ER (sndCell c i.val i.isLt) 0 ∅ 0))
      ⊢ (bigSep (todo 0) (swΦ (F := F) c) : sProp 𝕄) := by
  rw [done_31, todo_zero, bigSep_sep' Finset.univ (fun i : I31 => (cred (tallyAt (sndCell c i.val i.isLt) () N) : sProp 𝕄)) (fun i : I31 => atPos ER (sndCell c i.val i.isLt) 0 ∅ 0)]

set_option maxHeartbeats 200000000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost linear
  iintro ⟨⟨⟨⟨#HI, HatB, Hlin⟩, HcB, HcV, #Hlev, ⟨%fs0, Hs⟩, ⟨%fc0, Hc⟩⟩, Ho, ⟨%d0, %g0, %hg0, Hx⟩, ⟨%d1, %g1, %hg1, Hout⟩⟩, Hk⟩
  have hx : g0 = xstg m c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  ihave Hl := (Entails.of_eq (lin_split (F := F) c)) $$ Hlin
  icases Hl with ⟨HatS, HatV, HtB, HtS, HtV⟩
  ihave Hsig := (sig_bundle (F := F) c fc0) $$ [HtB Hc]
  · isplitl [HtB]; · iexact HtB
    iexact Hc
  ihave Hx := (to_view (F := F) c cc0_stg0_0 fullShare _) $$ Hx
  ihave Hout := (to_view (F := F) c cc0_stg1_0 fullShare _) $$ Hout
  ihave Hs := (to_view (F := F) c cc0_scratch0 fullShare _) $$ Hs
  sl_exec_parts
  rows_do sig 0 31
  -- the barrier wait: the 31 other devices' rows come with it
  iapply (barwait_step m K c W (OsndLast c 31 + OsigLast c 0) (mayWait_bar c)) $$ [HcB HO HatB]
  · isplitr; · iexact HI
    isplitr; · iexact Hlev
    isplitl [HcB]; · iexact HcB
    isplitl [HO]; · iexact HO
    iexact HatB
  iintro ⟨HO, Hpeer⟩
  ihave HO := (Entails.of_eq (congrArg (fun O => (owes (c : Thread nD τ) O (insert (SemLoc.reg barS, ()) W) : sProp 𝕄)) (owed_after_signals c))) $$ HO
  -- the sent row holds the column sums; it is cut into the shares the 31 copies borrow
  ihave Hs := (Entails.of_eq (congrArg (fun f => ((((sM : Memref sig .tc .vmem S1x768 .f32).view.loc (c : Thread nD τ)) ↦{fullShare} f) : sProp 𝕄)) (send_written _ _))) $$ Hs
  -- the stored row is the column sums of the loaded block (the stored value may stand under a name of its own)
  first
    | ihave Hs := (Entails.of_eq (congrArg (fun f => ((((sM : Memref sig .tc .vmem S1x768 .f32).view.loc (c : Thread nD τ)) ↦{fullShare} f) : sProp 𝕄)) (sent_eq m c))) $$ Hs
    | (have hv : sound_body.sl.v412 m c = sendV m c := by sl_unfold_words; exact sent_eq m c
       ihave Hs := (Entails.of_eq (congrArg (fun f => ((((sM : Memref sig .tc .vmem S1x768 .f32).view.loc (c : Thread nD τ)) ↦{fullShare} f) : sProp 𝕄)) hv)) $$ Hs)
  ihave Hsp := (send_split m c) $$ Hs
  icases Hsp with ⟨Hsh, Hrem⟩
  ihave Hsnd := (snd_bundle m c) $$ [Hpeer Hsh HtS HtV]
  · isplitl [Hpeer]; · iexact Hpeer
    isplitl [Hsh]; · iexact Hsh
    isplitl [HtS]; · iexact HtS
    iexact HtV
  ihave Hrem := (Entails.of_eq (sPts_whole m c (rem 31))) $$ Hrem
  ihave Hcs := (done_zero_intro (crSΦ (F := F) c)) $$ []
  · iempintro
  sl_exec
  rows_do snd 0 31
  ihave HO := (Entails.of_eq (congrArg (fun O => (owes (c : Thread nD τ) O (insert (SemLoc.reg barS, ()) W) : sProp 𝕄)) (owed_after_copies c))) $$ HO
  -- the own sent row is read through the share that stayed
  first
    | (iapply (wp_load 𝒱₀ (c : Thread nD τ) none Set.univ (m := (sM : Memref sig .tc .vmem S1x768 .f32)) (Finset.subset_univ _)) $$ Hrem
       iintro Hrem
       sl_exec)
    | skip
  -- the 31 landings, the received rows read in four groups
  ihave Hrcv := (rcv_bundle (F := F) c) $$ [HcV HatV]
  · isplitl [HcV]; · iexact HcV
    iexact HatV
  ihave Hrows := (done_zero_intro (rowΦ m c)) $$ []
  · iempintro
  ihave HatV1 := (done_zero_intro (posV1 (F := F) c)) $$ []
  · iempintro
  rows_do rcv 0 8
  grp_load 8 (grp0_sub c)
  rows_do rcv 8 16
  grp_load 16 (grp1_sub c)
  rows_do rcv 16 24
  grp_load 24 (grp2_sub c)
  rows_do rcv 24 31
  grp_load 31 (grp3_sub c)
  -- the 31 departures
  ihave Hsw := (sw_bundle (F := F) c) $$ [Hcs HatS]
  · isplitl [Hcs]; · iexact Hcs
    iexact HatS
  ihave Hshs := (done_zero_intro (shΦ m c)) $$ []
  · iempintro
  ihave HatS1 := (done_zero_intro (posS1 (F := F) c)) $$ []
  · iempintro
  rows_do sw 0 31
  -- every own cell is closed: its counter, at zero, is the device's again
  ihave HatS1 := (Entails.of_eq (congrArg (fun s => (bigSep s (posS1 (F := F) c) : sProp 𝕄)) done_31)) $$ HatS1
  ihave HatV1 := (Entails.of_eq (congrArg (fun s => (bigSep s (posV1 (F := F) c) : sProp 𝕄)) done_31)) $$ HatV1
  imod (close_all m K c) $$ [HatS1 HatV1] with Hz
  · isplitr; · iexact HI
    isplitl [HatS1]; · iexact HatS1
    iexact HatV1
  -- the sent row and the receive buffer are held whole again
  ihave Hshs := (Entails.of_eq (congrArg (fun s => (bigSep s (shΦ m c) : sProp 𝕄)) done_31)) $$ Hshs
  ihave Hrem := (Entails.of_eq (sPts_whole m c (rem 31)).symm) $$ Hrem
  ihave Hsfull := (send_join m c) $$ [Hshs Hrem]
  · isplitl [Hshs]; · iexact Hshs
    iexact Hrem
  ihave Hrows := (Entails.of_eq (congrArg (fun s => (bigSep s (rowΦ m c) : sProp 𝕄)) done_31)) $$ Hrows
  ihave Hcfull := (comm_join m c) $$ Hrows
  sl_step
  iapply Hk
  unfold bodyPost Φ₁ Dat.owesAt Pipeline.owesWithin
  rw [show (dats m ρ 0 c).owed t₀.succ = 0 from rfl]
  isplitl [Hsfull Hcfull Hz]
  · isplitl [Hsfull]; · iexists _; iexact Hsfull
    isplitl [Hcfull]; · iexists _; iexact Hcfull
    iexact Hz
  isplitl [HO]
  · iexists _
    isplitr
    rotate_left
    · iexact HO
    · ipureintro; exact fun _ _ => Or.inl trivial
  isplitl [Hx]
  · iexists _; isplitr; · (ipureintro; rfl)
    iexact Hx
  iexists _
  isplitr
  rotate_left
  · iexact Hout
  · ipureintro
    rw [View.writes_singleton]
    refine (Memref.write_access_unit_zero_univ (Elt F) cc0_stg1_0 hz2 _ _ _).trans ?_
    sl_unfold_words
    rfl

end Cert.Kernel.Hand

end
-- ==== Proof.Bits.Oblig.lean ====
/-
  The pipeline's body obligation on device `c`: what the launch hands the body at its one grid point is the body's
  precondition, and the body's post is what the pipeline expects back.
-/
import proofs.«900944_g7700000000000945_dist_mean_ax0_shard0_i_m1536_n768_v7x_i32_f32_1_alg».proof.Proof.Bits.Body

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

variable {F : FTy → Type} [FloatOps F]

local notation "𝕄" => MT nD τ sig Unit (Elt F) ℕ UU ℕ

variable (m : (ℓ : Loc nD τ sig) → Buf (Elt F) ℓ) (ρ : Dev nD → PrngReg)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, HcB, HcV, Hlev⟩, Hs0, Hs1⟩, Ho, Hx, Hout⟩
  iapply (sound_body m ρ K c fun _ => bodyPost m ρ c)
  unfold bodyPre
  isplitr []
  · isplitl [Hg HcB HcV Hlev Hs0 Hs1]
    · isplitl [Hg]; · iexact Hg
      isplitl [HcB]; · iexact HcB
      isplitl [HcV]; · iexact HcV
      isplitl [Hlev]; · iexact Hlev
      isplitl [Hs0]; · iexact Hs0
      iexact Hs1
    isplitl [Ho]; · iexact Ho
    isplitl [Hx] <;> iassumption
  · iintro H; iexact H

end Cert.Kernel.Hand

end
-- ==== Proof.Bits.Launch.lean ====
/-
  The launch of the 32-device column mean: from the memory at launch (every semaphore at zero) the rounds ghost state
  is allocated for all devices at once (the barrier semaphore is the runtime's, shared by every device that signals
  it), each device is dealt the ghost state, the tokens of the duties it pays and its launch credit, and the
  pipeline's launch theorem turns the body obligation of every device into the run of the whole program.
-/
import proofs.«900944_g7700000000000945_dist_mean_ax0_shard0_i_m1536_n768_v7x_i32_f32_1_alg».proof.Proof.Bits.Credit
import proofs.«900944_g7700000000000945_dist_mean_ax0_shard0_i_m1536_n768_v7x_i32_f32_1_alg».proof.Proof.Gen.Kernel.Frame

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

variable {F : FTy → Type} [FloatOps F]

local notation "𝕄" => MT nD τ sig Unit (Elt F) ℕ UU ℕ

variable (m : (ℓ : Loc nD τ sig) → Buf (Elt F) ℓ) (ρ : Dev nD → PrngReg)

/-! ## The cells of one device, enumerated -/

/-- A cell's place in the enumeration read back off its semaphore: DMA semaphore `n` is cell `n - 1`. -/
def semNo : SemLoc sig → ℕ
  | .dma s => s.val - 1
  | .reg _ => 0

theorem semNo_csem (k : Fin 63) : semNo (csem k) = k.val := by
  have hk := k.isLt
  unfold csem
  by_cases h0 : k.val = 0
  · rw [dif_pos h0]; show 0 = k.val; omega
  · rw [dif_neg h0]
    by_cases h1 : k.val ≤ 31
    · rw [dif_pos h1]; show (sndS (k.val - 1) _).val - 1 = k.val; rw [sndS_val]; omega
    · rw [dif_neg h1]; show (rcvS (k.val - 32) _).val - 1 = k.val; rw [rcvS_val]; omega

theorem csem_injective : Function.Injective csem := fun k k' h =>
  Fin.ext (by rw [← semNo_csem k, ← semNo_csem k', h])

theorem kcell_injective : Function.Injective (kcell : Dev nD × Fin 63 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

/-- The 63 cells as the barrier cell, the 31 send cells and the 31 receive cells. -/
def cellFwd : Unit ⊕ (I31 ⊕ I31) → Fin 63
  | .inl _ => 0
  | .inr (.inl i) => kS i
  | .inr (.inr i) => kR i
def cellBwd (k : Fin 63) : Unit ⊕ (I31 ⊕ I31) :=
  if h0 : k.val = 0 then .inl ()
  else if h1 : k.val ≤ 31 then .inr (.inl ⟨k.val - 1, by omega⟩)
  else .inr (.inr ⟨k.val - 32, by have := k.isLt; omega⟩)

theorem cellBwd_fwd (x : Unit ⊕ (I31 ⊕ I31)) : cellBwd (cellFwd x) = x := by
  rcases x with _ | i | i
  · rfl
  · have hi := i.isLt
    show cellBwd (kS i) = _
    unfold cellBwd
    rw [dif_neg (by show ¬ (i.val + 1 = 0); omega), dif_pos (by show i.val + 1 ≤ 31; omega)]
    exact congrArg (fun x => Sum.inr (Sum.inl x)) (Fin.ext (by show i.val + 1 - 1 = i.val; omega))
  · have hi := i.isLt
    show cellBwd (kR i) = _
    unfold cellBwd
    rw [dif_neg (by show ¬ (i.val + 32 = 0); omega), dif_neg (by show ¬ (i.val + 32 ≤ 31); omega)]
    exact congrArg (fun x => Sum.inr (Sum.inr x)) (Fin.ext (by show i.val + 32 - 32 = i.val; omega))

theorem cellFwd_bwd (k : Fin 63) : cellFwd (cellBwd k) = k := by
  have hk := k.isLt
  unfold cellBwd
  by_cases h0 : k.val = 0
  · rw [dif_pos h0]; exact Fin.ext h0.symm
  · rw [dif_neg h0]
    by_cases h1 : k.val ≤ 31
    · rw [dif_pos h1]; exact Fin.ext (by show k.val - 1 + 1 = k.val; omega)
    · rw [dif_neg h1]; exact Fin.ext (by show k.val - 32 + 32 = k.val; omega)

def cellEquiv : Unit ⊕ (I31 ⊕ I31) ≃ Fin 63 := ⟨cellFwd, cellBwd, cellBwd_fwd, cellFwd_bwd⟩

omit [FloatOps F] in
theorem bigSep_fin63 (Φ : Fin 63 → sProp 𝕄) :
    bigSep Finset.univ Φ = iprop(Φ 0 ∗ bigSep Finset.univ fun i : I31 => iprop(Φ (kS i) ∗ Φ (kR i))) := by
  rw [bigSep_univ_equiv cellEquiv Φ, bigSep_univ_sum, bigSep_univ_sum, bigSep_univ_of_subsingleton (), bigSep_sep']
  rfl

/-! ## The kernel's own semaphores: send and receive semaphore `i`, for each row `i` -/

abbrev osem : I31 × Fin 2 → SemLoc sig := fun ij => match ij.2 with
  | 0 => .dma (sndS ij.1.val ij.1.isLt)
  | 1 => .dma (rcvS ij.1.val ij.1.isLt)

/-- Own semaphore `(i, j)` is DMA semaphore `2 + 31 j + i`. -/
theorem osem_val (ij : I31 × Fin 2) : ∃ s : DmaSem sig, osem ij = .dma s ∧ s.val = 2 + 31 * ij.2.val + ij.1.val := by
  obtain ⟨i, j⟩ := ij
  fin_cases j
  · exact ⟨sndS i.val i.isLt, rfl, by rw [sndS_val]; show 2 + i.val = 2 + 31 * 0 + i.val; omega⟩
  · exact ⟨rcvS i.val i.isLt, rfl, by rw [rcvS_val]; show 33 + i.val = 2 + 31 * 1 + i.val; omega⟩

/-- They are scoped, pairwise distinct, and none is a staging semaphore (those are DMA semaphores 0 and 1). -/
theorem ownSemFacts : Pipeline.OwnSemFacts cfg0.spec osem where
  isScoped := fun ij => by
    obtain ⟨s, hs, -⟩ := osem_val ij
    rw [hs]
    exact (by decide : ∀ s : DmaSem sig, sig.isScopedDmaSem .tc s = true) s
  inj := fun ij ij' h => by
    obtain ⟨s, hs, hv⟩ := osem_val ij
    obtain ⟨s', hs', hv'⟩ := osem_val ij'
    rw [hs, hs'] at h
    have hss : s = s' := by injection h
    have hval : s.val = s'.val := congrArg Fin.val hss
    rw [hv, hv'] at hval
    have h1 := ij.1.isLt; have h1' := ij'.1.isLt; have h2 := ij.2.isLt; have h2' := ij'.2.isLt
    exact Prod.ext (Fin.ext (by omega)) (Fin.ext (by omega))
  disj := fun ij w s h => by
    obtain ⟨s0, hs, hv⟩ := osem_val ij
    rw [hs] at h
    have hss : s0 = (cfg0.spec w).sem s := by injection h
    have hlt : ((cfg0.spec w).sem s).val < 2 := by fin_cases w <;> fin_cases s <;> decide
    rw [← hss, hv] at hlt; omega

/-! ## The duty tokens minted at launch -/

/-- Cell `j` of row `i`'s three tokens: the barrier cell's (duty `31 - i`), the send cell's, the receive cell's. -/
def tokCell (ij : I31 × Fin 3) : Fin 63 := match ij.2 with
  | 0 => 0
  | 1 => kS ij.1
  | 2 => kR ij.1
def tokDuty (ij : I31 × Fin 3) : DN := match ij.2 with
  | 0 => dutyE ij.1
  | 1 => 0
  | 2 => 0

abbrev tokOf (x : Dev nD × (I31 × Fin 3)) : GSem nD τ sig × ℕ × DN := (kcell (x.1, tokCell x.2), 0, tokDuty x.2)

theorem tokOf_injective : Function.Injective (tokOf : Dev nD × (I31 × Fin 3) → GSem nD τ sig × ℕ × DN) := by
  rintro ⟨c, i, j⟩ ⟨c', i', j'⟩ h
  have h1 : (c, tokCell (i, j)) = (c', tokCell (i', j')) := kcell_injective (congrArg (fun x : GSem nD τ sig × ℕ × DN => x.1) h)
  have h2 : tokDuty (i, j) = tokDuty (i', j') := congrArg (fun x : GSem nD τ sig × ℕ × DN => x.2.2) h
  have hc : c = c' := congrArg Prod.fst h1
  have hk : (tokCell (i, j)).val = (tokCell (i', j')).val := congrArg (fun x : Dev nD × Fin 63 => x.2.val) h1
  have hd : (tokDuty (i, j)).val = (tokDuty (i', j')).val := congrArg Fin.val h2
  subst hc
  have hi := i.isLt
  have hi' := i'.isLt
  have : i = i' ∧ j = j' := by
    fin_cases j <;> fin_cases j' <;>
      first
      | (refine ⟨Fin.ext ?_, rfl⟩
         first
         | (change 31 - i.val = 31 - i'.val at hd; omega)
         | (change i.val + 1 = i'.val + 1 at hk; omega)
         | (change i.val + 32 = i'.val + 32 at hk; omega))
      | (exfalso
         first
         | (change 0 = i'.val + 1 at hk; omega)
         | (change 0 = i'.val + 32 at hk; omega)
         | (change i.val + 1 = 0 at hk; omega)
         | (change i.val + 32 = 0 at hk; omega)
         | (change i.val + 1 = i'.val + 32 at hk; omega)
         | (change i.val + 32 = i'.val + 1 at hk; omega))
  obtain ⟨rfl, rfl⟩ := this
  rfl

def ringToks : Finset (GSem nD τ sig × ℕ × DN) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  bigSep Finset.univ fun i : I31 =>
    iprop(dutyTok ER (barCell c) 0 (dutyE i) ∗ dutyTok ER (sndCell c i.val i.isLt) 0 0 ∗ dutyTok ER (rcvCell c i.val i.isLt) 0 0)

/-- What the launch element deals device `c`. -/
def G (c : Dev nD) : sProp 𝕄 :=
  iprop((bigSep Finset.univ fun k : Fin 63 => roundState ER (ringRd m) (kcell (c, k)) 0)
    ∗ (bigSep Finset.univ fun k : Fin 63 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun k : Fin 63 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks; rw [bigSep_univ_prod]
    refine bigSep_congr fun i _ => ?_
    rw [bigSep_fin3]
    show iprop(dutyTok ER (kcell (c, 0)) 0 (dutyE i) ∗ dutyTok ER (kcell (c, kS i)) 0 0 ∗ dutyTok ER (kcell (c, kR i)) 0 0) = _
    rw [kcell_snd, kcell_rcv]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt to the devices that pay them -/

omit [FloatOps F] in
/-- A family over a device's 63 cells, cell by cell. -/
theorem bigSep_cells (c : Dev nD) (Φ : GSem nD τ sig → sProp 𝕄) :
    (bigSep Finset.univ fun k : Fin 63 => Φ (kcell (c, k)))
      = iprop(Φ (barCell c) ∗ bigSep Finset.univ fun i : I31 => iprop(Φ (sndCell c i.val i.isLt) ∗ Φ (rcvCell c i.val i.isLt))) := by
  rw [bigSep_fin63]
  refine congrArg (fun X => iprop(Φ (barCell c) ∗ X)) (bigSep_congr fun i _ => ?_)
  show iprop(Φ (kcell (c, kS i)) ∗ Φ (kcell (c, kR i))) = _
  rw [kcell_snd, kcell_rcv]

omit [FloatOps F] in
/-- The kernel's own semaphores at zero: for each row its send and its receive semaphore. -/
theorem ownSems0_eq (c : Dev nD) :
    (Pipeline.ownSems0 (Ix := Unit) (Name := ℕ) (U := UU) (Lvl := ℕ) (Val := Elt F) (τ := τ) osem c : sProp 𝕄)
      = bigSep Finset.univ fun i : I31 => iprop(semVal (sndCell c i.val i.isLt) 0 ∗ semVal (rcvCell c i.val i.isLt) 0) := by
  unfold Pipeline.ownSems0
  rw [bigSep_univ_prod]
  exact bigSep_congr fun i _ => by rw [bigSep_univ_two]

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 63 => semVal (kcell (c, k)) 0 : sProp 𝕄) := by
  rw [ownSems0_eq, unscopedSems0_eq, bigSep_cells c (fun g => semVal g 0)]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 63 => iprop(∃ κ : ℕ, cellInv ER (ringRd m) κ (kcell (c, k))))
          ∗ (bigSep Finset.univ fun k : Fin 63 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 63 => semVal (kcell (c, k)) 0) ∗ bigSep Finset.univ fun k : Fin 63 => roundState ER (ringRd m) (kcell (c, k)) 0)
      ⊢ (|={Set.univ}=> bigSep Finset.univ fun k : Fin 63 => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant at its name, and that every cell has reached round 0. -/
def records (K : Dev nD × Fin 63 → ℕ) : sProp 𝕄 :=
  iprop((bigSep Finset.univ fun ck : Dev nD × Fin 63 => cellInv ER (ringRd m) (K ck) (kcell ck))
    ∗ bigSep Finset.univ fun ck : Dev nD × Fin 63 => reached ER (kcell ck) 0)

instance records_persistent (K : Dev nD × Fin 63 → ℕ) : BI.Persistent (records (F := F) m K) := by unfold records; infer_instance

variable (K : Dev nD × Fin 63 → ℕ)

theorem rec_inv (ck : Dev nD × Fin 63) : records (F := F) m K ⊢ cellInv ER (ringRd m) (K ck) (kcell ck) := by
  have h : (bigSep Finset.univ fun ck : Dev nD × Fin 63 => (cellInv ER (ringRd m) (K ck) (kcell ck) : sProp 𝕄))
      ⊢ cellInv ER (ringRd m) (K ck) (kcell ck) := bigSep_elim (Finset.mem_univ ck)
  unfold records; iintro ⟨H, -⟩; iapply h; iexact H
theorem rec_reached (ck : Dev nD × Fin 63) : records (F := F) m K ⊢ reached ER (kcell ck) 0 := by
  have h : (bigSep Finset.univ fun ck : Dev nD × Fin 63 => (reached ER (kcell ck) 0 : sProp 𝕄)) ⊢ reached ER (kcell ck) 0 :=
    bigSep_elim (Finset.mem_univ ck)
  unfold records; iintro ⟨-, H⟩; iapply h; iexact H

theorem rec_inv_snd (c : Dev nD) (i : I31) : records (F := F) m K ⊢ cellInv ER (ringRd m) (K (c, kS i)) (sndCell c i.val i.isLt) := by
  have h := rec_inv (F := F) m K (c, kS i); rwa [kcell_snd] at h
theorem rec_inv_rcv (c : Dev nD) (i : I31) : records (F := F) m K ⊢ cellInv ER (ringRd m) (K (c, kR i)) (rcvCell c i.val i.isLt) := by
  have h := rec_inv (F := F) m K (c, kR i); rwa [kcell_rcv] at h
theorem rec_reached_snd (c : Dev nD) (i : I31) : records (F := F) m K ⊢ reached ER (sndCell c i.val i.isLt) 0 := by
  have h := rec_reached (F := F) m K (c, kS i); rwa [kcell_snd] at h
theorem rec_reached_rcv (c : Dev nD) (i : I31) : records (F := F) m K ⊢ reached ER (rcvCell c i.val i.isLt) 0 := by
  have h := rec_reached (F := F) m K (c, kR i); rwa [kcell_rcv] at h

theorem invAt_intro (c : Dev nD) (i : I31) : records (F := F) m K ⊢ invAt m K c i := by
  unfold invAt
  iintro #H
  isplitr; · iapply (rec_inv_snd (F := F) m K c i); iexact H
  isplitr; · iapply (rec_inv_rcv (F := F) m K c i); iexact H
  isplitr; · iapply (rec_inv (F := F) m K (peer c (i.val + 1), 0)); iexact H
  isplitr; · iapply (rec_inv_rcv (F := F) m K (peer c (i.val + 1)) i); iexact H
  isplitr; · iapply (rec_reached (F := F) m K (peer c (i.val + 1), 0)); iexact H
  isplitr; · iapply (rec_reached_snd (F := F) m K c i); iexact H
  iapply (rec_reached_rcv (F := F) m K c i); iexact H

theorem invs_intro (c : Dev nD) : records (F := F) m K ⊢ invs m K c := by
  unfold invs
  iintro #H
  isplitr; · iapply (rec_inv (F := F) m K (c, 0)); iexact H
  iapply (bigSep_intro_persistent (S := Finset.univ) (R := records (F := F) m K) (Φ := fun i : I31 => invAt m K c i)
    fun i _ => invAt_intro m K c i)
  iexact H

/-- The tokens of the duties device `c` pays. -/
def payToks (c : Dev nD) : sProp 𝕄 :=
  bigSep Finset.univ fun i : I31 =>
    iprop(dutyTok ER (barCell (peer c (i.val + 1))) 0 (dutyE i) ∗ dutyTok ER (sndCell c i.val i.isLt) 0 0
      ∗ dutyTok ER (rcvCell (peer c (i.val + 1)) i.val i.isLt) 0 0)

omit [FloatOps F] in
theorem linAt_intro (c : Dev nD) (i : I31) :
    iprop((atPos ER (sndCell c i.val i.isLt) 0 ∅ 0 ∗ atPos ER (rcvCell c i.val i.isLt) 0 ∅ 0)
        ∗ dutyTok ER (barCell (peer c (i.val + 1))) 0 (dutyE i) ∗ dutyTok ER (sndCell c i.val i.isLt) 0 0
          ∗ dutyTok ER (rcvCell (peer c (i.val + 1)) i.val i.isLt) 0 0)
      ⊢ (linAt c i : sProp 𝕄) := by
  unfold linAt
  iintro ⟨⟨H1, H2⟩, H3, H4, H5⟩
  isplitl [H1]; · iexact H1
  isplitl [H2]; · iexact H2
  isplitl [H3]; · iexact H3
  isplitl [H4]; · iexact H4
  iexact H5

omit [FloatOps F] in
theorem linear_intro (c : Dev nD) :
    iprop((bigSep Finset.univ fun k : Fin 63 => atPos ER (kcell (c, k)) 0 ∅ 0) ∗ payToks c) ⊢ (linear c : sProp 𝕄) := by
  rw [bigSep_cells c (fun g => atPos ER g 0 ∅ 0)]
  unfold linear payToks
  iintro ⟨⟨HB, HA⟩, HT⟩
  isplitl [HB]; · iexact HB
  iapply (show iprop((bigSep Finset.univ fun i : I31 => iprop(atPos ER (sndCell c i.val i.isLt) 0 ∅ 0 ∗ atPos ER (rcvCell c i.val i.isLt) 0 ∅ 0))
      ∗ bigSep Finset.univ fun i : I31 => iprop(dutyTok ER (barCell (peer c (i.val + 1))) 0 (dutyE i) ∗ dutyTok ER (sndCell c i.val i.isLt) 0 0
          ∗ dutyTok ER (rcvCell (peer c (i.val + 1)) i.val i.isLt) 0 0))
      ⊢ (bigSep Finset.univ fun i : I31 => linAt c i : sProp 𝕄) from by
    rw [← bigSep_sep']
    exact bigSep_mono fun i _ => linAt_intro c i)
  isplitl [HA]; · iexact HA
  iexact HT

theorem ghost_intro (c : Dev nD) :
    iprop(records m K ∗ (bigSep Finset.univ fun k : Fin 63 => atPos ER (kcell (c, k)) 0 ∅ 0) ∗ payToks c) ⊢ G' m c := by
  unfold G' ghost
  iintro ⟨#HR, HL⟩
  iexists K
  isplitr
  · iapply (invs_intro (F := F) m K c); iexact HR
  · iapply (linear_intro (F := F) c); iexact HL

/-- Going `k` places on along the ring, as a bijection of the devices. -/
def peerEquiv (k : ℕ) (hk : k ≤ 32) : Dev nD ≃ Dev nD where
  toFun d := peer d k
  invFun d := peer d (32 - k)
  left_inv d := peer_peer d k hk
  right_inv d := by
    have h := peer_peer d (32 - k) (by omega)
    rwa [show 32 - (32 - k) = k by omega] at h

omit [FloatOps F] in
/-- The tokens dealt around the ring, row by row: device `t`'s barrier token of duty `31 - i` and its receive token `i` go
    to the device `c` with `t = peer c (i + 1)`; each send token stays. -/
theorem toks_around : (bigSep Finset.univ fun c : Dev nD => (toks c : sProp 𝕄)) = bigSep Finset.univ fun c : Dev nD => payToks c := by
  have h (i : I31) :
      (bigSep Finset.univ fun c : Dev nD => (iprop(dutyTok ER (barCell c) 0 (dutyE i) ∗ dutyTok ER (sndCell c i.val i.isLt) 0 0
          ∗ dutyTok ER (rcvCell c i.val i.isLt) 0 0) : sProp 𝕄))
        = bigSep Finset.univ fun c : Dev nD => iprop(dutyTok ER (barCell (peer c (i.val + 1))) 0 (dutyE i) ∗ dutyTok ER (sndCell c i.val i.isLt) 0 0
          ∗ dutyTok ER (rcvCell (peer c (i.val + 1)) i.val i.isLt) 0 0) := by
    have hi := i.isLt
    rw [bigSep_sep', bigSep_sep', bigSep_sep', bigSep_sep',
      bigSep_univ_equiv (peerEquiv (i.val + 1) (by omega)) (fun c : Dev nD => (dutyTok ER (barCell c) 0 (dutyE i) : sProp 𝕄)),
      bigSep_univ_equiv (peerEquiv (i.val + 1) (by omega)) (fun c : Dev nD => (dutyTok ER (rcvCell c i.val i.isLt) 0 0 : sProp 𝕄))]
    rfl
  unfold toks payToks
  exact (bigSep_univ_comm _).trans ((bigSep_congr fun i _ => h i).trans (bigSep_univ_comm _).symm)

theorem regroup :
    (bigSep Finset.univ fun c : Dev nD => iprop((bigSep Finset.univ fun k : Fin 63 => iprop(∃ κ : ℕ, cellInv ER (ringRd m) κ (kcell (c, k))))
          ∗ (bigSep Finset.univ fun k : Fin 63 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 63 => iprop(∃ κ : ℕ, cellInv ER (ringRd m) κ (kcell ck))),
    bigSep_congr (s := Finset.univ) (fun (c : Dev nD) _ => bigSep_sep' Finset.univ (fun k : Fin 63 => (atPos ER (kcell (c, k)) 0 ∅ 0 : sProp 𝕄)) (fun k => reached ER (kcell (c, k)) 0)),
    bigSep_sep', ← bigSep_univ_prod (fun ck : Dev nD × Fin 63 => (reached ER (kcell ck) 0 : sProp 𝕄)), toks_around]
  iintro ⟨HI, ⟨Hat, #HR⟩, Htok⟩
  ihave HK := (BI.bigSep_exists_pi Finset.univ (fun (ck : Dev nD × Fin 63) (κ : ℕ) => (cellInv ER (ringRd m) κ (kcell ck) : sProp 𝕄))) $$ HI
  icases HK with ⟨%K, #HI⟩
  iapply (bigSep_with_persistent (R := records m K) fun c _ => ghost_intro m K c)
  isplitr
  · unfold records; isplitl; · iexact HI
    iexact HR
  · rw [bigSep_sep']
    isplitl [Hat]; · iexact Hat
    iexact Htok

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, H0, H1⟩
  isplitl [Hs]; · iexact Hs
  isplitl [H0]; · iexact H0
  iexact H1

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨H0, H1, HZ⟩
  isplitr; · iempintro
  isplitl [HZ]; · iexact HZ
  isplitl [H0]; · iexact H0
  iexact H1

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Each window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- At the compiled mesh of 32 devices, from any memory with zero counters: every weakly fair execution of @main
    terminates, and every final state has each device's arrays at the proof data's final contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

end Cert.Kernel.Hand

end
-- ==== Proof.Bits.Final.lean ====
/-
  The run of the idealized kernel read at the arrays: each device's block of x ends as it was, and each device's
  result row ends at the payload term `outV`.
-/
import proofs.«900944_g7700000000000945_dist_mean_ax0_shard0_i_m1536_n768_v7x_i32_f32_1_alg».proof.Proof.Bits.Launch

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA

variable {F : FTy → Type} [FloatOps F]

local notation "𝕄" => MT nD τ sig Unit (Elt F) ℕ UU ℕ

variable (m : (ℓ : Loc nD τ sig) → Buf (Elt F) ℓ) (ρ : Dev nD → PrngReg)

/-- The block of x after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result row after the run holds the payload term. -/
theorem finalA_out (c : Dev nD) : finalA m ρ c (1 : Fin 2) = outV m c := by
  show (dats m ρ 0 c).arrAt 1 (t0_0.val + 1) = _
  rw [(dats m ρ 0 c).arrAt_succ 1 t0_0, if_pos (flush0_1 t0_0)]
  exact Memref.write_access_unit_zero_univ (Elt F) main_v1 (funext fun a => Nat.zero_mul _) _ _ _

/-- The whole program's run with its values named: every weakly fair execution from the launch memory terminates with
    each device's result row at `outV m c` and its block of x unchanged. -/
theorem kernel_run (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outV m c
      ∧ r.2.mem ((c.tc : Thread nD τ).loc main_arg0) = m ((c.tc : Thread nD τ).loc main_arg0)) :=
  (θ_run defs _ _).mono (fun r h c => ⟨(h c 1).trans (finalA_out m ρ c), (h c 0).trans (finalA_x m ρ c)⟩) (run_main m ρ hbody)

end Cert.Kernel.Hand

end
-- ==== Proof.Value.lean ====
/-
  The value side: on 32 devices, each device's result row is the reference's mean over all 49152 rows.
  Device c' holds rows c'·1536 .. c'·1536 + 1535 of the whole array X. Its sent row is the column sums of its block;
  device c adds its own row and the 31 rows it receives, one from every other device, so the total is the sum of
  all 32 blocks' column sums, that is the column sums of X; the kernel scales by the named constant 1/49152 where
  the reference divides by 49152, and on the extended reals these are one function.
-/
import proofs.«900944_g7700000000000945_dist_mean_ax0_shard0_i_m1536_n768_v7x_i32_f32_1_alg».proof.Proof.Proto
import proofs.«900944_g7700000000000945_dist_mean_ax0_shard0_i_m1536_n768_v7x_i32_f32_1_alg».proof.Proof.Gen.ReferenceIdeal.Run
import proofs.«900944_g7700000000000945_dist_mean_ax0_shard0_i_m1536_n768_v7x_i32_f32_1_alg».proof.Proof.Gen.ReferenceIdeal.Read
import proofs.«900944_g7700000000000945_dist_mean_ax0_shard0_i_m1536_n768_v7x_i32_f32_1_alg».proof.Proof.Gen.Pre_finite_inputs_ReferenceIdeal
import proofs.«900944_g7700000000000945_dist_mean_ax0_shard0_i_m1536_n768_v7x_i32_f32_1_alg».proof.Defs
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws

noncomputable section

namespace Cert.RefSide

open Idealize.ShloMosaic Idealize.ShloMosaic.TcCoe Idealize.SL.Sem
open Idealize.ShloMosaic.ValueIdx
open Cert.KernelIdeal.Hand

/-- The reference's result as a function of the whole array: column sums over all 49152 rows, divided by 49152. -/
def refTerm (X : Vec Ideal Cert.ReferenceIdeal.S49152x768 .f32) : FVec Ideal Cert.ReferenceIdeal.S1x768 .f32 :=
  Host.divf (F := Ideal)
    (broadcastInDim Cert.ReferenceIdeal.S1x768 ![1] Cert.ReferenceIdeal.Facts₀.bcast_S768_S1x768_1
      (Host.reduceAdd (F := Ideal) X (constant (F := Ideal) Cert.ReferenceIdeal.S_ .f32 0x00000000#32)
        Cert.ReferenceIdeal.Facts₀.reducesTo_S49152x768_S768_d0 Cert.ReferenceIdeal.Facts₀.h_S_))
    (broadcastInDim Cert.ReferenceIdeal.S1x768 ![] Cert.ReferenceIdeal.Facts₀.bcast_S_S1x768
      (constant (F := Ideal) Cert.ReferenceIdeal.S_ .f32 0x47400000#32))

/-- The reference runs, ends with its result at `refTerm` of its argument array, and leaves the argument unchanged. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v3) = refTerm (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run (Cert.ReferenceIdeal.defs (F := Ideal)) _ _).mono (fun _ h => h 0) (Cert.ReferenceIdeal.Value.run (F := Ideal) m' g')

/-- The reference's frame: its run with the result dropped. -/
theorem frame_ri : @Cert.frame_ReferenceIdeal Cert.ReferenceIdeal.Gen.facts Cert.Pre_finite_inputs_ReferenceIdeal.Gen.facts :=
  fun m ρ _ => (θ_run (Cert.ReferenceIdeal.defs (F := Ideal)) _ _).mono (fun _ h c => (h c).2) (Cert.ReferenceIdeal.Value.run (F := Ideal) m ρ)

/-- Device `c`'s block of the whole array, as the claim cuts it: rows `c·1536 ..`. -/
def blockOf (X : Vec Ideal Cert.ReferenceIdeal.S49152x768 .f32) (c : Dev Cert.KernelIdeal.nD) : Vec Ideal Cert.KernelIdeal.S1536x768 .f32 :=
  Layout.block ⟨2, ![1536, 768]⟩ ⟨2, ![49152, 768]⟩ 0 32 c X

/-! ## The kernel's loads and sums at a column -/

/-- A sum over the rows of an `n × 768` array, read at column `q`, is the sum over its `n` rows. -/
theorem rowsum_apply {n : ℕ} (src : FVec Ideal ⟨2, ![n, 768]⟩ .f32)
    (h : Shape.Reduces ⟨2, ![n, 768]⟩ [0] ⟨1, ![768]⟩) (hφ : FKind.Formats .f32)
    (hacc : (0x00000000#32 : BitVec 32) = FKind.add.neutral .f32 hφ) (q : Fin 768) :
    multiReduction .add [0] ⟨1, ![768]⟩ src 0x00000000#32 h hφ hacc (ix1 q) = ∑ k : Fin n, src (ix2 k q) := by
  refine (Ideal.multiReduction_add_single src 0x00000000#32 h hφ hacc (ix1 q)).trans ?_
  refine Finset.sum_congr rfl fun k _ => congrArg src ?_
  funext a; match a with | ⟨0, _⟩ => rfl | ⟨1, _⟩ => rfl

/-- The row a device sends, at column `q`: the sum of its block's column `q`. -/
theorem sendF_apply (xb : Vec Ideal Cert.KernelIdeal.S1536x768 .f32) (u : Fin 1) (q : Fin 768) :
    sendF (F := Ideal) xb (ix2 u q) = ∑ k : Fin 1536, xb (ix2 k q) := by
  unfold sendF Cert.KernelIdeal.Gen.k0_pay1
  refine (shapeCast_a_1a_apply _ _ u q).trans ?_
  refine (rowsum_apply _ _ _ _ q).trans ?_
  rw [shapeCast_self]

/-- The load of the whole sent row reads the row. -/
theorem rdS_eq (s : FVec Ideal Cert.KernelIdeal.S1x768 .f32) : rdS (F := Ideal) s = s := by
  unfold rdS
  exact Memref.readAt_unit_zero (Elt Ideal) Cert.KernelIdeal.cc0_scratch0 (by funext a; fin_cases a <;> rfl) _ s

/-- A load of rows `lo ..` of the receive buffer reads, at row `x 0` of the load, row `lo + x 0` of the buffer. -/
theorem rdC_apply (lo : ℕ) (sz : Fin 2 → ℕ) (h : ∀ a, (![lo, 0] : Fin 2 → Nat) a + sz a ≤ Cert.KernelIdeal.S31x768.size a)
    (f : Vec Ideal Cert.KernelIdeal.S31x768 .f32) (x : (Rect.unit (s := Cert.KernelIdeal.S31x768) ![lo, 0] sz h).shape.Idx) :
    rdC (F := Ideal) lo sz h f x = f ((Rect.unit (s := Cert.KernelIdeal.S31x768) ![lo, 0] sz h).emb x) := rfl

/-- Row `i` of device `c`'s receive buffer, at column `q`: column `q` of the row sent by the device `31 - i` places on. -/
theorem commF_apply (xs : Dev Cert.KernelIdeal.nD → Vec Ideal Cert.KernelIdeal.S1536x768 .f32) (c : Dev Cert.KernelIdeal.nD)
    (i : Fin 31) (q : Fin 768) :
    commF (F := Ideal) xs c (ix2 i q) = ∑ k : Fin 1536, xs (peer c (31 - i.val)) (ix2 k q) := by
  unfold commF
  refine Eq.trans ?_ (sendF_apply (xs (peer c (31 - i.val))) 0 q)
  refine congrArg (sendF (F := Ideal) (xs (peer c (31 - i.val)))) ?_
  funext a; match a with | ⟨0, _⟩ => rfl | ⟨1, _⟩ => rfl

/-- Rows `lo .. lo + n - 1` lie inside the 31 rows. -/
theorem row_lt {lo n : ℕ} (h : ∀ a, (![lo, 0] : Fin 2 → Nat) a + (![n, 768] : Fin 2 → ℕ) a ≤ Cert.KernelIdeal.S31x768.size a)
    (r : Fin n) : lo + r.val < 31 := by
  have h0 : lo + n ≤ 31 := h 0
  have := r.isLt
  omega

/-- A group of `n` received rows from row `lo` on, summed over its rows, at column `q`. -/
theorem grp_apply {n : ℕ} (lo : ℕ) (h : ∀ a, (![lo, 0] : Fin 2 → Nat) a + (![n, 768] : Fin 2 → ℕ) a ≤ Cert.KernelIdeal.S31x768.size a)
    (f : Vec Ideal Cert.KernelIdeal.S31x768 .f32)
    (hr : Shape.Reduces ⟨2, ![n, 768]⟩ [0] ⟨1, ![768]⟩) (hφ : FKind.Formats .f32)
    (hacc : (0x00000000#32 : BitVec 32) = FKind.add.neutral .f32 hφ) (q : Fin 768) :
    multiReduction (F := Ideal) .add [0] ⟨1, ![768]⟩ (rdC (F := Ideal) lo ![n, 768] h f : FVec Ideal ⟨2, ![n, 768]⟩ .f32) 0x00000000#32 hr hφ hacc (ix1 q)
      = ∑ r : Fin n, f (ix2 (⟨lo + r.val, row_lt h r⟩ : Fin 31) q) := by
  refine (rowsum_apply (n := n) (rdC (F := Ideal) lo ![n, 768] h f : FVec Ideal ⟨2, ![n, 768]⟩ .f32) hr hφ hacc q).trans ?_
  refine Finset.sum_congr rfl fun r _ => ?_
  refine (rdC_apply lo ![n, 768] h f (ix2 r q)).trans (congrArg f ?_)
  funext a; apply Fin.ext
  match a with
  | ⟨0, _⟩ => show lo + 1 * r.val = lo + r.val; omega
  | ⟨1, _⟩ => show 0 + 1 * q.val = q.val; omega

/-! ## The arithmetic of the ring, over any values `g` of the 32 devices -/

theorem peer_zero (c : Dev Cert.KernelIdeal.nD) : peer c 0 = c := by
  apply Fin.ext
  have hc : c.val < 32 := c.isLt
  simp only [peer_val]
  omega

/-- Going `k` places on from `c`, for `k` below 32, reaches every device exactly once. -/
theorem sum_peer (g : Dev Cert.KernelIdeal.nD → EReal) (c : Dev Cert.KernelIdeal.nD) :
    ∑ k ∈ Finset.range 32, g (peer c k) = ∑ c' : Dev Cert.KernelIdeal.nD, g c' := by
  rw [← Fin.sum_univ_eq_sum_range (fun k => g (peer c k)) 32]
  have hinj : Function.Injective (fun k : Fin 32 => peer c k.val) :=
    fun j k h => Fin.ext (peer_inj c j.isLt k.isLt h)
  exact Function.Bijective.sum_comp (Finite.injective_iff_bijective.mp hinj) g

/-- A device's own value and the 31 values it receives (row `i` from the device `31 - i` places on) are all 32 values. -/
theorem own_add_received (g : Dev Cert.KernelIdeal.nD → EReal) (c : Dev Cert.KernelIdeal.nD) :
    g c + ∑ i ∈ Finset.range 31, g (peer c (31 - i)) = ∑ c' : Dev Cert.KernelIdeal.nD, g c' := by
  rw [← sum_peer g c, Finset.sum_range_succ' (fun k => g (peer c k)) 31, peer_zero, add_comm]
  congr 1
  rw [← Finset.sum_range_reflect (fun k => g (peer c (k + 1))) 31]
  refine Finset.sum_congr rfl fun i hi => ?_
  have : i < 31 := Finset.mem_range.mp hi
  congr 2
  omega

/-- The kernel's four groups of 8, 8, 8 and 7 received rows are the 31 rows. -/
theorem groups (s : EReal) (a : ℕ → EReal) :
    (((s + ∑ r : Fin 8, a (0 + r.val)) + ∑ r : Fin 8, a (8 + r.val)) + ∑ r : Fin 8, a (16 + r.val)) + ∑ r : Fin 7, a (24 + r.val)
      = s + ∑ i ∈ Finset.range 31, a i := by
  rw [Fin.sum_univ_eq_sum_range (fun r => a (0 + r)) 8, Fin.sum_univ_eq_sum_range (fun r => a (8 + r)) 8,
    Fin.sum_univ_eq_sum_range (fun r => a (16 + r)) 8, Fin.sum_univ_eq_sum_range (fun r => a (24 + r)) 7]
  have e3 : ∑ i ∈ Finset.range 31, a i = ∑ i ∈ Finset.range 24, a i + ∑ i ∈ Finset.range 7, a (24 + i) :=
    Finset.sum_range_add a 24 7
  have e2 : ∑ i ∈ Finset.range 24, a i = ∑ i ∈ Finset.range 16, a i + ∑ i ∈ Finset.range 8, a (16 + i) :=
    Finset.sum_range_add a 16 8
  have e1 : ∑ i ∈ Finset.range 16, a i = ∑ i ∈ Finset.range 8, a i + ∑ i ∈ Finset.range 8, a (8 + i) :=
    Finset.sum_range_add a 8 8
  rw [e3, e2, e1]
  simp only [zero_add, add_assoc]

/-- Row `k` of block `c'` is a row of the whole array. -/
theorem blk_lt (c' : Fin 32) (k : Fin 1536) : c'.val * 1536 + k.val < 49152 := by
  have := c'.isLt
  have := k.isLt
  omega

/-- The 49152 rows are 32 blocks of 1536 rows: row `c' · 1536 + k` is row `k` of block `c'`. -/
theorem sum_rows (f : Fin 49152 → EReal) :
    ∑ j : Fin 49152, f j = ∑ c' : Fin 32, ∑ k : Fin 1536, f ⟨c'.val * 1536 + k.val, blk_lt c' k⟩ := by
  rw [← Fintype.sum_prod_type' (fun (c' : Fin 32) (k : Fin 1536) => f ⟨c'.val * 1536 + k.val, blk_lt c' k⟩)]
  rw [← Equiv.sum_comp (finProdFinEquiv (m := 32) (n := 1536)) (fun j : Fin (32 * 1536) => f j)]
  refine Finset.sum_congr rfl fun p _ => congrArg f (Fin.ext ?_)
  show p.2.val + 1536 * p.1.val = p.1.val * 1536 + p.2.val
  omega

/-! ## The constants -/

/-- The kernel's named reciprocal is the rational 1/49152 at the ideal values, by the certificate's table. -/
theorem inv_m : Named.named (F := Ideal) Cert.KernelIdeal.κ "inv_m" (φ := .f32) 0x37AAAAAB#32 = ((1 / 49152 : ℝ) : EReal) :=
  IdealRules.named_const.ideal_named_scalar _ _ _ _ rfl

/-- The reference's divisor `49152.0` (sign 0, exponent 142, mantissa 2^22: 1.5 · 2^15) is the real 49152. -/
theorem ofBits_49152 : Ideal.ofBits .f32 0x47400000#32 = ((49152 : ℝ) : EReal) := by
  simp [Ideal.ofBits, Ideal.ieee, -EReal.coe_mul]; norm_num

/-! ## The kernel's payloads at a column -/

open Cert.KernelIdeal Cert.KernelIdeal.Gen in
/-- The last payload at column `q`: the product of its two operands there. -/
theorem pay8_apply (a b : FVec Ideal S768 .f32) (u : Fin 1) (q : Fin 768) :
    k0_pay8 (F := Ideal) a b (ix2 u q) = a (ix1 q) * b (ix1 q) :=
  shapeCast_a_1a_apply (mulf a b) _ u q

open Cert.KernelIdeal Cert.KernelIdeal.Gen in
/-- The scaling row is 1/49152 at every column. -/
theorem pay7_apply (q : Fin 768) : (k0_pay7 (F := Ideal)) (ix1 q) = ((1 / 49152 : ℝ) : EReal) := inv_m

open Cert.KernelIdeal Cert.KernelIdeal.Gen in
/-- Dropping the unit row axis: column `q` of the one row. -/
theorem pay2_apply (v : Vec Ideal S1x768 .f32) (q : Fin 768) : k0_pay2 (F := Ideal) v (ix1 q) = v (ix2 (0 : Fin 1) q) :=
  shapeCast_1a_a_apply v _ q

open Cert.KernelIdeal Cert.KernelIdeal.Gen in
/-- The running row plus received rows 0..7, at column `q`. -/
theorem pay3_apply (a : FVec Ideal S768 .f32) (f : Vec Ideal S31x768 .f32) (q : Fin 768) :
    k0_pay3 (F := Ideal) a (rdC (F := Ideal) 0 S8x768.size Facts₀.inb_S31x768_S8x768_0_0 f) (ix1 q)
      = a (ix1 q) + ∑ r : Fin 8, f (ix2 (⟨0 + r.val, row_lt Facts₀.inb_S31x768_S8x768_0_0 r⟩ : Fin 31) q) :=
  congrArg (a (ix1 q) + ·) (grp_apply (n := 8) 0 Facts₀.inb_S31x768_S8x768_0_0 f _ _ _ q)

open Cert.KernelIdeal Cert.KernelIdeal.Gen in
/-- The running row plus received rows 8..15, at column `q`. -/
theorem pay4_apply (a : FVec Ideal S768 .f32) (f : Vec Ideal S31x768 .f32) (q : Fin 768) :
    k0_pay4 (F := Ideal) a (rdC (F := Ideal) 8 S8x768.size Facts₀.inb_S31x768_S8x768_8_0 f) (ix1 q)
      = a (ix1 q) + ∑ r : Fin 8, f (ix2 (⟨8 + r.val, row_lt Facts₀.inb_S31x768_S8x768_8_0 r⟩ : Fin 31) q) :=
  congrArg (a (ix1 q) + ·) (grp_apply (n := 8) 8 Facts₀.inb_S31x768_S8x768_8_0 f _ _ _ q)

open Cert.KernelIdeal Cert.KernelIdeal.Gen in
/-- The running row plus received rows 16..23, at column `q`. -/
theorem pay5_apply (a : FVec Ideal S768 .f32) (f : Vec Ideal S31x768 .f32) (q : Fin 768) :
    k0_pay5 (F := Ideal) a (rdC (F := Ideal) 16 S8x768.size Facts₀.inb_S31x768_S8x768_16_0 f) (ix1 q)
      = a (ix1 q) + ∑ r : Fin 8, f (ix2 (⟨16 + r.val, row_lt Facts₀.inb_S31x768_S8x768_16_0 r⟩ : Fin 31) q) :=
  congrArg (a (ix1 q) + ·) (grp_apply (n := 8) 16 Facts₀.inb_S31x768_S8x768_16_0 f _ _ _ q)

open Cert.KernelIdeal Cert.KernelIdeal.Gen in
/-- The running row plus received rows 24..30, at column `q`. -/
theorem pay6_apply (a : FVec Ideal S768 .f32) (f : Vec Ideal S31x768 .f32) (q : Fin 768) :
    k0_pay6 (F := Ideal) a (rdC (F := Ideal) 24 S7x768.size Facts₀.inb_S31x768_S7x768_24_0 f) (ix1 q)
      = a (ix1 q) + ∑ r : Fin 7, f (ix2 (⟨24 + r.val, row_lt Facts₀.inb_S31x768_S7x768_24_0 r⟩ : Fin 31) q) :=
  congrArg (a (ix1 q) + ·) (grp_apply (n := 7) 24 Facts₀.inb_S31x768_S7x768_24_0 f _ _ _ q)

/-! ## The kernel's result at a column -/

/-- Column `q` of device `c'`'s block, summed over the block's 1536 rows. -/
def colsum (xs : Dev Cert.KernelIdeal.nD → Vec Ideal Cert.KernelIdeal.S1536x768 .f32) (q : Fin 768)
    (c' : Dev Cert.KernelIdeal.nD) : EReal :=
  ∑ k : Fin 1536, xs c' (ix2 k q)

/-- Device `c`'s result at column `q`: the sum of all 32 blocks' column sums, times 1/49152. -/
theorem outF_apply (xs : Dev Cert.KernelIdeal.nD → Vec Ideal Cert.KernelIdeal.S1536x768 .f32) (c : Dev Cert.KernelIdeal.nD)
    (u : Fin 1) (q : Fin 768) :
    outF (F := Ideal) xs c (ix2 u q) = (∑ c' : Dev Cert.KernelIdeal.nD, colsum xs q c') * ((1 / 49152 : ℝ) : EReal) := by
  unfold outF
  rw [pay8_apply, pay7_apply, pay6_apply, pay5_apply, pay4_apply, pay3_apply, pay2_apply, rdS_eq, sendF_apply]
  simp only [commF_apply]
  refine congrArg (· * _) ?_
  exact (groups (colsum xs q c) (fun i => colsum xs q (peer c (31 - i)))).trans (own_add_received (colsum xs q) c)

/-! ## The reference's result at a column -/

/-- The reference at column `q`: the sum of column `q` over all 49152 rows, divided by the real 49152. -/
theorem refTerm_apply (X : Vec Ideal Cert.ReferenceIdeal.S49152x768 .f32) (u : Fin 1) (q : Fin 768) :
    refTerm X (ix2 u q) = Ideal.div (∑ j : Fin 49152, X (ix2 j q)) ((49152 : ℝ) : EReal) := by
  show Cert.ReferenceIdeal.Read.val_main_v3 (F := Ideal) X (ix2 u q) = _
  rw [Cert.ReferenceIdeal.Read.val_main_v3_apply, Cert.ReferenceIdeal.Read.val_main_v1_apply,
    Cert.ReferenceIdeal.Read.val_main_v0_apply, Cert.ReferenceIdeal.Read.val_main_v2_apply,
    Cert.ReferenceIdeal.Read.val_main_cst_0_apply, Cert.ReferenceIdeal.Read.val_main_cst_apply]
  rw [Ideal.hostDivf_def, Ideal.ofBits_def, Ideal.ofBits_def, Ideal.ofBits_zero_f32, ofBits_49152, zero_add]
  have hidx : ∀ j : Fin 49152,
      Cert.ReferenceIdeal.Read.idx_main_v0 (Cert.ReferenceIdeal.Read.idx_main_v1 (ix2 u q)) j = ix2 j q := fun j => by
    funext a
    match a with
    | ⟨0, _⟩ => rfl
    | ⟨1, _⟩ => rfl
  simp only [hidx]

/-- Row `k` of device `c'`'s block is row `c' · 1536 + k` of the whole array. -/
theorem blockOf_apply (X : Vec Ideal Cert.ReferenceIdeal.S49152x768 .f32) (c' : Dev Cert.KernelIdeal.nD) (k : Fin 1536) (q : Fin 768) :
    blockOf X c' (ix2 k q) = X (ix2 (⟨c'.val * 1536 + k.val, blk_lt c' k⟩ : Fin 49152) q) := by
  unfold blockOf
  rw [Layout.block_apply]
  refine congrArg X ?_
  funext a; apply Fin.ext
  match a with | ⟨0, _⟩ => rfl | ⟨1, _⟩ => rfl

/-- THE VALUE: every device's result row is the reference's. -/
theorem outF_eq_ref (X : Vec Ideal Cert.ReferenceIdeal.S49152x768 .f32) (c : Dev Cert.KernelIdeal.nD) :
    outF (F := Ideal) (blockOf X) c = refTerm X := by
  funext i
  obtain ⟨u, q, rfl⟩ : ∃ (u : Fin 1) (q : Fin 768), i = ix2 u q := ⟨i 0, i 1, eq_ix2 i⟩
  rw [outF_apply, refTerm_apply, Ideal.div_coe (by norm_num : (49152 : ℝ) ≠ 0)]
  refine congrArg (· * _) ?_
  rw [sum_rows (fun j => X (ix2 j q))]
  exact Finset.sum_congr rfl fun c' _ => Finset.sum_congr rfl fun k _ => blockOf_apply X c' k q

end Cert.RefSide

end
-- ==== Proof.Assemble.lean ====
/-
  The claims about the idealized kernel against the reference, from the kernel's run with its values named:
  each device's block of x is its block of the reference's whole array, so its result row, the payload term of the
  32 blocks, is the reference's mean (Value.lean); the named constant's statement is the ledger's one entry.
-/
import proofs.«900944_g7700000000000945_dist_mean_ax0_shard0_i_m1536_n768_v7x_i32_f32_1_alg».proof.Proof.Value
import proofs.«900944_g7700000000000945_dist_mean_ax0_shard0_i_m1536_n768_v7x_i32_f32_1_alg».proof.Proof.Gen.Pre_finite_inputs_Kernel

noncomputable section

namespace Cert.RefSide

open Idealize.ShloMosaic Idealize.ShloMosaic.TcCoe Idealize.SL.Sem
open Cert.KernelIdeal.Hand

/-- The window over the whole block at its one grid point reads the whole block: what a device stages of `x` is its
    argument array. -/
theorem xstg_eq (m : (ℓ : Loc Cert.KernelIdeal.nD Cert.KernelIdeal.τ Cert.KernelIdeal.sig) → Buf (Elt Ideal) ℓ)
    (c : Dev Cert.KernelIdeal.nD) :
    xstg (F := Ideal) m c = m ((c.tc : Thread Cert.KernelIdeal.nD Cert.KernelIdeal.τ).loc Cert.KernelIdeal.main_arg0) := by
  unfold xstg
  exact Memref.read_access_unit_zero (Elt Ideal) Cert.KernelIdeal.main_arg0 (by funext a; fin_cases a <;> rfl) _ _

/-- The ledger's one entry: the table gives "inv_m" the value 1/49152. -/
theorem preserves : Cert.preserves_Kernel_KernelIdeal :=
  IdealRules.named_const.statement Cert.KernelIdeal.κ "inv_m" .f32 0x37AAAAAB#32 ((1 / 49152 : ℝ) : EReal) rfl

/-- `algebraic`, from the idealized kernel's run with its result named `outV`. -/
theorem algebraic_of
    (hrun : ∀ (m : (ℓ : Loc Cert.KernelIdeal.nD Cert.KernelIdeal.τ Cert.KernelIdeal.sig) → Buf (Elt Ideal) ℓ) (g : Dev Cert.KernelIdeal.nD → PrngReg),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
        r.2.mem ((c.tc : Thread Cert.KernelIdeal.nD Cert.KernelIdeal.τ).loc Cert.KernelIdeal.main_v1) = outV (F := Ideal) m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))) :
    @Cert.algebraic_KernelIdeal_ReferenceIdeal Cert.KernelIdeal.Gen.facts Cert.ReferenceIdeal.Gen.facts Cert.Pre_finite_inputs_Kernel.Gen.facts := by
  intro m g m' g' hpre hagree
  -- every device's staged block is its block of the reference's whole array
  have hx : xstg (F := Ideal) m
      = blockOf (m' (((0 : Dev Cert.ReferenceIdeal.nD).tc : Thread Cert.ReferenceIdeal.nD Cert.ReferenceIdeal.τ).loc Cert.ReferenceIdeal.main_arg0)) :=
    funext fun c => (xstg_eq m c).trans (hagree c)
  refine ⟨refTerm (m' (((0 : Dev Cert.ReferenceIdeal.nD).tc : Thread Cert.ReferenceIdeal.nD Cert.ReferenceIdeal.τ).loc Cert.ReferenceIdeal.main_arg0)), ?_, ref_run m' g'⟩
  refine (θ_run (Cert.KernelIdeal.defs (F := Ideal)) _ _).mono (fun r h c => ⟨(h c).1.trans ?_, (h c).2⟩) (hrun m g)
  show outF (F := Ideal) (xstg (F := Ideal) m) c = _
  rw [hx]
  exact outF_eq_ref _ c

end Cert.RefSide

end
-- ==== Proof.lean ====
/-
  The certificate of the 32-device column mean: on a ring of 32 devices every device sends the column sums of its
  1536 x 768 block to each of the 31 others (after an all-pairs handshake on the runtime's barrier semaphore, which
  tells it that every other device is inside the kernel and hands it the row of that device's receive buffer it may
  write), adds its own sums and the 31 rows it receives and scales by 1/49152; the reference is the mean over all
  49152 rows of the whole array.

  * The frames (the word-level kernel and the idealized kernel): the protocol's run. Every device waits only below
    what it still owes (barrier cells below receive cells), every wait's units are paid by a duty of another device's
    body, so every weakly fair execution terminates; nothing faults; the blocks of x are only read.
  * preserves: the ideal pass named one constant, the f32 word of 1/49152, and the table gives it that value.
  * algebraic: the result row of every device is the sum over all 32 blocks of their column sums times 1/49152, and the
    column sums of the 32 blocks add up to the column sums of the whole array, which the reference divides by 49152.
-/
import proofs.«900944_g7700000000000945_dist_mean_ax0_shard0_i_m1536_n768_v7x_i32_f32_1_alg».proof.Defs
import proofs.«900944_g7700000000000945_dist_mean_ax0_shard0_i_m1536_n768_v7x_i32_f32_1_alg».proof.Proof.Gen.Kernel
import proofs.«900944_g7700000000000945_dist_mean_ax0_shard0_i_m1536_n768_v7x_i32_f32_1_alg».proof.Proof.Gen.Kernel.Skeleton
import proofs.«900944_g7700000000000945_dist_mean_ax0_shard0_i_m1536_n768_v7x_i32_f32_1_alg».proof.Proof.Gen.Kernel.Launch
import proofs.«900944_g7700000000000945_dist_mean_ax0_shard0_i_m1536_n768_v7x_i32_f32_1_alg».proof.Proof.Gen.Kernel.Points
import proofs.«900944_g7700000000000945_dist_mean_ax0_shard0_i_m1536_n768_v7x_i32_f32_1_alg».proof.Proof.Gen.Kernel.Frame
import proofs.«900944_g7700000000000945_dist_mean_ax0_shard0_i_m1536_n768_v7x_i32_f32_1_alg».proof.Proof.Gen.KernelIdeal
import proofs.«900944_g7700000000000945_dist_mean_ax0_shard0_i_m1536_n768_v7x_i32_f32_1_alg».proof.Proof.Gen.KernelIdeal.Skeleton
import proofs.«900944_g7700000000000945_dist_mean_ax0_shard0_i_m1536_n768_v7x_i32_f32_1_alg».proof.Proof.Gen.KernelIdeal.Launch
import proofs.«900944_g7700000000000945_dist_mean_ax0_shard0_i_m1536_n768_v7x_i32_f32_1_alg».proof.Proof.Gen.KernelIdeal.Points
import proofs.«900944_g7700000000000945_dist_mean_ax0_shard0_i_m1536_n768_v7x_i32_f32_1_alg».proof.Proof.Gen.KernelIdeal.Frame
import proofs.«900944_g7700000000000945_dist_mean_ax0_shard0_i_m1536_n768_v7x_i32_f32_1_alg».proof.Proof.Gen.ReferenceIdeal
import proofs.«900944_g7700000000000945_dist_mean_ax0_shard0_i_m1536_n768_v7x_i32_f32_1_alg».proof.Proof.Gen.Pre_finite_inputs_Kernel
import proofs.«900944_g7700000000000945_dist_mean_ax0_shard0_i_m1536_n768_v7x_i32_f32_1_alg».proof.Proof.Gen.Pre_finite_inputs_ReferenceIdeal
import proofs.«900944_g7700000000000945_dist_mean_ax0_shard0_i_m1536_n768_v7x_i32_f32_1_alg».proof.Proof.Oblig
import proofs.«900944_g7700000000000945_dist_mean_ax0_shard0_i_m1536_n768_v7x_i32_f32_1_alg».proof.Proof.Final
import proofs.«900944_g7700000000000945_dist_mean_ax0_shard0_i_m1536_n768_v7x_i32_f32_1_alg».proof.Proof.Bits.Oblig
import proofs.«900944_g7700000000000945_dist_mean_ax0_shard0_i_m1536_n768_v7x_i32_f32_1_alg».proof.Proof.Bits.Final
import proofs.«900944_g7700000000000945_dist_mean_ax0_shard0_i_m1536_n768_v7x_i32_f32_1_alg».proof.Proof.Assemble
import Idealize.ShloMosaic.Adequacy
import Idealize.ShloMosaic.Init

noncomputable section

namespace Cert.Proof

open Idealize.ShloMosaic Idealize.SL.Sem

/-- The word-level kernel runs and leaves every device's block of x as it was. -/
theorem frame_k : @Cert.frame_Kernel Cert.Kernel.Gen.facts Cert.Pre_finite_inputs_Kernel.Gen.facts := fun m g _ =>
  (θ_run (Cert.Kernel.defs (F := Bits)) _ _).mono (fun _ h c => (h c).2)
    (Cert.Kernel.Hand.kernel_run (F := Bits) m g (fun c => Cert.Kernel.Hand.body_obligation m g c))

/-- The idealized kernel runs and leaves every device's block of x as it was. -/
theorem frame_ki : @Cert.frame_KernelIdeal Cert.KernelIdeal.Gen.facts Cert.Pre_finite_inputs_Kernel.Gen.facts := fun m g _ =>
  (θ_run (Cert.KernelIdeal.defs (F := Ideal)) _ _).mono (fun _ h c => (h c).2)
    (Cert.KernelIdeal.Hand.kernel_run (F := Ideal) m g (fun c => Cert.KernelIdeal.Hand.body_obligation m g c))

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_k, frame_ki, Cert.RefSide.frame_ri, Cert.RefSide.preserves,
    Cert.RefSide.algebraic_of fun m g =>
      Cert.KernelIdeal.Hand.kernel_run (F := Ideal) m g (fun c => Cert.KernelIdeal.Hand.body_obligation m g c)⟩

end Cert.Proof

end
